-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S256x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x256 .f32) (main_arg1 : FVec F S100000x128 .f32) (main_arg2 : FVec F S256x128 .f32) (main_arg3 : FVec F S128 .f32) (main_arg4 : FVec F S256x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : IVec S1600000 32) (main_arg15 : IVec S1600000 32) (main_arg16 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x256 : Shape := ⟨2, ![100000, 256]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1x128 : Shape := ⟨2, ![1, 128]⟩
abbrev S5000x256 : Shape := ⟨2, ![5000, 256]⟩
abbrev S5000x128 : Shape := ⟨2, ![5000, 128]⟩
abbrev S100000x1 : Shape := ⟨2, ![100000, 1]⟩
abbrev S5000x1 : Shape := ⟨2, ![5000, 1]⟩
abbrev S1600000x128 : Shape := ⟨2, ![1600000, 128]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩

abbrev nBuf : Space → Nat
  | .hbm => 108
  | .vmem => 69
  | .smem => 0
  | _ => 0

abbrev bufTy : (tb : Table) → Fin (tcTables nBuf tb) → BufTy
  | .hbm, ⟨0, _⟩ => ⟨S100000x256, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1600000, .i32⟩
  | .hbm, ⟨15, _⟩ => ⟨S1600000, .i32⟩
  | .hbm, ⟨16, _⟩ => ⟨S100000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S1x128, .f32⟩
  | .hbm, ⟨36, _⟩ => ⟨S1x128, .f32⟩
  | .hbm, ⟨37, _⟩ => ⟨S100000x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x1, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x1, .f32⟩
  | .hbm, ⟨65, _⟩ => ⟨S100000x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x1, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S1x128, .f32⟩
  | .hbm, ⟨92, _⟩ => ⟨S100000x1, .f32⟩
  | .hbm, ⟨93, _⟩ => ⟨S100000x128, .f32⟩
  | .hbm, ⟨94, _⟩ => ⟨S100000x1, .i32⟩
  | .hbm, ⟨95, _⟩ => ⟨S64x128, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x128, .f32⟩
  | .hbm, ⟨107, _⟩ => ⟨S64x128, .f32⟩
  | .local _ .vmem, ⟨0, _⟩ => ⟨S5000x256, .f32⟩
  | .local _ .vmem, ⟨1, _⟩ => ⟨S5000x256, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x1, .f32⟩
  | .local _ .vmem, ⟨51, _⟩ => ⟨S5000x1, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .f32⟩
  | .local _ .vmem, ⟨57, _⟩ => ⟨S5000x1, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x1, .i32⟩
  | .local _ .vmem, ⟨67, _⟩ => ⟨S5000x1, .i32⟩
  | .local _ .vmem, ⟨68, _⟩ => ⟨S64x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg5_1 : Ref sig .tc := ⟨.vmem, 51, rfl⟩
abbrev cc7_stg6_0 : Ref sig .tc := ⟨.vmem, 52, rfl⟩
abbrev cc7_stg6_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg4_1 : Ref sig .tc := ⟨.vmem, 61, rfl⟩
abbrev cc8_stg5_0 : Ref sig .tc := ⟨.vmem, 62, rfl⟩
abbrev cc8_stg5_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem5_1 : DmaSem sig := 24
abbrev cc3_sem6_0 : DmaSem sig := 25
abbrev cc3_sem6_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc7_sem6_0 : DmaSem sig := 52
abbrev cc7_sem6_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem4_1 : DmaSem sig := 61
abbrev cc8_sem5_0 : DmaSem sig := 62
abbrev cc8_sem5_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S5000x128_S5000x128_S5000x256_d1 : Shape.Concatenates [S5000x128, S5000x128] S5000x256 1
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S100000x1.size a
  hwx7_5 : ∀ i : grid7.Coords, EltTy.bits .f32 = 32 ∨ (Rect.block (s := S100000x1) S5000x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .i32 = 32 ∨ (Rect.block (s := S100000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v25) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S5000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v38) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v38) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S1x128.size cc5_transform_1 reads5_1 true true 1 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v38) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v42) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v38) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v41) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v44) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v45) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v46) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v47) S5000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v48) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v58) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v60) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg12) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v59) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v38) S5000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v61) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v61) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v62) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v63) S64x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x256 : Shape := ⟨2, ![100000, 256]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1x128 : Shape := ⟨2, ![1, 128]⟩
abbrev S100000x1 : Shape := ⟨2, ![100000, 1]⟩
abbrev S1600000x128 : Shape := ⟨2, ![1600000, 128]⟩
abbrev S64x128 : Shape := ⟨2, ![64, 128]⟩
abbrev S64 : Shape := ⟨1, ![64]⟩
abbrev S64x1 : Shape := ⟨2, ![64, 1]⟩

abbrev nBuf : Space → Nat
  | .hbm => 202
  | .vmem => 0
  | .smem => 0
  | _ => 0

abbrev hbmTy0_0 (i : Nat) : BufTy := match i % 128 with
  | 0 => ⟨S100000x256, .f32⟩
  | 1 => ⟨S100000x128, .f32⟩
  | 2 => ⟨S256x128, .f32⟩
  | 3 => ⟨S128, .f32⟩
  | 4 => ⟨S256x128, .f32⟩
  | 5 => ⟨S128, .f32⟩
  | 6 => ⟨S128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1600000, .i32⟩
  | 15 => ⟨S1600000, .i32⟩
  | 16 => ⟨S100000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S100000x128, .f32⟩
  | 36 => ⟨S1x128, .f32⟩
  | 37 => ⟨S100000x128, .f32⟩
  | 38 => ⟨S100000x128, .f32⟩
  | 39 => ⟨S100000x256, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S100000x1, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x1, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | 1 => ⟨S100000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S_, .f32⟩
  | 19 => ⟨S128, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x128, .f32⟩
  | 58 => ⟨S_, .f32⟩
  | 59 => ⟨S64x128, .f32⟩
  | 60 => ⟨S100000x1, .i32⟩
  | 61 => ⟨S64x128, .f32⟩
  | 62 => ⟨S_, .f32⟩
  | 63 => ⟨S100000, .f32⟩
  | 64 => ⟨S_, .f32⟩
  | 65 => ⟨S64, .f32⟩
  | 66 => ⟨S100000x1, .i32⟩
  | 67 => ⟨S64, .f32⟩
  | 68 => ⟨S_, .f32⟩
  | 69 => ⟨S64, .f32⟩
  | 70 => ⟨S64, .f32⟩
  | 71 => ⟨S64x1, .f32⟩
  | 72 => ⟨S64x128, .f32⟩
  | 73 => ⟨S64x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_6 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_c_7 : Ref sig .tc := ⟨.hbm, 91, rfl⟩
abbrev main_v44 : Ref sig .tc := ⟨.hbm, 92, rfl⟩
abbrev main_v45 : Ref sig .tc := ⟨.hbm, 93, rfl⟩
abbrev main_c_8 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_9 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call1_cst : Ref sig .tc := ⟨.hbm, 111, rfl⟩
abbrev main_call1_v0 : Ref sig .tc := ⟨.hbm, 112, rfl⟩
abbrev main_v61 : Ref sig .tc := ⟨.hbm, 113, rfl⟩
abbrev main_v62 : Ref sig .tc := ⟨.hbm, 114, rfl⟩
abbrev main_cst_10 : Ref sig .tc := ⟨.hbm, 115, rfl⟩
abbrev main_v63 : Ref sig .tc := ⟨.hbm, 116, rfl⟩
abbrev main_cst_11 : Ref sig .tc := ⟨.hbm, 117, rfl⟩
abbrev main_v64 : Ref sig .tc := ⟨.hbm, 118, rfl⟩
abbrev main_v65 : Ref sig .tc := ⟨.hbm, 119, rfl⟩
abbrev main_c_12 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_13 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_14 : Ref sig .tc := ⟨.hbm, 162, rfl⟩
abbrev main_v85 : Ref sig .tc := ⟨.hbm, 163, rfl⟩
abbrev main_v86 : Ref sig .tc := ⟨.hbm, 164, rfl⟩
abbrev main_c_15 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_16 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_call3_cst : Ref sig .tc := ⟨.hbm, 182, rfl⟩
abbrev main_call3_v0 : Ref sig .tc := ⟨.hbm, 183, rfl⟩
abbrev main_v102 : Ref sig .tc := ⟨.hbm, 184, rfl⟩
abbrev main_v103 : Ref sig .tc := ⟨.hbm, 185, rfl⟩
abbrev main_cst_17 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_cst_18 : Ref sig .tc := ⟨.hbm, 190, rfl⟩
abbrev main_v107 : Ref sig .tc := ⟨.hbm, 191, rfl⟩
abbrev main_cst_19 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_cst_20 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Stages.lean ====
/-
  The network's stages, each as ONE function of whole arrays over the extended reals: the degree normalisers,
  the two fused input linears, batch statistics over the node axis, the normalised and out-degree-scaled
  features, the edge aggregation (a gather by source then a sum by destination), the in-degree-scaled
  matmul with bias, relu and residual, and the per-graph mean readout. Each is written with the host
  operations the reference applies, so that the reference's result is their composition `total` on the nose,
  and the tiled kernels are compared against the same functions, region by region.
-/
import proofs.«426980_j56813827392376_1_alg».proof.ReferenceIdeal
import Idealize.ShloMosaic.PureOps.Ideal

noncomputable section

namespace Cert.ReferenceIdeal.Stage

open Idealize.ShloMosaic Idealize.SL.Sem Cert.ReferenceIdeal

variable [Facts]
open Facts₀ Facts

/-- The scalar zero and the scalar node count 100000, as rank-zero arrays. -/
def zeroS : FVec Ideal S_ .f32 := constant (F := Ideal) S_ .f32 0x00000000#32
def oneS : FVec Ideal S_ .f32 := constant (F := Ideal) S_ .f32 0x3F800000#32
def nNodes : FVec Ideal S_ .f32 := constant (F := Ideal) S_ .f32 0x47C35000#32
def epsS : FVec Ideal S_ .f32 := constant (F := Ideal) S_ .f32 0x3727C5AC#32

/-- A length-128 vector repeated down the 100000 rows. -/
def rowBias (b : FVec Ideal S128 .f32) : FVec Ideal S100000x128 .f32 :=
  broadcastInDim S100000x128 ![0, 1] bcast_S1x128_S100000x128_0_1 (broadcastInDim S1x128 ![1] bcast_S128_S1x128_1 b)

/-- A per-node scalar repeated across the 128 columns. -/
def colScale (v : FVec Ideal S100000 .f32) : FVec Ideal S100000x128 .f32 :=
  broadcastInDim S100000x128 ![0, 1] bcast_S100000x1_S100000x128_0_1 (broadcastInDim S100000x1 ![0] bcast_S100000_S100000x1_0 v)

/-- An edge-endpoint list as a column of scatter / gather indices. -/
def idxCol (idx : IVec S1600000 32) : IVec S1600000x1 32 :=
  broadcastInDim S1600000x1 ![0] bcast_S1600000_S1600000x1_0 idx

/-- `1 / sqrt (max (number of edges whose endpoint is the node) 1)`. -/
def degInv (idx : IVec S1600000 32) : FVec Ideal S100000 .f32 :=
  Host.rsqrt (maximumf
    (Host.scatterAdd scatter_S100000_S1600000x1_S1600000_n_0_0_1
      (broadcastInDim S100000 ![] bcast_S_S100000 zeroS) (idxCol idx) (broadcastInDim S1600000 ![] bcast_S_S1600000 oneS))
    (broadcastInDim S100000 ![] bcast_S_S100000 oneS))

/-- `concat (h2 · W1 + b1, h3) · W2 + b2`. -/
def linear (h2 : FVec Ideal S100000x256 .f32) (h3 : FVec Ideal S100000x128 .f32) (W1 : FVec Ideal S256x128 .f32)
    (b1 : FVec Ideal S128 .f32) (W2 : FVec Ideal S256x128 .f32) (b2 : FVec Ideal S128 .f32) : FVec Ideal S100000x128 .f32 :=
  addf (Host.dotGeneral dot_S100000x256_S256x128_S100000x128_1_0_0_1_n_n none
      (concatenate S100000x256 1
        [⟨S100000x128, addf (Host.dotGeneral dot_S100000x256_S256x128_S100000x128_1_0_0_1_n_n none h2 W1) (rowBias b1)⟩,
         ⟨S100000x128, h3⟩] concatenates_S100000x128_S100000x128_S100000x256_d1) W2)
    (rowBias b2)

/-- The column sums over the node axis. -/
def colSum (h : FVec Ideal S100000x128 .f32) : FVec Ideal S128 .f32 :=
  Host.reduceAdd h zeroS reducesTo_S100000x128_S128_d0 h_S_

/-- The column means. -/
def mean (h : FVec Ideal S100000x128 .f32) : FVec Ideal S128 .f32 :=
  Host.divf (colSum h) (broadcastInDim S128 ![] bcast_S_S128 nNodes)

/-- The column sums of squared deviations from a given per-column centre. -/
def sqSum (h : FVec Ideal S100000x128 .f32) (μ : FVec Ideal S128 .f32) : FVec Ideal S128 .f32 :=
  Host.reduceAdd (mulf (subf h (rowBias μ)) (subf h (rowBias μ))) zeroS reducesTo_S100000x128_S128_d0 h_S_

/-- The deviations from the column means, the mean taken as a one-row matrix (the form the biased-variance routine uses). -/
def centred (h : FVec Ideal S100000x128 .f32) : FVec Ideal S100000x128 .f32 :=
  subf h (broadcastInDim S100000x128 ![0, 1] bcast_S1x128_S100000x128_0_1
    (Host.divf (broadcastInDim S1x128 ![1] bcast_S128_S1x128_1 (colSum h)) (broadcastInDim S1x128 ![] bcast_S_S1x128 nNodes)))

/-- The routine's normaliser `n - ddof` at `ddof = 0`. -/
def normaliser : FVec Ideal S_ .f32 := subf nNodes (sitofp .f32 (constantI S_ 32 0#32))

/-- The biased column variances, as the routine computes them: the sum of squared deviations over the normaliser
    where the normaliser is positive (it is), a not-a-number pattern otherwise. -/
def var (h : FVec Ideal S100000x128 .f32) : FVec Ideal S128 .f32 :=
  select (broadcastInDim S128 ![] bcast_S_S128 (cmpf .ogt normaliser zeroS))
    (Host.divf (Host.reduceAdd (mulf (centred h) (centred h)) zeroS reducesTo_S100000x128_S128_d0 h_S_)
      (broadcastInDim S128 ![] bcast_S_S128 normaliser))
    (broadcastInDim S128 ![] bcast_S_S128 (id (constant (F := Ideal) S_ .f32 0x7FC00000#32)))

/-- Normalise by given centres and variances, scale and shift per column, then scale each node's row. -/
def bnWith (h : FVec Ideal S100000x128 .f32) (μ σ2 γ β : FVec Ideal S128 .f32) (oi : FVec Ideal S100000 .f32) :
    FVec Ideal S100000x128 .f32 :=
  mulf (addf (mulf (mulf (subf h (rowBias μ))
      (rowBias (Host.rsqrt (addf σ2 (broadcastInDim S128 ![] bcast_S_S128 epsS))))) (rowBias γ)) (rowBias β)) (colScale oi)

/-- Batch normalisation over the node axis followed by the out-degree scaling. -/
def bn (h : FVec Ideal S100000x128 .f32) (γ β : FVec Ideal S128 .f32) (oi : FVec Ideal S100000 .f32) : FVec Ideal S100000x128 .f32 :=
  bnWith h (mean h) (var h) γ β oi

/-- The source list with negative entries wrapped by the node count. -/
def wrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- Each destination node's sum of its incoming edges' source rows. -/
def agg (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 zeroS) (idxCol dst)
    (Host.gather gather_S100000x128_S1600000x1_S1600000x128_1_0_n_n_0_1_1128 x (idxCol (wrapSrc src)))

/-- `pre + relu ((a scaled per node) · W + b)`. -/
def conv (a : FVec Ideal S100000x128 .f32) (ii : FVec Ideal S100000 .f32) (W : FVec Ideal S128x128 .f32)
    (b : FVec Ideal S128 .f32) (pre : FVec Ideal S100000x128 .f32) : FVec Ideal S100000x128 .f32 :=
  addf pre (maximumf (addf (Host.dotGeneral dot_S100000x128_S128x128_S100000x128_1_0_0_1_n_n none (mulf a (colScale ii)) W) (rowBias b))
    (broadcastInDim S100000x128 ![] bcast_S_S100000x128 zeroS))

/-- A graph id list as a column of scatter indices. -/
def gidCol (gid : IVec S100000 32) : IVec S100000x1 32 :=
  broadcastInDim S100000x1 ![0] bcast_S100000_S100000x1_0 gid

/-- Each graph's sum of its nodes' rows. -/
def segSum (h : FVec Ideal S100000x128 .f32) (gid : IVec S100000 32) : FVec Ideal S64x128 .f32 :=
  Host.scatterAdd scatter_S64x128_S100000x1_S100000x128_1_0_0_1 (broadcastInDim S64x128 ![] bcast_S_S64x128 zeroS) (gidCol gid) h

/-- Each graph's node count, clamped below by one, repeated across the columns. -/
def cnt (gid : IVec S100000 32) : FVec Ideal S64x128 .f32 :=
  broadcastInDim S64x128 ![0, 1] bcast_S64x1_S64x128_0_1 (broadcastInDim S64x1 ![0] bcast_S64_S64x1_0
    (maximumf (Host.scatterAdd scatter_S64_S100000x1_S100000_n_0_0_1 (broadcastInDim S64 ![] bcast_S_S64 zeroS) (gidCol gid)
      (broadcastInDim S100000 ![] bcast_S_S100000 oneS)) (broadcastInDim S64 ![] bcast_S_S64 oneS)))

/-- One graph-convolution layer with its residual. -/
def layer (h : FVec Ideal S100000x128 .f32) (γ β : FVec Ideal S128 .f32) (W : FVec Ideal S128x128 .f32) (b : FVec Ideal S128 .f32)
    (src dst : IVec S1600000 32) : FVec Ideal S100000x128 .f32 :=
  conv (agg (bn h γ β (degInv src)) src dst) (degInv dst) W b h

/-- The whole network: two layers on the fused linears' output, then the per-graph mean. -/
def total (h2 : FVec Ideal S100000x256 .f32) (h3 : FVec Ideal S100000x128 .f32) (W1 : FVec Ideal S256x128 .f32)
    (b1 : FVec Ideal S128 .f32) (W2 : FVec Ideal S256x128 .f32) (b2 γ1 β1 γ2 β2 : FVec Ideal S128 .f32)
    (cW1 : FVec Ideal S128x128 .f32) (cb1 : FVec Ideal S128 .f32) (cW2 : FVec Ideal S128x128 .f32) (cb2 : FVec Ideal S128 .f32)
    (src dst : IVec S1600000 32) (gid : IVec S100000 32) : FVec Ideal S64x128 .f32 :=
  Host.divf (segSum (layer (layer (linear h2 h3 W1 b1 W2 b2) γ1 β1 cW1 cb1 src dst) γ2 β2 cW2 cb2 src dst) gid) (cnt gid)

end Cert.ReferenceIdeal.Stage

end
-- ==== Proof.Entry.lean ====
/-
  The type of "the TensorCore's buffer contents when a region is entered": what each region's value lemma is stated at.
-/
import proofs.«426980_j56813827392376_1_alg».proof.KernelIdeal
import Idealize.ShloMosaic.PureOps.Ideal

noncomputable section

namespace Cert.KernelIdeal.Val

open Idealize.ShloMosaic Idealize.ShloMosaic.TcCoe Idealize.SL.Sem Cert.KernelIdeal

/-- The TensorCore's buffer contents when a region is entered. -/
abbrev Entry := (c : Dev nD) → (b : Ref sig .tc) → Buf (Elt Ideal) ((c : Thread nD τ).loc b)

end Cert.KernelIdeal.Val

end
-- ==== Proof.Args.lean ====
/-
  The argument arrays as launched, and the node features after each stage, named once for the modules that follow
  the kernel program's buffers from segment to segment.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

variable (m : (ℓ : Loc nD τ sig) → Buf (Elt Ideal) ℓ)

/-- Argument 0 as launched, on core `c`. -/
abbrev a0 (c : Dev nD) : FVec Ideal S100000x256 .f32 := m ((c : Thread nD τ).loc main_arg0)
/-- Argument 1 as launched, on core `c`. -/
abbrev a1 (c : Dev nD) : FVec Ideal S100000x128 .f32 := m ((c : Thread nD τ).loc main_arg1)
/-- Argument 2 as launched, on core `c`. -/
abbrev a2 (c : Dev nD) : FVec Ideal S256x128 .f32 := m ((c : Thread nD τ).loc main_arg2)
/-- Argument 3 as launched, on core `c`. -/
abbrev a3 (c : Dev nD) : FVec Ideal S128 .f32 := m ((c : Thread nD τ).loc main_arg3)
/-- Argument 4 as launched, on core `c`. -/
abbrev a4 (c : Dev nD) : FVec Ideal S256x128 .f32 := m ((c : Thread nD τ).loc main_arg4)
/-- Argument 5 as launched, on core `c`. -/
abbrev a5 (c : Dev nD) : FVec Ideal S128 .f32 := m ((c : Thread nD τ).loc main_arg5)
/-- Argument 6 as launched, on core `c`. -/
abbrev a6 (c : Dev nD) : FVec Ideal S128 .f32 := m ((c : Thread nD τ).loc main_arg6)
/-- Argument 7 as launched, on core `c`. -/
abbrev a7 (c : Dev nD) : FVec Ideal S128 .f32 := m ((c : Thread nD τ).loc main_arg7)
/-- Argument 8 as launched, on core `c`. -/
abbrev a8 (c : Dev nD) : FVec Ideal S128 .f32 := m ((c : Thread nD τ).loc main_arg8)
/-- Argument 9 as launched, on core `c`. -/
abbrev a9 (c : Dev nD) : FVec Ideal S128 .f32 := m ((c : Thread nD τ).loc main_arg9)
/-- Argument 10 as launched, on core `c`. -/
abbrev a10 (c : Dev nD) : FVec Ideal S128x128 .f32 := m ((c : Thread nD τ).loc main_arg10)
/-- Argument 11 as launched, on core `c`. -/
abbrev a11 (c : Dev nD) : FVec Ideal S128 .f32 := m ((c : Thread nD τ).loc main_arg11)
/-- Argument 12 as launched, on core `c`. -/
abbrev a12 (c : Dev nD) : FVec Ideal S128x128 .f32 := m ((c : Thread nD τ).loc main_arg12)
/-- Argument 13 as launched, on core `c`. -/
abbrev a13 (c : Dev nD) : FVec Ideal S128 .f32 := m ((c : Thread nD τ).loc main_arg13)
/-- The edge sources, the edge destinations and the graph ids as launched. -/
abbrev a14 (c : Dev nD) : IVec S1600000 32 := m ((c : Thread nD τ).loc main_arg14)
abbrev a15 (c : Dev nD) : IVec S1600000 32 := m ((c : Thread nD τ).loc main_arg15)
abbrev a16 (c : Dev nD) : IVec S100000 32 := m ((c : Thread nD τ).loc main_arg16)

/-- The node features after the fused linears, after the first layer, and after the second. -/
abbrev H0 (c : Dev nD) : FVec Ideal S100000x128 .f32 :=
  Cert.ReferenceIdeal.Stage.linear (a0 m c) (a1 m c) (a2 m c) (a3 m c) (a4 m c) (a5 m c)
abbrev H1 (c : Dev nD) : FVec Ideal S100000x128 .f32 :=
  Cert.ReferenceIdeal.Stage.layer (H0 m c) (a6 m c) (a7 m c) (a10 m c) (a11 m c) (a14 m c) (a15 m c)
abbrev H2 (c : Dev nD) : FVec Ideal S100000x128 .f32 :=
  Cert.ReferenceIdeal.Stage.layer (H1 m c) (a8 m c) (a9 m c) (a12 m c) (a13 m c) (a14 m c) (a15 m c)

end Cert.KernelIdeal.Val

end
-- ==== Proof.VarLaw.lean ====
/-
  The biased-variance routine's value: its normaliser `n - 0` is the positive node count, so the routine returns the
  sum of squared deviations from the column means over the node count, and its one-row form of the means holds
  the same numbers as the column means repeated down the rows.
-/
import proofs.«426980_j56813827392376_1_alg».proof.Proof.Stages
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stage

open Idealize.ShloMosaic Idealize.ShloMosaic.ValueIdx Idealize.SL.Sem Cert.ReferenceIdeal

variable [Facts]
open Facts₀ Facts

/-- The pattern of the node count denotes the real `100000`: exponent field `143`, so the value is
    `(2^23 + 4411392) · 2^(143 - 127 - 23) = 12800000 / 128`. -/
theorem nNodes_apply (i : S_.Idx) : nNodes i = ((100000 : ℝ) : EReal) := by
  show Ideal.ofBits .f32 0x47C35000#32 = _
  simp [Ideal.ofBits, Ideal.ieee, -EReal.coe_mul]; norm_num

/-- The zero pattern denotes `0`. -/
theorem zeroS_apply (i : S_.Idx) : zeroS i = 0 := by
  show Ideal.ofBits .f32 0x00000000#32 = 0
  exact Ideal.ofBits_zero_f32

/-- The zero integer word converts to the real `0`, and `n - 0 = n`: the normaliser is the node count. -/
theorem normaliser_eq : normaliser = nNodes := by
  funext i
  show nNodes i - ((((0#32 : BitVec 32).toInt : ℝ)) : EReal) = nNodes i
  simp

/-- A scalar repeated along a vector reads the scalar at every index. -/
theorem bcast_scalar_apply {α : Type} (c : S_.Idx → α) (j : Fin 128) :
    broadcastInDim S128 ![] bcast_S_S128 c (ix1 j) = c ix0 :=
  broadcastInDim_apply _ _ _ _ ix0 (fun a => a.elim0)

/-- The normaliser is above zero, so the comparison answers the word `1`. -/
theorem normaliser_pos_word : cmpf .ogt normaliser zeroS ix0 = 1#1 := by
  rw [normaliser_eq]
  show Ideal.cmp .ogt (nNodes ix0) (zeroS ix0) = 1#1
  rw [nNodes_apply, zeroS_apply]
  simp [Ideal.cmp]

/-- A selection reads its first branch where the condition word is `1`. -/
theorem select_apply_of_one {s : Shape} {α : Type} (c : IVec s 1) (a b : s.Idx → α) (i : s.Idx) (hc : c i = 1#1) :
    select c a b i = a i := by
  show Scalar.select (c i) (a i) (b i) = a i
  unfold Scalar.select
  exact if_pos hc

/-- Dividing the one-row form of a vector by the node count, entry by entry, is the one-row form of the vector
    divided by the node count: both hold `c j / n` at column `j`. -/
theorem divf_row (c : FVec Ideal S128 .f32) :
    Host.divf (broadcastInDim S1x128 ![1] bcast_S128_S1x128_1 c) (broadcastInDim S1x128 ![] bcast_S_S1x128 nNodes)
      = broadcastInDim S1x128 ![1] bcast_S128_S1x128_1 (Host.divf c (broadcastInDim S128 ![] bcast_S_S128 nNodes)) := by
  funext i
  rfl

/-- The deviations the routine forms are the deviations from the column means repeated down the rows. -/
theorem centred_eq (h : FVec Ideal S100000x128 .f32) : centred h = subf h (rowBias (mean h)) := by
  unfold centred rowBias mean
  rw [divf_row]

/-- Column `j` of the routine's variance is the sum of squared deviations from the column means, over the node count. -/
theorem var_apply (h : FVec Ideal S100000x128 .f32) (j : Fin 128) :
    var h (ix1 j) = Host.divf (sqSum h (mean h)) (broadcastInDim S128 ![] bcast_S_S128 nNodes) (ix1 j) := by
  have hsel : broadcastInDim S128 ![] bcast_S_S128 (cmpf .ogt normaliser zeroS) (ix1 j) = 1#1 := by
    rw [bcast_scalar_apply]; exact normaliser_pos_word
  unfold var
  rw [select_apply_of_one _ _ _ _ hsel, centred_eq, normaliser_eq]
  rfl

end Cert.ReferenceIdeal.Stage

end
-- ==== Proof.FlowLib.lean ====
/-
  Value-level lemmas the buffer-flow modules share: the kernel program's host stretches apply the reference's own
  operations (its shape records are the reference's, field for field), a length-128 vector reshaped to one row and a
  per-node vector reshaped to one column hold the same numbers, and a one-row sum divided by the node count is the
  column mean (or, for sums of squared deviations from the means, the variance routine's value).
-/
import proofs.«426980_j56813827392376_1_alg».proof.KernelIdeal
import proofs.«426980_j56813827392376_1_alg».proof.Proof.Gen.KernelIdeal
import proofs.«426980_j56813827392376_1_alg».proof.Proof.Gen.ReferenceIdeal
import proofs.«426980_j56813827392376_1_alg».proof.Proof.Stages
import proofs.«426980_j56813827392376_1_alg».proof.Proof.VarLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Idealize.SL.Sem
open Cert.KernelIdeal
open Cert.KernelIdeal.Facts₀ Cert.KernelIdeal.Facts

/-- The kernel program's scatter and gather shape records are the reference's, field for field. -/
theorem scatter_deg_eq : Cert.KernelIdeal.scatter_S100000_S1600000x1_S1600000_n_0_0_1
    = Cert.ReferenceIdeal.scatter_S100000_S1600000x1_S1600000_n_0_0_1 := rfl
theorem scatter_agg_eq : Cert.KernelIdeal.scatter_S100000x128_S1600000x1_S1600000x128_1_0_0_1
    = Cert.ReferenceIdeal.scatter_S100000x128_S1600000x1_S1600000x128_1_0_0_1 := rfl
theorem gather_agg_eq : Cert.KernelIdeal.gather_S100000x128_S1600000x1_S1600000x128_1_0_n_n_0_1_1128
    = Cert.ReferenceIdeal.gather_S100000x128_S1600000x1_S1600000x128_1_0_n_n_0_1_1128 := rfl
theorem scatter_cnt_eq : Cert.KernelIdeal.scatter_S64_S100000x1_S100000_n_0_0_1
    = Cert.ReferenceIdeal.scatter_S64_S100000x1_S100000_n_0_0_1 := rfl

/-- The out- / in-degree normaliser as the kernel program's first host stretch computes it. -/
theorem degInv_eq (idx : IVec S1600000 32) :
    Host.rsqrt (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))
    = Cert.ReferenceIdeal.Stage.degInv idx := by
  unfold Cert.ReferenceIdeal.Stage.degInv Cert.ReferenceIdeal.Stage.idxCol Cert.ReferenceIdeal.Stage.zeroS
    Cert.ReferenceIdeal.Stage.oneS
  rw [scatter_deg_eq]

/-- The edge aggregation as the kernel program's host stretches compute it. -/
theorem agg_eq (x : FVec Ideal S100000x128 .f32) (src dst : IVec S1600000 32) :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
    = Cert.ReferenceIdeal.Stage.agg x src dst := by
  unfold Cert.ReferenceIdeal.Stage.agg Cert.ReferenceIdeal.Stage.idxCol Cert.ReferenceIdeal.Stage.wrapSrc
    Cert.ReferenceIdeal.Stage.zeroS
  rw [scatter_agg_eq, gather_agg_eq]

/-- The clamped per-graph node counts, repeated across the columns, as the kernel program's last host stretch computes them. -/
theorem cnt_eq (gid : IVec S100000 32) :
    broadcastInDim S64x128 ![0, 1] bcast_S64x1_S64x128_0_1 (broadcastInDim S64x1 ![0] bcast_S64_S64x1_0
      (maximumf (Host.scatterAdd scatter_S64_S100000x1_S100000_n_0_0_1
          (broadcastInDim S64 ![] bcast_S_S64 (constant (F := Ideal) S_ .f32 0x00000000#32))
          (broadcastInDim S100000x1 ![0] bcast_S100000_S100000x1_0 gid)
          (broadcastInDim S100000 ![] bcast_S_S100000 (constant (F := Ideal) S_ .f32 0x3F800000#32)))
        (broadcastInDim S64 ![] bcast_S_S64 (constant (F := Ideal) S_ .f32 0x3F800000#32))))
    = Cert.ReferenceIdeal.Stage.cnt gid := by
  unfold Cert.ReferenceIdeal.Stage.cnt Cert.ReferenceIdeal.Stage.gidCol Cert.ReferenceIdeal.Stage.zeroS
    Cert.ReferenceIdeal.Stage.oneS
  rw [scatter_cnt_eq]

/-- A length-128 vector reshaped to one row holds the same numbers. -/
theorem reshape_row (b : FVec Ideal S128 .f32) (j : Fin 128) :
    (shapeCast S1x128 b shapeCasts_S128_S1x128 : FVec Ideal S1x128 .f32) (ix2 0 j) = b (ix1 j) := by
  refine shapeCast_apply b _ (ix2 0 j) (ix1 j) ?_
  rw [Shape.rowMajor_val_one, Shape.rowMajor_val_two]
  show j.val = (0 : Fin 1).val * 128 + j.val
  simp

/-- A per-node vector reshaped to one column holds the same numbers (floats). -/
theorem reshape_col (v : FVec Ideal S100000 .f32) (r : Fin 100000) :
    (shapeCast S100000x1 v shapeCasts_S100000_S100000x1 : FVec Ideal S100000x1 .f32) (ix2 r 0) = v (ix1 r) := by
  refine shapeCast_apply v _ (ix2 r 0) (ix1 r) ?_
  rw [Shape.rowMajor_val_one, Shape.rowMajor_val_two]
  show r.val = r.val * 1 + (0 : Fin 1).val
  simp

/-- The same for a per-node vector of 32-bit integers. -/
theorem reshape_col_i (v : IVec S100000 32) (r : Fin 100000) :
    (shapeCast S100000x1 v shapeCasts_S100000_S100000x1 : IVec S100000x1 32) (ix2 r 0) = v (ix1 r) := by
  refine shapeCast_apply v _ (ix2 r 0) (ix1 r) ?_
  rw [Shape.rowMajor_val_one, Shape.rowMajor_val_two]
  show r.val = r.val * 1 + (0 : Fin 1).val
  simp

/-- One row of column sums divided by the node count is the column means. -/
theorem mean_row (s : FVec Ideal S1x128 .f32) (h : FVec Ideal S100000x128 .f32)
    (hs : ∀ j : Fin 128, s (ix2 0 j) = Cert.ReferenceIdeal.Stage.colSum h (ix1 j)) (j : Fin 128) :
    (Host.divf s (broadcastInDim S1x128 ![] bcast_S_S1x128 (constant (F := Ideal) S_ .f32 0x47C35000#32)) : FVec Ideal S1x128 .f32) (ix2 0 j)
      = Cert.ReferenceIdeal.Stage.mean h (ix1 j) := by
  show FloatOps.hostDivf (s (ix2 0 j)) (FloatOps.ofBits (F := Ideal) .f32 0x47C35000#32)
    = FloatOps.hostDivf (Cert.ReferenceIdeal.Stage.colSum h (ix1 j)) (FloatOps.ofBits (F := Ideal) .f32 0x47C35000#32)
  rw [hs j]

/-- One row of sums of squared deviations from the column means, divided by the node count, is the variance routine's value. -/
theorem var_row (s : FVec Ideal S1x128 .f32) (h : FVec Ideal S100000x128 .f32)
    (hs : ∀ j : Fin 128, s (ix2 0 j) = Cert.ReferenceIdeal.Stage.sqSum h (Cert.ReferenceIdeal.Stage.mean h) (ix1 j)) (j : Fin 128) :
    (Host.divf s (broadcastInDim S1x128 ![] bcast_S_S1x128 (constant (F := Ideal) S_ .f32 0x47C35000#32)) : FVec Ideal S1x128 .f32) (ix2 0 j)
      = Cert.ReferenceIdeal.Stage.var h (ix1 j) := by
  rw [Cert.ReferenceIdeal.Stage.var_apply]
  show FloatOps.hostDivf (s (ix2 0 j)) (FloatOps.ofBits (F := Ideal) .f32 0x47C35000#32)
    = FloatOps.hostDivf (Cert.ReferenceIdeal.Stage.sqSum h (Cert.ReferenceIdeal.Stage.mean h) (ix1 j))
        (FloatOps.ofBits (F := Ideal) .f32 0x47C35000#32)
  rw [hs j]

end Cert.KernelIdeal.Val

end
-- ==== Proof.RegLinear.lean ====
/-
  Region 0: the tiled fused linears compute, block by block, the whole-array `linear`.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Cert.KernelIdeal Cert.KernelIdeal.Gen
open Cert.ReferenceIdeal (Stage.linear Stage.colSum Stage.sqSum Stage.bnWith Stage.conv Stage.segSum)

namespace Linear

/-! ## The tile's matmul at an index -/

theorem lhsK_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsK_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsK_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsK_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A tile's matmul into the zero accumulator, at row `p` and column `q`: the sum over the 256 contraction positions. -/
theorem matmulK_apply (l : FVec Ideal S5000x256 .f32) (r : FVec Ideal S256x128 .f32) (p : Fin 5000) (q : Fin 128) :
    matmul (F := Ideal) dot_S5000x256_S256x128_S5000x128_1_0_0_1_n_n none l r (constant (F := Ideal) S5000x128 .f32 0x00000000#32) (ix2 p q)
      = ∑ k : Fin 256, l (ix2 p k) * r (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhsK_0 _ _
    | ⟨1, _⟩ => exact (lhsK_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhsK_0 _ _).trans hk
    | ⟨1, _⟩ => exact rhsK_1 _ _)
  rw [el, er]

/-! ## The whole array's product at an index -/

theorem lhsR_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem lhsR_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem rhsR_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem rhsR_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The whole array's product, at row `p` and column `q`: the same sum over the 256 contraction positions. -/
theorem dotR_apply (l : FVec Ideal S100000x256 .f32) (r : FVec Ideal S256x128 .f32) (p : Fin 100000) (q : Fin 128) :
    Host.dotGeneral (F := Ideal) Cert.ReferenceIdeal.dot_S100000x256_S256x128_S100000x128_1_0_0_1_n_n none l r (ix2 p q)
      = ∑ k : Fin 256, l (ix2 p k) * r (ix2 k q) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 p q) ((contrEquiv1 Cert.ReferenceIdeal.dot_S100000x256_S256x128_S100000x128_1_0_0_1_n_n 256 rfl rfl).symm k) = ix2 p k := funext fun a => Fin.ext (by
    match a with
    | ⟨0, _⟩ => exact lhsR_0 _ _
    | ⟨1, _⟩ => exact (lhsR_1 _ _).trans hk)
  have er : Cert.ReferenceIdeal.dot_S100000x256_S256x128_S100000x128_1_0_0_1_n_n.rhsIdx (ix2 p q) ((contrEquiv1 Cert.ReferenceIdeal.dot_S100000x256_S256x128_S100000x128_1_0_0_1_n_n 256 rfl rfl).symm k) = ix2 k q := funext fun a => Fin.ext (by
    match a with
    | ⟨0, _⟩ => exact (rhsR_0 _ _).trans hk
    | ⟨1, _⟩ => exact rhsR_1 _ _)
  rw [el, er]

/-! ## The bias rows and the concatenations at an index -/

/-- The tile's bias: the one-row operand repeated down the 5000 rows. -/
theorem biasK_apply (x : FVec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_1b_ab_apply x _ p q

/-- The whole array's bias: the length-128 vector repeated down the 100000 rows. -/
theorem biasR_apply (b : FVec Ideal S128 .f32) (r : Fin 100000) (q : Fin 128) :
    broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 r q) = b (ix1 q) := by
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

theorem catK_left (a b : FVec Ideal S5000x128 .f32) (p : Fin 5000) (k : Fin 256) (hk : k.val < 128) :
    concatenate S5000x256 1 [⟨S5000x128, a⟩, ⟨S5000x128, b⟩] concatenates_S5000x128_S5000x128_S5000x256_d1 (ix2 p k)
      = a (ix2 p ⟨k.val, hk⟩) := by
  refine concatenate_pair_apply_left (1 : Fin S5000x256.rank) a b _ (ix2 p k) rfl (ix2 p ⟨k.val, hk⟩) fun d => ?_
  match d with
  | ⟨0, _⟩ => rfl
  | ⟨1, _⟩ => rfl

theorem catK_right (a b : FVec Ideal S5000x128 .f32) (p : Fin 5000) (k : Fin 256) (hk : ¬ k.val < 128) :
    concatenate S5000x256 1 [⟨S5000x128, a⟩, ⟨S5000x128, b⟩] concatenates_S5000x128_S5000x128_S5000x256_d1 (ix2 p k)
      = b (ix2 p ⟨k.val - 128, by have := k.isLt; omega⟩) := by
  refine concatenate_pair_apply_right (1 : Fin S5000x256.rank) a b _ (ix2 p k) rfl rfl (ix2 p ⟨k.val - 128, by have := k.isLt; omega⟩) (fun d hd => ?_) ?_
  · match d with
    | ⟨0, _⟩ => rfl
    | ⟨1, _⟩ => exact absurd rfl hd
  · show (k.val - 128) + 128 = k.val
    omega

theorem catR_left (a b : FVec Ideal S100000x128 .f32) (p : Fin 100000) (k : Fin 256) (hk : k.val < 128) :
    concatenate Cert.ReferenceIdeal.S100000x256 1 [⟨Cert.ReferenceIdeal.S100000x128, a⟩, ⟨Cert.ReferenceIdeal.S100000x128, b⟩] Cert.ReferenceIdeal.Facts₀.concatenates_S100000x128_S100000x128_S100000x256_d1 (ix2 p k)
      = a (ix2 p ⟨k.val, hk⟩) := by
  refine concatenate_pair_apply_left (1 : Fin Cert.ReferenceIdeal.S100000x256.rank) a b _ (ix2 p k) rfl (ix2 p ⟨k.val, hk⟩) fun d => ?_
  match d with
  | ⟨0, _⟩ => rfl
  | ⟨1, _⟩ => rfl

theorem catR_right (a b : FVec Ideal S100000x128 .f32) (p : Fin 100000) (k : Fin 256) (hk : ¬ k.val < 128) :
    concatenate Cert.ReferenceIdeal.S100000x256 1 [⟨Cert.ReferenceIdeal.S100000x128, a⟩, ⟨Cert.ReferenceIdeal.S100000x128, b⟩] Cert.ReferenceIdeal.Facts₀.concatenates_S100000x128_S100000x128_S100000x256_d1 (ix2 p k)
      = b (ix2 p ⟨k.val - 128, by have := k.isLt; omega⟩) := by
  refine concatenate_pair_apply_right (1 : Fin Cert.ReferenceIdeal.S100000x256.rank) a b _ (ix2 p k) rfl rfl (ix2 p ⟨k.val - 128, by have := k.isLt; omega⟩) (fun d hd => ?_) ?_
  · match d with
    | ⟨0, _⟩ => rfl
    | ⟨1, _⟩ => exact absurd rfl hd
  · show (k.val - 128) + 128 = k.val
    omega

/-- The whole array's bias, as the stage writes it. -/
theorem rowBias_apply (b : FVec Ideal S128 .f32) (r : Fin 100000) (q : Fin 128) :
    Cert.ReferenceIdeal.Stage.rowBias b (ix2 r q) = b (ix1 q) := by
  unfold Cert.ReferenceIdeal.Stage.rowBias
  exact biasR_apply b r q

/-! ## The tile's arithmetic at an index is the whole array's at the tile's row -/

/-- The first linear: row `p` of a tile whose operands are row `r` of the node features, the weights and the bias row,
    is row `r` of the whole array's first linear. -/
theorem first_apply (x0 : FVec Ideal S5000x256 .f32) (x1 : FVec Ideal S256x128 .f32) (x3 : FVec Ideal S1x128 .f32)
    (h2 : FVec Ideal S100000x256 .f32) (W1 : FVec Ideal S256x128 .f32) (b1 : FVec Ideal S128 .f32)
    (p : Fin 5000) (r : Fin 100000) (j : Fin 128)
    (e0 : ∀ k : Fin 256, x0 (ix2 p k) = h2 (ix2 r k))
    (e1 : ∀ (k : Fin 256) (j : Fin 128), x1 (ix2 k j) = W1 (ix2 k j))
    (e3 : ∀ j : Fin 128, x3 (ix2 0 j) = b1 (ix1 j)) :
    addf (matmul (F := Ideal) dot_S5000x256_S256x128_S5000x128_1_0_0_1_n_n none x0 x1 (constant (F := Ideal) S5000x128 .f32 0x00000000#32))
        (broadcastTo S5000x128 (shapeCast S1x128 x3 shapeCasts_S1x128_S1x128) broadcasts_S1x128_S5000x128) (ix2 p j)
      = addf (Host.dotGeneral (F := Ideal) Cert.ReferenceIdeal.dot_S100000x256_S256x128_S100000x128_1_0_0_1_n_n none h2 W1)
          (Cert.ReferenceIdeal.Stage.rowBias b1) (ix2 r j) := by
  rw [addf_apply, addf_apply, matmulK_apply, dotR_apply, biasK_apply, rowBias_apply, e3]
  exact congrArg (· + b1 (ix1 j)) (Finset.sum_congr rfl fun k _ => by rw [e0, e1])

/-- The whole payload: concatenate the first linear with the second feature block, multiply by the second weights, add the
    second bias row. -/
theorem pay_apply (x0 : FVec Ideal S5000x256 .f32) (x1 : FVec Ideal S256x128 .f32) (x3 : FVec Ideal S1x128 .f32)
    (x7 : FVec Ideal S5000x128 .f32) (x9 : FVec Ideal S256x128 .f32) (x11 : FVec Ideal S1x128 .f32)
    (h2 : FVec Ideal S100000x256 .f32) (h3 : FVec Ideal S100000x128 .f32) (W1 : FVec Ideal S256x128 .f32)
    (b1 : FVec Ideal S128 .f32) (W2 : FVec Ideal S256x128 .f32) (b2 : FVec Ideal S128 .f32)
    (p : Fin 5000) (r : Fin 100000) (q : Fin 128)
    (e0 : ∀ k : Fin 256, x0 (ix2 p k) = h2 (ix2 r k))
    (e1 : ∀ (k : Fin 256) (j : Fin 128), x1 (ix2 k j) = W1 (ix2 k j))
    (e3 : ∀ j : Fin 128, x3 (ix2 0 j) = b1 (ix1 j))
    (e7 : ∀ k : Fin 128, x7 (ix2 p k) = h3 (ix2 r k))
    (e9 : ∀ (k : Fin 256) (j : Fin 128), x9 (ix2 k j) = W2 (ix2 k j))
    (e11 : ∀ j : Fin 128, x11 (ix2 0 j) = b2 (ix1 j)) :
    k0_pay1 (F := Ideal) x0 x1 x3 x7 x9 x11 (ix2 p q) = Stage.linear h2 h3 W1 b1 W2 b2 (ix2 r q) := by
  unfold k0_pay1 Cert.ReferenceIdeal.Stage.linear
  rw [addf_apply, addf_apply, matmulK_apply, dotR_apply, biasK_apply, rowBias_apply, e11]
  refine congrArg (· + b2 (ix1 q)) (Finset.sum_congr rfl fun k _ => ?_)
  rw [e9]
  refine congrArg (· * W2 (ix2 k q)) ?_
  by_cases hk : k.val < 128
  · rw [catK_left _ _ _ _ hk, catR_left _ _ _ _ hk]
    exact first_apply x0 x1 x3 h2 W1 b1 p r ⟨k.val, hk⟩ e0 e1 e3
  · rw [catK_right _ _ _ _ hk, catR_right _ _ _ _ hk]
    exact e7 _

/-! ## From blocks to the array -/

theorem hz : (![0, 0] : Fin 2 → Nat) = fun _ => 0 := funext fun a => by
  match a with
  | ⟨0, _⟩ => rfl
  | ⟨1, _⟩ => rfl

/-- The printed index maps, decided over the grid: the two feature windows and the output move down the rows with the
    point; the weights and bias rows are fetched whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block of the first feature array is row `5000 t + p` of the array. -/
theorem blk0_apply (V : Entry) (c : Dev nD) (t : Fin cfg0.N) (p : Fin 5000) (r : Fin 100000) (hr : r.val = t.val * 5000 + p.val)
    (k : Fin 256) :
    (iblk0 (F := Ideal) V c 0 t : FVec Ideal S5000x256 .f32) (ix2 p k) = (V c main_arg0 : FVec Ideal S100000x256 .f32) (ix2 r k) := by
  obtain ⟨e00, e01, -⟩ := idx_facts t
  show (V c main_arg0 : FVec Ideal S100000x256 .f32) (((cfg0.win 0).blk t).view.emb (ix2 p k)) = _
  refine congrArg (V c main_arg0 : FVec Ideal S100000x256 .f32) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The same for the second feature array. -/
theorem blk1_apply (V : Entry) (c : Dev nD) (t : Fin cfg0.N) (p : Fin 5000) (r : Fin 100000) (hr : r.val = t.val * 5000 + p.val)
    (k : Fin 128) :
    (iblk0 (F := Ideal) V c 1 t : FVec Ideal S5000x128 .f32) (ix2 p k) = (V c main_arg1 : FVec Ideal S100000x128 .f32) (ix2 r k) := by
  obtain ⟨-, -, e10, e11, -⟩ := idx_facts t
  show (V c main_arg1 : FVec Ideal S100000x128 .f32) (((cfg0.win 1).blk t).view.emb (ix2 p k)) = _
  refine congrArg (V c main_arg1 : FVec Ideal S100000x128 .f32) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The weights are fetched whole at every point. -/
theorem blk2_apply (V : Entry) (c : Dev nD) (t : Fin cfg0.N) (k : Fin 256) (j : Fin 128) :
    (iblk0 (F := Ideal) V c 2 t : FVec Ideal S256x128 .f32) (ix2 k j) = (V c main_arg2 : FVec Ideal S256x128 .f32) (ix2 k j) := by
  obtain ⟨-, -, -, -, e20, e21, -⟩ := idx_facts t
  show (V c main_arg2 : FVec Ideal S256x128 .f32) (((cfg0.win 2).blk t).view.emb (ix2 k j)) = _
  refine congrArg (V c main_arg2 : FVec Ideal S256x128 .f32) (funext fun a => Fin.ext ?_)
  match a with
  | ⟨0, _⟩ => show win0_2.index t (0 : Fin 2) * 256 + 1 * k.val = k.val; omega
  | ⟨1, _⟩ => show win0_2.index t (1 : Fin 2) * 128 + 1 * j.val = j.val; omega

theorem blk4_apply (V : Entry) (c : Dev nD) (t : Fin cfg0.N) (k : Fin 256) (j : Fin 128) :
    (iblk0 (F := Ideal) V c 4 t : FVec Ideal S256x128 .f32) (ix2 k j) = (V c main_arg4 : FVec Ideal S256x128 .f32) (ix2 k j) := by
  obtain ⟨-, -, -, -, -, -, -, -, e40, e41, -⟩ := idx_facts t
  show (V c main_arg4 : FVec Ideal S256x128 .f32) (((cfg0.win 4).blk t).view.emb (ix2 k j)) = _
  refine congrArg (V c main_arg4 : FVec Ideal S256x128 .f32) (funext fun a => Fin.ext ?_)
  match a with
  | ⟨0, _⟩ => show win0_4.index t (0 : Fin 2) * 256 + 1 * k.val = k.val; omega
  | ⟨1, _⟩ => show win0_4.index t (1 : Fin 2) * 128 + 1 * j.val = j.val; omega

/-- So are the two bias rows. -/
theorem blk3_apply (V : Entry) (c : Dev nD) (t : Fin cfg0.N) (j : Fin 128) :
    (iblk0 (F := Ideal) V c 3 t : FVec Ideal S1x128 .f32) (ix2 0 j) = (V c main_v13 : FVec Ideal S1x128 .f32) (ix2 0 j) := by
  obtain ⟨-, -, -, -, -, -, e30, e31, -⟩ := idx_facts t
  show (V c main_v13 : FVec Ideal S1x128 .f32) (((cfg0.win 3).blk t).view.emb (ix2 0 j)) = _
  refine congrArg (V c main_v13 : FVec Ideal S1x128 .f32) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem blk5_apply (V : Entry) (c : Dev nD) (t : Fin cfg0.N) (j : Fin 128) :
    (iblk0 (F := Ideal) V c 5 t : FVec Ideal S1x128 .f32) (ix2 0 j) = (V c main_v14 : FVec Ideal S1x128 .f32) (ix2 0 j) := by
  obtain ⟨-, -, -, -, -, -, -, -, -, -, e50, e51, -⟩ := idx_facts t
  show (V c main_v14 : FVec Ideal S1x128 .f32) (((cfg0.win 5).blk t).view.emb (ix2 0 j)) = _
  refine congrArg (V c main_v14 : FVec Ideal S1x128 .f32) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-- WHAT POINT `t` WRITES BACK is block `t` of `linear` of the arrays as the region finds them. -/
theorem flushed_eq (V : Entry) (c : Dev nD) (b1 b2 : FVec Ideal S128 .f32)
    (hb1 : ∀ j : Fin 128, (V c main_v13 : FVec Ideal S1x128 .f32) (ix2 0 j) = b1 (ix1 j))
    (hb2 : ∀ j : Fin 128, (V c main_v14 : FVec Ideal S1x128 .f32) (ix2 0 j) = b2 (ix1 j)) (t : Fin cfg0.N) :
    (dat0 (F := Ideal) V c).flushed 6 t = ((cfg0.win 6).blk t).view.read (Elt Ideal)
      (Stage.linear (V c main_arg0) (V c main_arg1) (V c main_arg2) b1 (V c main_arg4) b2) := by
  show (cfg0.win 6).cut (grid0.coords t) ((dat0 (F := Ideal) V c).after 6 t) = _
  rw [after0_6]
  unfold out0_6
  rw [View.canon_unit_zero hz]
  simp only [View.ld_unit_zero (S := S5000x256) hz, View.ld_unit_zero (S := S256x128) hz, View.ld_unit_zero (S := S1x128) hz,
    View.ld_unit_zero (S := S5000x128) hz]
  refine funext fun (j : S5000x128.Idx) => ?_
  obtain ⟨p, q, rfl⟩ : ∃ (p : Fin 5000) (q : Fin 128), j = ix2 p q := ⟨j 0, j 1, eq_ix2 j⟩
  have ht : t.val < 20 := lt_of_lt_of_eq t.isLt N_0
  obtain ⟨r, hr⟩ : ∃ r : Fin 100000, r.val = t.val * 5000 + p.val := ⟨⟨t.val * 5000 + p.val, by have := p.isLt; omega⟩, rfl⟩
  have hemb : ((cfg0.win 6).blk t).view.emb (ix2 p q) = (ix2 r q : S100000x128.Idx) := by
    obtain ⟨-, -, -, -, -, -, -, -, -, -, -, -, e60, e61⟩ := idx_facts t
    refine funext fun a => Fin.ext ?_
    match a with
    | ⟨0, _⟩ => show win0_6.index t (0 : Fin 2) * 5000 + 1 * p.val = r.val; omega
    | ⟨1, _⟩ => show win0_6.index t (1 : Fin 2) * 128 + 1 * q.val = q.val; omega
  show k0_pay1 (F := Ideal) (iblk0 V c 0 t) (iblk0 V c 2 t) (iblk0 V c 3 t) (iblk0 V c 1 t) (iblk0 V c 4 t) (iblk0 V c 5 t) (ix2 p q)
    = Stage.linear (V c main_arg0) (V c main_arg1) (V c main_arg2) b1 (V c main_arg4) b2 (((cfg0.win 6).blk t).view.emb (ix2 p q))
  rw [hemb]
  exact pay_apply (iblk0 V c 0 t) (iblk0 V c 2 t) (iblk0 V c 3 t) (iblk0 V c 1 t) (iblk0 V c 4 t) (iblk0 V c 5 t)
    (V c main_arg0) (V c main_arg1) (V c main_arg2) b1 (V c main_arg4) b2 p r q
    (fun k => blk0_apply V c t p r hr k) (fun k j => blk2_apply V c t k j) (fun j => (blk3_apply V c t j).trans (hb1 j))
    (fun k => blk1_apply V c t p r hr k) (fun k j => blk4_apply V c t k j) (fun j => (blk5_apply V c t j).trans (hb2 j))

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v15).slice (win0_6.rect t)).set ↔ _
  rw [View.set_slice_whole, Rect.mem_set_unit]
  exact Iff.rfl

/-- Row `r` is in the block of point `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

end Linear

/-- REGION 0 (the two fused linears). Its output array after all 20 points is `linear` of its input arrays as the region
    finds them; the two one-row bias operands are given by the length-128 vectors they hold. -/
theorem region0_value (V : Entry) (c : Dev nD) (b1 b2 : FVec Ideal S128 .f32)
    (hb1 : ∀ j : Fin 128, (V c main_v13 : FVec Ideal S1x128 .f32) (ix2 0 j) = b1 (ix1 j))
    (hb2 : ∀ j : Fin 128, (V c main_v14 : FVec Ideal S1x128 .f32) (ix2 0 j) = b2 (ix1 j)) :
    ((dat0 (F := Ideal) V c).arrAt 6 cfg0.N : FVec Ideal S100000x128 .f32)
      = Stage.linear (V c main_arg0) (V c main_arg1) (V c main_arg2) b1 (V c main_arg4) b2 :=
  (dat0 (F := Ideal) V c).arrAt_eq_of_cover 6 (Stage.linear (V c main_arg0) (V c main_arg1) (V c main_arg2) b1 (V c main_arg4) b2)
    (fun t _ => Linear.flushed_eq V c b1 b2 hb1 hb2 t) Linear.cover

end Cert.KernelIdeal.Val

end
-- ==== Proof.RegColSum.lean ====
/-
  Region 1: the block-accumulated column sums are the whole-array column sums.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

/-! ## What each case of the body leaves in the one-row output block -/

section Pieces
variable {F : FTy → Type} [FloatOps F]

theorem cs1_hz : (![0, 0] : Fin 2 → Nat) = fun _ => 0 := funext fun a => by fin_cases a <;> rfl

/-- A later point: the block carried from the point before plus the column sums of the point's row block. -/
theorem cs1_piece_B (c : Dev nD) (i : grid1.Coords) (a1 : Memref sig .tc .vmem S5000x128 .f32) (h1 : a1.IsWhole)
    (a2 : Memref sig .tc .vmem S1x128 .f32) (h2 : a2.IsWhole) (hc : ¬cond1_0 i) (x : Vec F S5000x128 .f32) (xo : Vec F S1x128 .f32) :
    out1_B_1 c i a1 h1 a2 h2 hc x xo = k1_pay2 xo x := by
  unfold out1_B_1
  rw [View.read_writes_eq_canon _ _ _ (cover1_B_1 c i a1 h1 a2 h2 hc x xo)]
  unfold kernelRun1_B
  dsimp only
  sl_unfold_words
  rw [View.canon_unit_zero cs1_hz]
  simp only [View.readAt_eq_ld, h1.read_unread, h2.read_unread, View.ld_unit_zero (S := S1x128) cs1_hz,
    View.ld_unit_zero (S := S5000x128) cs1_hz]

/-- The first point: the zero row plus the column sums of the first row block. -/
theorem cs1_piece_A (c : Dev nD) (i : grid1.Coords) (a1 : Memref sig .tc .vmem S5000x128 .f32) (h1 : a1.IsWhole)
    (a2 : Memref sig .tc .vmem S1x128 .f32) (h2 : a2.IsWhole) (hc : cond1_0 i) (x : Vec F S5000x128 .f32) :
    out1_A_1 c i a1 h1 a2 h2 hc x = k1_pay2 (k1_pay1 (F := F)) x := by
  unfold out1_A_1
  rw [View.read_writes_eq_canon _ _ _ (cover1_A_1 c i a1 h1 a2 h2 hc x)]
  unfold kernelRun1_A
  dsimp only
  sl_unfold_words
  rw [View.canon_cons_unit_zero (S := S1x128) cs1_hz, View.readCov_unit_zero (S := S1x128) _ cs1_hz]
  simp only [View.readAt_eq_ld, h1.read_unread, View.ld_unit_zero (S := S5000x128) cs1_hz]

end Pieces

/-! ## The body's arithmetic at an entry, over the extended reals -/

/-- The zero row is zero at every entry. -/
theorem cs1_zero_apply (j : Fin 128) : (k1_pay1 (F := Ideal)) (ix2 (0 : Fin 1) j) = 0 := by
  unfold k1_pay1
  exact Ideal.ofBits_zero_f32

/-- Entry j of the updated row is entry j of the carried row plus the sum of column j of the row block. -/
theorem cs1_pay_apply (v3 : FVec Ideal S1x128 .f32) (v5 : FVec Ideal S5000x128 .f32) (j : Fin 128) :
    k1_pay2 (F := Ideal) v3 v5 (ix2 (0 : Fin 1) j) = v3 (ix2 (0 : Fin 1) j) + ∑ r : Fin 5000, v5 (ix2 r j) := by
  unfold k1_pay2
  dsimp only
  refine (addf_apply _ _ _).trans ?_
  refine congrArg₂ (· + ·) (congrFun (shapeCast_self v3 _) _) ?_
  refine (shapeCast_a_1a_apply _ _ (0 : Fin 1) j).trans ?_
  refine (Ideal.multiReduction_add_single _ 0x00000000#32 reduces_S5000x128_S128 (.inl rfl) rfl (ix1 j)).trans ?_
  refine Fintype.sum_congr _ _ fun r => ?_
  refine (congrFun (shapeCast_self v5 _) _).trans ?_
  refine congrArg v5 (funext fun a => ?_)
  match a with
  | ⟨0, _⟩ => rfl
  | ⟨1, _⟩ => rfl

/-! ## The row blocks of the input array, and the running sums -/

/-- Column j of the input array as a sequence of extended reals (zero past the last row). -/
def cs1_col (V : Entry) (c : Dev nD) (j : Fin 128) (r : ℕ) : EReal :=
  if h : r < 100000 then (V c main_v15 : FVec Ideal S100000x128 .f32) (ix2 ⟨r, h⟩ j) else 0

/-- Row r of the row block at point t is row 5000 t + r of the input array. -/
theorem cs1_iblk_apply (V : Entry) (c : Dev nD) (t : Fin cfg1.N) (r : Fin 5000) (j : Fin 128) :
    (iblk1 (F := Ideal) V c 0 t : FVec Ideal S5000x128 .f32) (ix2 r j) = cs1_col V c j (t.val * 5000 + r.val) := by
  have hN : t.val < 20 := lt_of_lt_of_eq t.isLt (show cfg1.N = 20 from N_1)
  have hr : t.val * 5000 + r.val < 100000 := by have := r.isLt; omega
  have hi : win1_0.index t 0 = t.val ∧ win1_0.index t 1 = 0 :=
    (by decide +kernel : ∀ t : Fin grid1.N, win1_0.index t 0 = t.val ∧ win1_0.index t 1 = 0) t
  unfold cs1_col
  rw [dif_pos hr]
  unfold iblk1
  rw [View.read_apply]
  show V c main_v15 _ = V c main_v15 _
  congr 1
  funext a
  apply Fin.ext
  match a with
  | ⟨0, _⟩ => show win1_0.index t 0 * 5000 + 1 * r.val = t.val * 5000 + r.val; rw [hi.1]; omega
  | ⟨1, _⟩ => show win1_0.index t 1 * 128 + 1 * j.val = j.val; rw [hi.2]; omega

/-- One step of the accumulation: the sum of the first n blocks' rows plus block n's rows is the sum of the first n + 1 blocks' rows. -/
theorem cs1_step (acc : EReal) (f : ℕ → EReal) (n : ℕ) (g : Fin 5000 → EReal)
    (hacc : acc = ∑ r ∈ Finset.range (n * 5000), f r) (hg : ∀ r : Fin 5000, g r = f (n * 5000 + r.val)) :
    acc + ∑ r : Fin 5000, g r = ∑ r ∈ Finset.range ((n + 1) * 5000), f r := by
  rw [hacc, Fintype.sum_congr g _ hg, Fin.sum_univ_eq_sum_range (fun r => f (n * 5000 + r)) 5000, Nat.succ_mul,
    Finset.sum_range_add]

/-- After point n the carried row holds, at entry j, the sum of column j over the first (n + 1) row blocks. -/
theorem cs1_outsAt (V : Entry) (c : Dev nD) (j : Fin 128) : ∀ (n : ℕ) (hn : n < cfg1.N),
    (outsAt1 (F := Ideal) V c n hn : FVec Ideal S1x128 .f32) (ix2 (0 : Fin 1) j)
      = ∑ r ∈ Finset.range ((n + 1) * 5000), cs1_col V c j r
  | 0, hn => by
    rw [outsAt1_A V c ⟨0, hn⟩ rfl]
    refine (congrFun (cs1_piece_A (F := Ideal) c (grid1.coords ⟨0, hn⟩) (ms1_0 ⟨0, hn⟩) (hs1_0 ⟨0, hn⟩) (ms1_1 ⟨0, hn⟩) (hs1_1 ⟨0, hn⟩)
      ((hcond1_0 ⟨0, hn⟩).mpr rfl) (iblk1 V c 0 ⟨0, hn⟩)) (ix2 (0 : Fin 1) j)).trans ?_
    refine (cs1_pay_apply (k1_pay1 (F := Ideal)) (iblk1 V c 0 ⟨0, hn⟩) j).trans ?_
    exact cs1_step _ (cs1_col V c j) 0 _ (by rw [cs1_zero_apply]; simp) (fun r => cs1_iblk_apply V c ⟨0, hn⟩ r j)
  | n + 1, hn => by
    have hN : n + 1 < 20 := lt_of_lt_of_eq hn (show cfg1.N = 20 from N_1)
    have hB : ¬(⟨n + 1, hn⟩ : Fin cfg1.N).val % 20 = 0 := by dsimp only; omega
    rw [outsAt1_B V c ⟨n + 1, hn⟩ hB]
    dsimp only
    refine (congrFun (cs1_piece_B (F := Ideal) c (grid1.coords ⟨n + 1, hn⟩) (ms1_0 ⟨n + 1, hn⟩) (hs1_0 ⟨n + 1, hn⟩) (ms1_1 ⟨n + 1, hn⟩)
      (hs1_1 ⟨n + 1, hn⟩) (fun h => hB ((hcond1_0 ⟨n + 1, hn⟩).mp h)) (iblk1 V c 0 ⟨n + 1, hn⟩)
      (outsAt1 V c (n + 1 - 1) (Nat.lt_of_le_of_lt (Nat.sub_le _ _) hn))) (ix2 (0 : Fin 1) j)).trans ?_
    refine (cs1_pay_apply (outsAt1 V c (n + 1 - 1) (Nat.lt_of_le_of_lt (Nat.sub_le _ _) hn)) (iblk1 V c 0 ⟨n + 1, hn⟩) j).trans ?_
    exact cs1_step _ (cs1_col V c j) (n + 1) _ (cs1_outsAt V c j n (Nat.lt_of_succ_lt hn))
      (fun r => cs1_iblk_apply V c ⟨n + 1, hn⟩ r j)

/-! ## The output array after the run: the row written back at the last point -/

/-- The last of the 20 points. -/
theorem cs1_last : 19 < cfg1.N := by rw [show cfg1.N = 20 from N_1]; decide

/-- The carried row after the last point, as contents of the one-row output array (its one block is the array). -/
abbrev cs1_result (V : Entry) (c : Dev nD) : Buf (Elt Ideal) ((c : Thread nD τ).loc main_v16) :=
  outsAt1 (F := Ideal) V c 19 cs1_last

/-- The one write-back, at the last point, writes the carried row: block (0, 0) of the one-row array is the array. -/
theorem cs1_flushed (V : Entry) (c : Dev nD) (t : Fin cfg1.N) (hf : (cfg1.win 1).flush t = true) :
    (dat1 (F := Ideal) V c).flushed 1 t = ((cfg1.win 1).blk t).view.read (Elt Ideal) (cs1_result V c) := by
  have hN : t.val < 20 := lt_of_lt_of_eq t.isLt (show cfg1.N = 20 from N_1)
  have h19 : t.val = 19 := by have := (flush1_1 t).mp hf; omega
  obtain rfl : t = ⟨19, cs1_last⟩ := Fin.ext h19
  show (cfg1.win 1).cut (grid1.coords ⟨19, cs1_last⟩) ((dat1 (F := Ideal) V c).after 1 ⟨19, cs1_last⟩) = _
  rw [after1_1]
  have hz' : (fun a => win1_1.index ⟨19, cs1_last⟩ a * main_v16.ty.shape.size a) = fun _ => 0 :=
    funext fun a => (by decide +kernel : ∀ (t : Fin grid1.N) (a : Fin 2), win1_1.index t a * main_v16.ty.shape.size a = 0) ⟨19, cs1_last⟩ a
  exact (Memref.read_access_unit_zero (Elt Ideal) main_v16 hz' (fun a => by rw [congrFun hz' a]; simp) (cs1_result V c)).symm

/-- So the output array ends holding the carried row after the last point. -/
theorem cs1_final (V : Entry) (c : Dev nD) : (dat1 (F := Ideal) V c).arrAt 1 cfg1.N = cs1_result V c :=
  (dat1 (F := Ideal) V c).arrAt_eq_of_cover 1 (cs1_result V c) (cs1_flushed V c) fun i =>
    ⟨⟨19, cs1_last⟩, (flush1_1 _).mpr rfl, by
      show i ∈ ((View.whole main_v16).slice (win1_1.rect ⟨19, cs1_last⟩)).set
      rw [View.set_slice_whole, Rect.mem_set_unit]
      intro a
      have h0 : (i 0 : Nat) < 1 := (i 0).isLt
      have h1 : (i 1 : Nat) < 128 := (i 1).isLt
      have hidx : ∀ (t : Fin grid1.N) (a : Fin 2), win1_1.index t a * win1_1.size a = 0 := by decide +kernel
      have hx0 : ∀ t : Fin grid1.N, win1_1.xsize (grid1.coords t) 0 = 1 := by decide +kernel
      have hx1 : ∀ t : Fin grid1.N, win1_1.xsize (grid1.coords t) 1 = 128 := by decide +kernel
      match a with
      | ⟨0, _⟩ =>
        show win1_1.index ⟨19, cs1_last⟩ 0 * win1_1.size 0 ≤ (i 0 : Nat) ∧ (i 0 : Nat) < win1_1.index ⟨19, cs1_last⟩ 0 * win1_1.size 0 + win1_1.xsize (grid1.coords ⟨19, cs1_last⟩) 0
        rw [hidx, hx0]; omega
      | ⟨1, _⟩ =>
        show win1_1.index ⟨19, cs1_last⟩ 1 * win1_1.size 1 ≤ (i 1 : Nat) ∧ (i 1 : Nat) < win1_1.index ⟨19, cs1_last⟩ 1 * win1_1.size 1 + win1_1.xsize (grid1.coords ⟨19, cs1_last⟩) 1
        rw [hidx, hx1]; omega⟩

/-! ## The whole-array column sums as the same sum -/

/-- The reference's column sum of column j is zero plus the sum of column j over all 100000 rows. -/
theorem cs1_colSum_apply (V : Entry) (c : Dev nD) (j : Fin 128) :
    Stage.colSum (V c main_v15) (ix1 j) = ∑ r ∈ Finset.range 100000, cs1_col V c j r := by
  unfold Cert.ReferenceIdeal.Stage.colSum
  show Ideal.hostReduceAdd _ _ _ _ = _
  refine (Ideal.hostReduceAdd_single _ (by decide : Cert.ReferenceIdeal.S100000x128.Reduces [0] Cert.ReferenceIdeal.S128) _ _ _).trans ?_
  have hz : Cert.ReferenceIdeal.Stage.zeroS (Shape.Idx.first Cert.ReferenceIdeal.Facts₀.h_S_) = 0 := Ideal.ofBits_zero_f32
  rw [hz, zero_add, ← Fin.sum_univ_eq_sum_range (cs1_col V c j) 100000]
  refine Fintype.sum_congr _ _ fun r => ?_
  unfold cs1_col
  have hr : r.val < 100000 := r.isLt
  rw [dif_pos hr]
  refine congrArg (V c main_v15) (funext fun a => ?_)
  match a with
  | ⟨0, _⟩ => rfl
  | ⟨1, _⟩ => rfl

/-- REGION 1 (column sums accumulated over the 20 row blocks). The one-row output holds the column sums of the input array. -/
theorem region1_value (V : Entry) (c : Dev nD) (j : Fin 128) :
    ((dat1 (F := Ideal) V c).arrAt 1 cfg1.N : FVec Ideal S1x128 .f32) (ix2 0 j)
      = Stage.colSum (V c main_v15) (ix1 j) := by
  rw [cs1_colSum_apply, cs1_final]
  exact cs1_outsAt V c j 19 cs1_last

end Cert.KernelIdeal.Val

end
-- ==== Proof.RegSqSum.lean ====
/-
  Region 2: the block-accumulated sums of squared deviations are the whole-array ones.

  The region visits the 100000 rows in 20 blocks of 5000. At the first block it zeroes its one-row output block;
  at every block it adds, per column, the sum over the block's rows of the squared deviations from the one-row
  centre. So after block n the output block holds, per column, 0 plus the sum over the first 5000 (n + 1) rows of
  the squared deviations; the block is written back once, after the last block, and the array then holds 0 plus
  the sum over all rows, which is what the whole-array stage computes.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.Tactic
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

section Pieces
variable {F : FTy → Type} [FloatOps F]

/-- The zero offsets of a whole-block access. -/
theorem sq2_hz : (![0, 0] : Fin 2 → Nat) = fun _ => 0 := funext fun a => by fin_cases a <;> rfl

/-- A later point: the body leaves, in the output block holding `xo`, `xo` plus the column sums of the squared
    deviations of the input block `x0` from the one-row centre `x1`. -/
theorem sq2_out_B (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S5000x128 .f32) (x1 : Vec F S1x128 .f32) (xo : Vec F S1x128 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero sq2_hz]
  simp only [View.readAt_eq_ld, h1.read_unread, h2.read_unread, h3.read_unread, View.ld_unit_zero (S := S5000x128) sq2_hz,
    View.ld_unit_zero (S := S1x128) sq2_hz]

/-- The first point: the output block is zeroed, read back, and the same sums are added to it. -/
theorem sq2_out_A (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S5000x128 .f32) (x1 : Vec F S1x128 .f32) :
    out2_A_2 c i a1 h1 a2 h2 a3 h3 hc x0 x1 = k2_pay2 x0 x1 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x128) sq2_hz, View.readCov_unit_zero (S := S1x128) _ sq2_hz]
  simp only [View.readAt_eq_ld, h1.read_unread, h2.read_unread, View.ld_unit_zero (S := S5000x128) sq2_hz,
    View.ld_unit_zero (S := S1x128) sq2_hz]

end Pieces

section AtIdeal

/-- The row index the reduction over the block's rows reads at column `j`, row `r`. -/
theorem sq2_lift (hr : S5000x128.Reduces [0] S128) (j : Fin 128) (r : Fin 5000) : hr.lift (ix1 j) r = ix2 r j := by
  funext a
  match a with
  | ⟨0, _⟩ => exact Fin.ext rfl
  | ⟨1, _⟩ => exact Fin.ext rfl

/-- The accumulating step at a column: the carried entry plus the block's sum over its rows of the squared deviations
    from the centre's entry of that column. -/
theorem sq2_core (x : FVec Ideal S5000x128 .f32) (m acc : FVec Ideal S1x128 .f32) (j : Fin 128)
    (h1 : S1x128.ShapeCasts S1x128) (h2 : S5000x128.ShapeCasts S5000x128) (hb : S1x128.Broadcasts S5000x128)
    (hr : S5000x128.Reduces [0] S128) (hφ : FKind.Formats .f32) (hacc : (0x00000000#32 : BitVec 32) = 0x00000000#32)
    (h3 : S128.ShapeCasts S1x128) :
    addf (shapeCast S1x128 acc h1)
        (shapeCast S1x128 (multiReduction .add [0] S128
          (mulf (subf (shapeCast S5000x128 x h2) (broadcastTo S5000x128 (shapeCast S1x128 m h1) hb))
            (subf (shapeCast S5000x128 x h2) (broadcastTo S5000x128 (shapeCast S1x128 m h1) hb)))
          0x00000000#32 hr hφ hacc) h3) (ix2 (0 : Fin 1) j)
      = acc (ix2 (0 : Fin 1) j)
        + ∑ r : Fin 5000, (x (ix2 r j) - m (ix2 (0 : Fin 1) j)) * (x (ix2 r j) - m (ix2 (0 : Fin 1) j)) := by
  rw [shapeCast_self, shapeCast_self, shapeCast_self, addf_apply, shapeCast_a_1a_apply]
  refine (congrArg (acc (ix2 (0 : Fin 1) j) + ·) (Ideal.multiReduction_add_single _ _ hr hφ hacc (ix1 j))).trans ?_
  show acc (ix2 (0 : Fin 1) j) + ∑ r : Fin 5000, _ = _
  refine congrArg (acc (ix2 (0 : Fin 1) j) + ·) (Finset.sum_congr rfl fun r _ => ?_)
  rw [sq2_lift hr j r, mulf_apply, subf_apply, broadcastTo_1b_ab_apply]

/-- The same of the kernel's payload. -/
theorem sq2_pay2_apply (x : FVec Ideal S5000x128 .f32) (m acc : FVec Ideal S1x128 .f32) (j : Fin 128) :
    k2_pay2 (F := Ideal) x m acc (ix2 (0 : Fin 1) j)
      = acc (ix2 (0 : Fin 1) j)
        + ∑ r : Fin 5000, (x (ix2 r j) - m (ix2 (0 : Fin 1) j)) * (x (ix2 r j) - m (ix2 (0 : Fin 1) j)) :=
  sq2_core x m acc j _ _ _ _ _ _ _

/-- The block the first point stores is zero everywhere. -/
theorem sq2_pay1_apply (j : Fin 128) : (k2_pay1 (F := Ideal)) (ix2 (0 : Fin 1) j) = 0 :=
  Ideal.ofBits_zero_f32

end AtIdeal

section Blocks

variable (V : Entry) (c : Dev nD)

/-- The input array, the centre row, their blocks at a point and the carried output block, at their literal types. -/
abbrev sq2_x : FVec Ideal S100000x128 .f32 := V c main_v15
abbrev sq2_m : FVec Ideal S1x128 .f32 := V c main_v18
abbrev sq2_xblk (t : Fin cfg2.N) : FVec Ideal S5000x128 .f32 := iblk2 V c 0 t
abbrev sq2_mblk (t : Fin cfg2.N) : FVec Ideal S1x128 .f32 := iblk2 V c 1 t
abbrev sq2_acc (n : ℕ) (h : n < cfg2.N) : FVec Ideal S1x128 .f32 := outsAt2 V c n h

/-- The input's block index at point `t` is `(t, 0)`; the centre's is `(0, 0)` at every point. -/
theorem sq2_index0 : ∀ t : Fin cfg2.N, win2_0.index t 0 = t.val ∧ win2_0.index t 1 = 0 :=
  (by decide +kernel : ∀ t : Fin grid2.N, win2_0.index t 0 = t.val ∧ win2_0.index t 1 = 0)
theorem sq2_index1 : ∀ t : Fin cfg2.N, win2_1.index t 0 = 0 ∧ win2_1.index t 1 = 0 :=
  (by decide +kernel : ∀ t : Fin grid2.N, win2_1.index t 0 = 0 ∧ win2_1.index t 1 = 0)

/-- Row `r` of the input's block at point `t` is row `5000 t + r` of the array. -/
theorem sq2_xblk_apply (t : Fin cfg2.N) (r : Fin 5000) (j : Fin 128) (h : 5000 * t.val + r.val < 100000) :
    sq2_xblk V c t (ix2 r j) = sq2_x V c (ix2 ⟨5000 * t.val + r.val, h⟩ j) := by
  show iblk2 V c 0 t (ix2 r j) = V c main_v15 (ix2 ⟨5000 * t.val + r.val, h⟩ j)
  unfold iblk2
  rw [View.read_apply]
  show V c main_v15 _ = V c main_v15 _
  congr 1
  funext a
  apply Fin.ext
  match a with
  | ⟨0, _⟩ => show win2_0.index t 0 * 5000 + 1 * r.val = 5000 * t.val + r.val; rw [(sq2_index0 t).1]; omega
  | ⟨1, _⟩ => show win2_0.index t 1 * 128 + 1 * j.val = j.val; rw [(sq2_index0 t).2]; omega

/-- The centre's block at every point is the centre row. -/
theorem sq2_mblk_apply (t : Fin cfg2.N) (j : Fin 128) :
    sq2_mblk V c t (ix2 (0 : Fin 1) j) = sq2_m V c (ix2 (0 : Fin 1) j) := by
  show iblk2 V c 1 t (ix2 (0 : Fin 1) j) = V c main_v18 (ix2 (0 : Fin 1) j)
  unfold iblk2
  rw [View.read_apply]
  show V c main_v18 _ = V c main_v18 _
  congr 1
  funext a
  apply Fin.ext
  match a with
  | ⟨0, _⟩ => show win2_1.index t 0 * 1 + 1 * 0 = 0; rw [(sq2_index1 t).1]
  | ⟨1, _⟩ => show win2_1.index t 1 * 128 + 1 * j.val = j.val; rw [(sq2_index1 t).2]; omega

end Blocks

section Invariant

variable (V : Entry) (c : Dev nD) (μ : FVec Ideal S128 .f32)

/-- Row `i`'s squared deviation from the centre at column `j` (zero past the last row). -/
def sq2_term (j : Fin 128) (i : ℕ) : EReal :=
  if h : i < 100000 then (sq2_x V c (ix2 ⟨i, h⟩ j) - μ (ix1 j)) * (sq2_x V c (ix2 ⟨i, h⟩ j) - μ (ix1 j)) else 0

/-- One block's addend at a column is the sum of its 5000 rows' terms. -/
theorem sq2_block_sum (hμ : ∀ j : Fin 128, sq2_m V c (ix2 (0 : Fin 1) j) = μ (ix1 j)) (t : Fin cfg2.N) (j : Fin 128) :
    ∑ r : Fin 5000, (sq2_xblk V c t (ix2 r j) - sq2_mblk V c t (ix2 (0 : Fin 1) j))
        * (sq2_xblk V c t (ix2 r j) - sq2_mblk V c t (ix2 (0 : Fin 1) j))
      = ∑ r ∈ Finset.range 5000, sq2_term V c μ j (5000 * t.val + r) := by
  have hN : t.val < 20 := lt_of_lt_of_eq t.isLt (show cfg2.N = 20 from N_2)
  rw [← Fin.sum_univ_eq_sum_range (fun r => sq2_term V c μ j (5000 * t.val + r)) 5000]
  refine Finset.sum_congr rfl fun r _ => ?_
  have h : 5000 * t.val + r.val < 100000 := by have := r.isLt; omega
  rw [sq2_xblk_apply V c t r j h, sq2_mblk_apply V c t j, hμ j]
  unfold sq2_term
  rw [dif_pos h]

/-- THE INVARIANT: after point `n` the carried block holds, at column `j`, zero plus the sum of the terms of the
    first `5000 (n + 1)` rows. -/
theorem sq2_inv (hμ : ∀ j : Fin 128, sq2_m V c (ix2 (0 : Fin 1) j) = μ (ix1 j)) (j : Fin 128) : ∀ (n : ℕ) (h : n < cfg2.N),
    sq2_acc V c n h (ix2 (0 : Fin 1) j) = 0 + ∑ i ∈ Finset.range (5000 * (n + 1)), sq2_term V c μ j i
  | 0, h => by
    show outsAt2 V c 0 h (ix2 (0 : Fin 1) j) = _
    rw [outsAt2_A V c ⟨0, h⟩ rfl]
    refine (congrFun (sq2_out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr rfl) (iblk2 V c 0 ⟨0, h⟩) (iblk2 V c 1 ⟨0, h⟩)) (ix2 (0 : Fin 1) j)).trans ?_
    refine (sq2_pay2_apply (sq2_xblk V c ⟨0, h⟩) (sq2_mblk V c ⟨0, h⟩) (k2_pay1 (F := Ideal)) j).trans ?_
    rw [sq2_pay1_apply j, sq2_block_sum V c μ hμ ⟨0, h⟩ j]
    simp only [Nat.mul_zero, Nat.zero_add, Nat.mul_one]
  | n + 1, h => by
    have hN : n + 1 < 20 := lt_of_lt_of_eq h (show cfg2.N = 20 from N_2)
    have hB : ¬(⟨n + 1, h⟩ : Fin cfg2.N).val % 20 = 0 := by dsimp only; omega
    show outsAt2 V c (n + 1) h (ix2 (0 : Fin 1) j) = _
    rw [outsAt2_B V c ⟨n + 1, h⟩ hB]
    dsimp only
    refine (congrFun (sq2_out_B (F := Ideal) c (grid2.coords ⟨n + 1, h⟩) (ms2_0 ⟨n + 1, h⟩) (hs2_0 ⟨n + 1, h⟩) (ms2_1 ⟨n + 1, h⟩)
      (hs2_1 ⟨n + 1, h⟩) (ms2_2 ⟨n + 1, h⟩) (hs2_2 ⟨n + 1, h⟩) (fun hh => hB ((hcond2_0 ⟨n + 1, h⟩).mp hh)) (iblk2 V c 0 ⟨n + 1, h⟩)
      (iblk2 V c 1 ⟨n + 1, h⟩) (outsAt2 V c n (Nat.lt_of_succ_lt h))) (ix2 (0 : Fin 1) j)).trans ?_
    refine (sq2_pay2_apply (sq2_xblk V c ⟨n + 1, h⟩) (sq2_mblk V c ⟨n + 1, h⟩) (sq2_acc V c n (Nat.lt_of_succ_lt h)) j).trans ?_
    rw [sq2_inv hμ j n (Nat.lt_of_succ_lt h), sq2_block_sum V c μ hμ ⟨n + 1, h⟩ j]
    show 0 + _ + ∑ r ∈ Finset.range 5000, sq2_term V c μ j (5000 * (n + 1) + r) = _
    rw [show 5000 * (n + 1 + 1) = 5000 * (n + 1) + 5000 by omega, Finset.sum_range_add, add_assoc]

end Invariant

section Final

variable (V : Entry) (c : Dev nD)

/-- The last point, the only one after which the output block is written back. -/
abbrev sq2_last : Fin cfg2.N := ⟨19, by rw [show cfg2.N = 20 from N_2]; decide⟩

/-- What the output array ends holding: the carried block after the last point. -/
abbrev sq2_result : Buf (Elt Ideal) ((c.tc : Thread nD τ).loc main_v19) := outsAt2 V c 19 sq2_last.isLt

/-- The one write-back writes it: the output's block is its whole one-row array. -/
theorem sq2_flushed (t : Fin cfg2.N) (hf : (cfg2.win 2).flush t = true) :
    (dat2 V c).flushed 2 t = ((cfg2.win 2).blk t).view.read (Elt Ideal) (sq2_result V c) := by
  have hN : cfg2.N = 20 := N_2
  have h19 : t.val = 19 := by have := (flush2_2 t).mp hf; have := t.isLt; omega
  obtain rfl : t = sq2_last := Fin.ext h19
  show (cfg2.win 2).cut (grid2.coords sq2_last) ((dat2 V c).after 2 sq2_last) = _
  rw [after2_2]
  have hz' : (fun a => win2_2.index sq2_last a * main_v19.ty.shape.size a) = fun _ => 0 :=
    funext fun a => by fin_cases a <;> decide
  exact (Memref.read_access_unit_zero (Elt Ideal) main_v19 hz' (fun a => by rw [congrFun hz' a]; simp) (sq2_result V c)).symm

/-- So the output array ends holding the carried block after the last point. -/
theorem sq2_final : (dat2 V c).arrAt 2 cfg2.N = sq2_result V c :=
  (dat2 V c).arrAt_eq_of_cover 2 (sq2_result V c) (sq2_flushed V c) fun i =>
    ⟨sq2_last, (flush2_2 sq2_last).mpr rfl, by
      show i ∈ ((View.whole main_v19).slice (win2_2.rect sq2_last)).set
      rw [View.set_slice_whole, Rect.mem_set_unit]
      intro a
      have h0 : (i 0 : Nat) < 1 := (i 0).isLt
      have h1 : (i 1 : Nat) < 128 := (i 1).isLt
      match a with
      | ⟨0, _⟩ =>
        show win2_2.index sq2_last 0 * win2_2.size 0 ≤ (i 0 : Nat)
          ∧ (i 0 : Nat) < win2_2.index sq2_last 0 * win2_2.size 0 + win2_2.xsize (grid2.coords sq2_last) 0
        rw [show win2_2.index sq2_last 0 * win2_2.size 0 = 0 from by decide +kernel,
          show win2_2.xsize (grid2.coords sq2_last) 0 = 1 from by decide +kernel]; omega
      | ⟨1, _⟩ =>
        show win2_2.index sq2_last 1 * win2_2.size 1 ≤ (i 1 : Nat)
          ∧ (i 1 : Nat) < win2_2.index sq2_last 1 * win2_2.size 1 + win2_2.xsize (grid2.coords sq2_last) 1
        rw [show win2_2.index sq2_last 1 * win2_2.size 1 = 0 from by decide +kernel,
          show win2_2.xsize (grid2.coords sq2_last) 1 = 128 from by decide +kernel]; omega⟩

end Final

section Whole

/-- The index a reduction over the rows of a matrix reads at column `j`, row `r`. -/
theorem sq2_lift_rows {n m : ℕ} (hr : (⟨2, ![n, m]⟩ : Shape).Reduces [0] ⟨1, ![m]⟩) (j : Fin m) (r : Fin n) :
    hr.lift (ix1 j) r = ix2 r j := by
  funext a
  match a with
  | ⟨0, _⟩ => exact Fin.ext rfl
  | ⟨1, _⟩ => exact Fin.ext rfl

/-- A vector repeated down the rows reads, at row `i` and column `j`, its entry `j`. -/
theorem sq2_rowBias (μ : FVec Ideal S128 .f32) (i : Fin 100000) (j : Fin 128) :
    Cert.ReferenceIdeal.Stage.rowBias μ (ix2 i j) = μ (ix1 j) := by
  unfold Cert.ReferenceIdeal.Stage.rowBias
  refine (broadcastInDim_oneRow_apply _ _ i j).trans ?_
  refine broadcastInDim_apply _ _ μ (ix2 (0 : Fin 1) j) (ix1 j) fun a => ?_
  match a with
  | ⟨0, _⟩ => show j.val = if (128 : ℕ) = 1 then 0 else j.val; rw [if_neg (by decide)]

/-- The whole-array stage at a column: zero plus the sum over all rows of the squared deviations. -/
theorem sq2_stage (x : FVec Ideal S100000x128 .f32) (μ : FVec Ideal S128 .f32) (j : Fin 128) :
    Stage.sqSum x μ (ix1 j)
      = 0 + ∑ i : Fin 100000, (x (ix2 i j) - μ (ix1 j)) * (x (ix2 i j) - μ (ix1 j)) := by
  have hr : S100000x128.Reduces [0] S128 := by decide
  unfold Cert.ReferenceIdeal.Stage.sqSum
  refine (hostReduceAdd_apply _ _ _ _ (ix1 j)).trans ?_
  refine (Ideal.hostReduceAdd_single _ hr _ _ (ix1 j)).trans ?_
  show Ideal.ofBits .f32 0x00000000#32 + ∑ i : Fin 100000, _ = _
  rw [Ideal.ofBits_zero_f32]
  refine congrArg (0 + ·) (Finset.sum_congr rfl fun i _ => ?_)
  rw [sq2_lift_rows hr j i, mulf_apply, subf_apply, sq2_rowBias μ i j]

end Whole

/-- REGION 2 (column sums of squared deviations from a one-row centre, accumulated over the 20 row blocks). -/
theorem region2_value (V : Entry) (c : Dev nD) (μ : FVec Ideal S128 .f32)
    (hμ : ∀ j : Fin 128, (V c main_v18 : FVec Ideal S1x128 .f32) (ix2 0 j) = μ (ix1 j)) (j : Fin 128) :
    ((dat2 (F := Ideal) V c).arrAt 2 cfg2.N : FVec Ideal S1x128 .f32) (ix2 0 j)
      = Stage.sqSum (V c main_v15) μ (ix1 j) := by
  refine (congrFun (sq2_final V c) (ix2 (0 : Fin 1) j)).trans ?_
  refine (sq2_inv V c μ hμ j 19 sq2_last.isLt).trans ?_
  refine Eq.trans ?_ (sq2_stage (sq2_x V c) μ j).symm
  refine congrArg (0 + ·) ?_
  rw [show 5000 * (19 + 1) = 100000 from rfl, ← Fin.sum_univ_eq_sum_range (fun i => sq2_term V c μ j i) 100000]
  refine Finset.sum_congr rfl fun i _ => ?_
  unfold sq2_term
  rw [dif_pos i.isLt]

end Cert.KernelIdeal.Val

end
-- ==== Proof.RegNorm.lean ====
/-
  Region 3: the tiled pointwise normalisation is the whole-array one.

  The region walks the 100000 node rows in twenty blocks of 5000. At a point it holds rows 5000 t … 5000 t + 4999 of the
  features and of the per-node scale, and the whole of the four one-row arrays (centres, variances, scales, shifts); it stores
  ((x − centre) · rsqrt (variance + eps) · scale + shift) · (the node's scale) over its block. Every operation acts entry by
  entry, a one-row operand being repeated down the rows and the one-column operand across the columns, so the block written
  at point t is the same rows of the whole-array function, and the twenty blocks tile the array: row r is written by point
  r / 5000. The reciprocal square root of the kernel and of the host are one function on the extended reals, and eps is
  one and the same literal on both sides.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

/-! ## The body's stored value and the windows' blocks, at an index -/

/-- The zero offsets, spelt as the rectangles spell them. -/
private theorem hz : (![0, 0] : Fin 2 → Nat) = fun _ => 0 := funext fun a => by fin_cases a <;> rfl

/-- A one-column array repeated across the columns reads, at (p, q), the operand's row p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at (p, q): centre, scale by the reciprocal root of the shifted variance, scale and shift per column, scale per row. -/
private theorem pay_apply (x0 : Vec Ideal S5000x128 .f32) (x1 x2 x3 x4 : Vec Ideal S1x128 .f32) (x5 : Vec Ideal S5000x1 .f32)
    (p : Fin 5000) (q : Fin 128) :
    k3_pay1 x0 x1 x2 x3 x4 x5 (ix2 p q)
      = ((x0 (ix2 p q) - x1 (ix2 0 q)) * Ideal.rsqrt (x2 (ix2 0 q) + Ideal.ofBits .f32 0x3727C5AC#32) * x3 (ix2 0 q) + x4 (ix2 0 q))
          * x5 (ix2 p 0) := by
  unfold k3_pay1
  simp only [mulf_apply, addf_apply, subf_apply, shapeCast_self, broadcastTo_1b_ab_apply, broadcastTo_a1_ab_apply]
  rfl

/-- The printed block-index maps over the twenty row blocks: the three row-tiled windows move with the point, the four one-row windows stay. -/
private theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The feature window's block at point t is rows 5000 t … 5000 t + 4999 of its array. -/
private theorem blk_rows (V : Entry) (c : Dev nD) (t : Fin cfg3.N) (p : Fin 5000) (q : Fin 128) (k : S100000x128.Idx)
    (hk0 : (k 0).val = t.val * 5000 + p.val) (hk1 : (k 1).val = q.val) :
    (iblk3 V c 0 t : Vec Ideal S5000x128 .f32) (ix2 p q) = (V c main_v15 : FVec Ideal S100000x128 .f32) k := by
  obtain ⟨e0, e1, -⟩ := idx_facts t
  unfold iblk3
  rw [View.read_apply]
  show V c main_v15 _ = V c main_v15 _
  congr 1
  funext a
  apply Fin.ext
  match a with
  | ⟨0, _⟩ => show win3_0.index t (0 : Fin 2) * 5000 + 1 * p.val = (k 0).val; rw [e0, hk0]; omega
  | ⟨1, _⟩ => show win3_0.index t (1 : Fin 2) * 128 + 1 * q.val = (k 1).val; rw [e1, hk1]; omega

/-- Each one-row window's block is its whole array at every point: the centres' one row. -/
private theorem blk_centre (V : Entry) (c : Dev nD) (t : Fin cfg3.N) (q : Fin 128) :
    (iblk3 V c 1 t : Vec Ideal S1x128 .f32) (ix2 0 q) = (V c main_v18 : FVec Ideal S1x128 .f32) (ix2 0 q) := by
  obtain ⟨-, -, e0, e1, -⟩ := idx_facts t
  unfold iblk3
  rw [View.read_apply]
  show V c main_v18 _ = V c main_v18 _
  congr 1
  funext a
  apply Fin.ext
  match a with
  | ⟨0, _⟩ => show win3_1.index t (0 : Fin 2) * 1 + 1 * (0 : Fin 1).val = (0 : Fin 1).val; rw [e0]; rfl
  | ⟨1, _⟩ => show win3_1.index t (1 : Fin 2) * 128 + 1 * q.val = q.val; rw [e1]; omega

/-- The variances' one row. -/
private theorem blk_var (V : Entry) (c : Dev nD) (t : Fin cfg3.N) (q : Fin 128) :
    (iblk3 V c 2 t : Vec Ideal S1x128 .f32) (ix2 0 q) = (V c main_v21 : FVec Ideal S1x128 .f32) (ix2 0 q) := by
  obtain ⟨-, -, -, -, e0, e1, -⟩ := idx_facts t
  unfold iblk3
  rw [View.read_apply]
  show V c main_v21 _ = V c main_v21 _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 128 + 1 * q.val = q.val; rw [e1]; omega

/-- The per-column scales' one row. -/
private theorem blk_scale (V : Entry) (c : Dev nD) (t : Fin cfg3.N) (q : Fin 128) :
    (iblk3 V c 3 t : Vec Ideal S1x128 .f32) (ix2 0 q) = (V c main_v22 : FVec Ideal S1x128 .f32) (ix2 0 q) := by
  obtain ⟨-, -, -, -, -, -, e0, e1, -⟩ := idx_facts t
  unfold iblk3
  rw [View.read_apply]
  show V c main_v22 _ = V c main_v22 _
  congr 1
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 128 + 1 * q.val = q.val; rw [e1]; omega

/-- The per-column shifts' one row. -/
private theorem blk_shift (V : Entry) (c : Dev nD) (t : Fin cfg3.N) (q : Fin 128) :
    (iblk3 V c 4 t : Vec Ideal S1x128 .f32) (ix2 0 q) = (V c main_v23 : FVec Ideal S1x128 .f32) (ix2 0 q) := by
  obtain ⟨-, -, -, -, -, -, -, -, e0, e1, -⟩ := idx_facts t
  unfold iblk3
  rw [View.read_apply]
  show V c main_v23 _ = V c main_v23 _
  congr 1
  funext a
  apply Fin.ext
  match a with
  | ⟨0, _⟩ => show win3_4.index t (0 : Fin 2) * 1 + 1 * (0 : Fin 1).val = (0 : Fin 1).val; rw [e0]; rfl
  | ⟨1, _⟩ => show win3_4.index t (1 : Fin 2) * 128 + 1 * q.val = q.val; rw [e1]; omega

/-- The per-node scale's block at point t is rows 5000 t … 5000 t + 4999 of its one-column array. -/
private theorem blk_col (V : Entry) (c : Dev nD) (t : Fin cfg3.N) (p : Fin 5000) (k : S100000x1.Idx)
    (hk0 : (k 0).val = t.val * 5000 + p.val) :
    (iblk3 V c 5 t : Vec Ideal S5000x1 .f32) (ix2 p 0) = (V c main_v24 : FVec Ideal S100000x1 .f32) k := by
  obtain ⟨-, -, -, -, -, -, -, -, -, -, e0, e1, -⟩ := idx_facts t
  unfold iblk3
  rw [View.read_apply]
  show V c main_v24 _ = V c main_v24 _
  congr 1
  funext a
  apply Fin.ext
  match a with
  | ⟨0, _⟩ => show win3_5.index t (0 : Fin 2) * 5000 + 1 * p.val = (k 0).val; rw [e0, hk0]; omega
  | ⟨1, _⟩ => show win3_5.index t (1 : Fin 2) * 1 + 1 * (0 : Fin 1).val = (k 1).val; rw [e1]; have h1 : (k 1).val < 1 := (k 1).isLt; show 0 * 1 + 1 * 0 = (k 1).val; omega

/-- An index of the output array is in point t's block iff each coordinate is in the block's range on its axis. -/
private theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v25).slice (win3_6.rect t)).set ↔ _
  rw [View.set_slice_whole, Rect.mem_set_unit]
  exact Iff.rfl

/-- Row r of the output is written by the point r / 5000. -/
private theorem cover (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, -, -, e0, e1⟩ := idx_facts t
  refine ⟨t, flush3_6 t, ?_⟩
  rw [mem_blk]
  intro a
  have ht : t.val = (i 0).val / 5000 := rfl
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

/-- Where point t's output block sits in the array. -/
private theorem out_emb (t : Fin cfg3.N) (p : Fin 5000) (q : Fin 128) (hr : t.val * 5000 + p.val < 100000) :
    ((cfg3.win 6).blk t).view.emb (ix2 p q) = (ix2 (⟨t.val * 5000 + p.val, hr⟩ : Fin 100000) q : S100000x128.Idx) := by
  obtain ⟨-, -, -, -, -, -, -, -, -, -, -, -, e0, e1⟩ := idx_facts t
  funext a
  apply Fin.ext
  match a with
  | ⟨0, _⟩ => show win3_6.index t (0 : Fin 2) * 5000 + 1 * p.val = t.val * 5000 + p.val; rw [e0]; omega
  | ⟨1, _⟩ => show win3_6.index t (1 : Fin 2) * 128 + 1 * q.val = q.val; rw [e1]; omega

/-! ## The whole-array function at an index -/

/-- A length-128 vector repeated down the rows reads, at (r, q), its entry q. -/
private theorem rowBias_apply (b : FVec Ideal S128 .f32) (r : Fin 100000) (q : Fin 128) :
    Cert.ReferenceIdeal.Stage.rowBias b (ix2 r q) = b (ix1 q) := by
  unfold Cert.ReferenceIdeal.Stage.rowBias
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- A per-node scalar repeated across the columns reads, at (r, q), its entry r. -/
private theorem colScale_apply (v : FVec Ideal S100000 .f32) (r : Fin 100000) (q : Fin 128) :
    Cert.ReferenceIdeal.Stage.colScale v (ix2 r q) = v (ix1 r) := by
  unfold Cert.ReferenceIdeal.Stage.colScale
  refine (broadcastInDim_apply _ _ _ (ix2 r q) (ix2 r (0 : Fin 1)) fun a => ?_).trans
    (broadcastInDim_apply _ _ _ (ix2 r (0 : Fin 1)) (ix1 r) fun a => ?_)
  · match a with
    | ⟨0, _⟩ => rfl
    | ⟨1, _⟩ => rfl
  · match a with
    | ⟨0, _⟩ => rfl

/-- The whole-array normalisation at (r, q). -/
private theorem bnWith_apply (h : FVec Ideal S100000x128 .f32) (μ σ2 γ β : FVec Ideal S128 .f32) (oi : FVec Ideal S100000 .f32)
    (r : Fin 100000) (q : Fin 128) :
    Stage.bnWith h μ σ2 γ β oi (ix2 r q)
      = ((h (ix2 r q) - μ (ix1 q)) * Ideal.rsqrt (σ2 (ix1 q) + Ideal.ofBits .f32 0x3727C5AC#32) * γ (ix1 q) + β (ix1 q))
          * oi (ix1 r) := by
  unfold Stage.bnWith
  simp only [mulf_apply, addf_apply, subf_apply, rowBias_apply, colScale_apply]
  rfl

/-! ## From the blocks to the array -/

/-- What point t writes back is rows 5000 t … 5000 t + 4999 of the whole-array normalisation of the arrays as the region finds them. -/
private theorem flushed_eq (V : Entry) (c : Dev nD) (μ σ2 γ β : FVec Ideal S128 .f32) (oi : FVec Ideal S100000 .f32)
    (hμ : ∀ j : Fin 128, (V c main_v18 : FVec Ideal S1x128 .f32) (ix2 0 j) = μ (ix1 j))
    (hσ : ∀ j : Fin 128, (V c main_v21 : FVec Ideal S1x128 .f32) (ix2 0 j) = σ2 (ix1 j))
    (hγ : ∀ j : Fin 128, (V c main_v22 : FVec Ideal S1x128 .f32) (ix2 0 j) = γ (ix1 j))
    (hβ : ∀ j : Fin 128, (V c main_v23 : FVec Ideal S1x128 .f32) (ix2 0 j) = β (ix1 j))
    (hoi : ∀ r : Fin 100000, (V c main_v24 : FVec Ideal S100000x1 .f32) (ix2 r 0) = oi (ix1 r))
    (t : Fin cfg3.N) :
    (dat3 (F := Ideal) V c).flushed 6 t
      = ((cfg3.win 6).blk t).view.read (Elt Ideal) (Stage.bnWith (V c main_v15) μ σ2 γ β oi) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz, View.ld_unit_zero (S := S5000x1) hz]
  funext j
  obtain ⟨p, q, rfl⟩ : ∃ (p : Fin 5000) (q : Fin 128), j = ix2 p q := ⟨j 0, j 1, eq_ix2 j⟩
  have hN : cfg3.N = 20 := N_3
  have hr : t.val * 5000 + p.val < 100000 := by have := t.isLt; have := p.isLt; omega
  rw [View.read_apply, out_emb t p q hr]
  show k3_pay1 (iblk3 V c 0 t) (iblk3 V c 1 t) (iblk3 V c 2 t) (iblk3 V c 3 t) (iblk3 V c 4 t) (iblk3 V c 5 t) (ix2 p q)
    = Stage.bnWith (V c main_v15) μ σ2 γ β oi (ix2 (⟨t.val * 5000 + p.val, hr⟩ : Fin 100000) q)
  refine (pay_apply (iblk3 V c 0 t) (iblk3 V c 1 t) (iblk3 V c 2 t) (iblk3 V c 3 t) (iblk3 V c 4 t) (iblk3 V c 5 t) p q).trans ?_
  rw [blk_rows V c t p q (ix2 (⟨t.val * 5000 + p.val, hr⟩ : Fin 100000) q) rfl rfl, blk_centre, blk_var, blk_scale, blk_shift,
    blk_col V c t p (ix2 (⟨t.val * 5000 + p.val, hr⟩ : Fin 100000) 0) rfl, hμ, hσ, hγ, hβ, hoi]
  exact (bnWith_apply _ _ _ _ _ _ _ _).symm

/-- REGION 3 (normalise, scale, shift, then scale each node's row). -/
theorem region3_value (V : Entry) (c : Dev nD) (μ σ2 γ β : FVec Ideal S128 .f32) (oi : FVec Ideal S100000 .f32)
    (hμ : ∀ j : Fin 128, (V c main_v18 : FVec Ideal S1x128 .f32) (ix2 0 j) = μ (ix1 j))
    (hσ : ∀ j : Fin 128, (V c main_v21 : FVec Ideal S1x128 .f32) (ix2 0 j) = σ2 (ix1 j))
    (hγ : ∀ j : Fin 128, (V c main_v22 : FVec Ideal S1x128 .f32) (ix2 0 j) = γ (ix1 j))
    (hβ : ∀ j : Fin 128, (V c main_v23 : FVec Ideal S1x128 .f32) (ix2 0 j) = β (ix1 j))
    (hoi : ∀ r : Fin 100000, (V c main_v24 : FVec Ideal S100000x1 .f32) (ix2 r 0) = oi (ix1 r)) :
    ((dat3 (F := Ideal) V c).arrAt 6 cfg3.N : FVec Ideal S100000x128 .f32)
      = Stage.bnWith (V c main_v15) μ σ2 γ β oi :=
  (dat3 (F := Ideal) V c).arrAt_eq_of_cover 6 (Stage.bnWith (V c main_v15) μ σ2 γ β oi)
    (fun t _ => flushed_eq V c μ σ2 γ β oi hμ hσ hγ hβ hoi t) (fun i => cover i)

end Cert.KernelIdeal.Val

end
-- ==== Proof.RegConv.lean ====
/-
  Region 4: the tiled scaled matmul with bias, relu and residual is the whole-array one.

  The region walks the 100000 nodes in twenty blocks of 5000 rows. At a point it holds rows 5000 t … 5000 t + 4999 of
  the aggregated features, of the in-degree column and of the residual, and the whole weight matrix and bias row, and
  stores  residual + max ((features · scale) · W + bias, 0)  for those rows. Entry (p, q) of that block depends only on
  row 5000 t + p of the three tall operands, so it is entry (5000 t + p, q) of the same formula over the whole arrays:
  the product of a row block is the row block of the product (the same sum over the 128 inner positions on both sides),
  the scale column and the bias row are read where the broadcasts put them, and both sides take the maximum with the
  same zero word. The twenty blocks tile the array, row r lying in block r / 5000.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

namespace Conv4

/-! ## The body's stored value at an index -/

/-- The kernel's matmul dimension numbers: on the left operand the row is the output's row … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the column the contraction's position; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- on the right operand the row is the contraction's position … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the column the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's matmul into the zero accumulator, at row `p` and column `q`: the sum over the 128 inner positions. -/
theorem mm_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The scale column repeated across the 128 columns, at an index: the column's entry of that row. -/
theorem bcol_apply (x : FVec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => by
    match a with
    | ⟨0, _⟩ => rfl
    | ⟨1, _⟩ => rfl)

/-- The bias row repeated down the 5000 rows, at an index: the row's entry of that column. -/
theorem brow_apply (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) (fun a => by
    match a with
    | ⟨0, _⟩ => rfl
    | ⟨1, _⟩ => rfl)

/-- What the body stores, at row `p` and column `q` of the block: the residual entry plus the positive part of
    the scaled rows' product with the weights plus the bias. -/
theorem pay_apply (x0 : FVec Ideal S5000x128 .f32) (x1 : FVec Ideal S5000x1 .f32) (x2 : FVec Ideal S128x128 .f32)
    (x3 : FVec Ideal S1x128 .f32) (x4 : FVec Ideal S5000x128 .f32) (p : Fin 5000) (q : Fin 128) :
    k4_pay1 (F := Ideal) x0 x1 x2 x3 x4 (ix2 p q)
      = x4 (ix2 p q) + max ((∑ k : Fin 128, (x0 (ix2 p k) * x1 (ix2 p 0)) * x2 (ix2 k q)) + x3 (ix2 0 q))
          (Scalar.ofBits (F := Ideal) .f32 0x00000000#32) := by
  unfold k4_pay1
  simp only [shapeCast_self]
  refine congrArg₂ (· + ·) rfl (congrArg₂ max (congrArg₂ (· + ·) ?_ (brow_apply x3 _ p q)) rfl)
  refine (mm_apply _ x2 p q).trans (Finset.sum_congr rfl fun k _ => ?_)
  exact congrArg (· * x2 (ix2 k q)) (congrArg (x0 (ix2 p k) * ·) (bcol_apply x1 _ p k))

/-! ## The whole-array stage at an index -/

/-- The whole-array product's dimension numbers: on the left operand the row is the output's row … -/
theorem hlhs_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl
/-- … and the column the contraction's position; -/
theorem hlhs_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- on the right operand the row is the contraction's position … -/
theorem hrhs_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- … and the column the output's column. -/
theorem hrhs_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The whole-array product at row `i` and column `q`: the sum over the 128 inner positions. -/
theorem hdot_apply (l : FVec Ideal Cert.ReferenceIdeal.S100000x128 .f32) (r : FVec Ideal Cert.ReferenceIdeal.S128x128 .f32)
    (i : Fin 100000) (q : Fin 128) :
    Host.dotGeneral (F := Ideal) Cert.ReferenceIdeal.dot_S100000x128_S128x128_S100000x128_1_0_0_1_n_n none l r (ix2 i q)
      = ∑ k : Fin 128, l (ix2 i k) * r (ix2 k q) := by
  refine (Ideal.dotGeneral_apply Cert.ReferenceIdeal.dot_S100000x128_S128x128_S100000x128_1_0_0_1_n_n none _ l r (ix2 i q)).trans ?_
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 i q)
      ((contrEquiv1 Cert.ReferenceIdeal.dot_S100000x128_S128x128_S100000x128_1_0_0_1_n_n 128 rfl rfl).symm k) = ix2 i k :=
    funext fun a => Fin.ext (by
      match a with
      | ⟨0, _⟩ => exact hlhs_0 _ _
      | ⟨1, _⟩ => exact (hlhs_1 _ _).trans hk)
  have er : Cert.ReferenceIdeal.dot_S100000x128_S128x128_S100000x128_1_0_0_1_n_n.rhsIdx (ix2 i q)
      ((contrEquiv1 Cert.ReferenceIdeal.dot_S100000x128_S128x128_S100000x128_1_0_0_1_n_n 128 rfl rfl).symm k) = ix2 k q :=
    funext fun a => Fin.ext (by
      match a with
      | ⟨0, _⟩ => exact (hrhs_0 _ _).trans hk
      | ⟨1, _⟩ => exact hrhs_1 _ _)
  rw [el, er]

/-- A per-node scalar repeated across the columns, at an index. -/
theorem colScale_apply (v : FVec Ideal Cert.ReferenceIdeal.S100000 .f32) (r : Fin 100000) (k : Fin 128) :
    Cert.ReferenceIdeal.Stage.colScale v (ix2 r k) = v (ix1 r) := by
  unfold Cert.ReferenceIdeal.Stage.colScale
  refine (broadcastInDim_apply _ _ _ (ix2 r k) (ix2 r 0) (fun a => by
    match a with
    | ⟨0, _⟩ => rfl
    | ⟨1, _⟩ => rfl)).trans ?_
  exact broadcastInDim_apply _ _ v (ix2 r 0) (ix1 r) (fun a => by
    match a with
    | ⟨0, _⟩ => rfl)

/-- A length-128 vector repeated down the rows, at an index. -/
theorem rowBias_apply (b : FVec Ideal Cert.ReferenceIdeal.S128 .f32) (r : Fin 100000) (q : Fin 128) :
    Cert.ReferenceIdeal.Stage.rowBias b (ix2 r q) = b (ix1 q) := by
  unfold Cert.ReferenceIdeal.Stage.rowBias
  refine (broadcastInDim_apply _ _ _ (ix2 r q) (ix2 0 q) (fun a => by
    match a with
    | ⟨0, _⟩ => rfl
    | ⟨1, _⟩ => rfl)).trans ?_
  exact broadcastInDim_apply _ _ b (ix2 0 q) (ix1 q) (fun a => by
    match a with
    | ⟨0, _⟩ => rfl)

/-- The whole-array stage at row `r` and column `q`. -/
theorem conv_apply (a : FVec Ideal Cert.ReferenceIdeal.S100000x128 .f32) (ii : FVec Ideal Cert.ReferenceIdeal.S100000 .f32)
    (W : FVec Ideal Cert.ReferenceIdeal.S128x128 .f32) (b : FVec Ideal Cert.ReferenceIdeal.S128 .f32)
    (pre : FVec Ideal Cert.ReferenceIdeal.S100000x128 .f32) (r : Fin 100000) (q : Fin 128) :
    Stage.conv a ii W b pre (ix2 r q)
      = pre (ix2 r q) + max ((∑ k : Fin 128, (a (ix2 r k) * ii (ix1 r)) * W (ix2 k q)) + b (ix1 q))
          (Scalar.ofBits (F := Ideal) .f32 0x00000000#32) := by
  unfold Cert.ReferenceIdeal.Stage.conv
  refine congrArg₂ (· + ·) rfl (congrArg₂ max (congrArg₂ (· + ·) ?_ (rowBias_apply b r q)) rfl)
  refine (hdot_apply _ W r q).trans (Finset.sum_congr rfl fun k _ => ?_)
  exact congrArg (· * W (ix2 k q)) (congrArg (a (ix2 r k) * ·) (colScale_apply ii r k))

/-! ## From blocks to the array -/

theorem hz : (![0, 0] : Fin 2 → Nat) = fun _ => 0 := funext fun a => by fin_cases a <;> rfl

/-- One store covers the staging buffer, so what the body leaves there is what it stores, of the five loaded blocks. -/
theorem out_eq {F : FTy → Type} [FloatOps F] (x0 : Vec F S5000x128 .f32) (x1 : Vec F S5000x1 .f32) (x2 : Vec F S128x128 .f32)
    (x3 : Vec F S1x128 .f32) (x4 : Vec F S5000x128 .f32) : out4_5 x0 x1 x2 x3 x4 = k4_pay1 x0 x1 x2 x3 x4 := by
  unfold out4_5
  rw [View.canon_unit_zero hz]
  simp only [View.ld_unit_zero (S := S5000x128) hz, View.ld_unit_zero (S := S5000x1) hz, View.ld_unit_zero (S := S128x128) hz,
    View.ld_unit_zero (S := S1x128) hz]

/-- The grid's point `t` takes row block `t` of the three tall operands and of the result, and the one block of the
    weights and of the bias row. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The five input blocks at a point, each at its literal shape. -/
abbrev blkA (V : Entry) (c : Dev nD) (t : Fin cfg4.N) : FVec Ideal S5000x128 .f32 := iblk4 V c 0 t
abbrev blkS (V : Entry) (c : Dev nD) (t : Fin cfg4.N) : FVec Ideal S5000x1 .f32 := iblk4 V c 1 t
abbrev blkW (V : Entry) (c : Dev nD) (t : Fin cfg4.N) : FVec Ideal S128x128 .f32 := iblk4 V c 2 t
abbrev blkB (V : Entry) (c : Dev nD) (t : Fin cfg4.N) : FVec Ideal S1x128 .f32 := iblk4 V c 3 t
abbrev blkP (V : Entry) (c : Dev nD) (t : Fin cfg4.N) : FVec Ideal S5000x128 .f32 := iblk4 V c 4 t

/-- Row `p` of the aggregated features' block `t` is row `5000 t + p` of the array. -/
theorem blkA_apply (V : Entry) (c : Dev nD) (t : Fin cfg4.N) (p : Fin 5000) (k : Fin 128) (r : Fin 100000)
    (hr : r.val = t.val * 5000 + p.val) :
    blkA V c t (ix2 p k) = (V c main_v35 : FVec Ideal S100000x128 .f32) (ix2 r k) := by
  obtain ⟨e0, e1, -⟩ := idx_facts t
  unfold blkA iblk4
  rw [View.read_apply]
  refine congrArg (V c main_v35 : FVec Ideal S100000x128 .f32) (funext fun a => Fin.ext ?_)
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- Row `p` of the in-degree column's block `t` is row `5000 t + p` of the column. -/
theorem blkS_apply (V : Entry) (c : Dev nD) (t : Fin cfg4.N) (p : Fin 5000) (r : Fin 100000)
    (hr : r.val = t.val * 5000 + p.val) :
    blkS V c t (ix2 p 0) = (V c main_v37 : FVec Ideal S100000x1 .f32) (ix2 r 0) := by
  obtain ⟨-, -, e0, e1, -⟩ := idx_facts t
  unfold blkS iblk4
  rw [View.read_apply]
  refine congrArg (V c main_v37 : FVec Ideal S100000x1 .f32) (funext fun a => Fin.ext ?_)
  match a with
  | ⟨0, _⟩ => show win4_1.index t (0 : Fin 2) * 5000 + 1 * p.val = r.val; rw [e0, hr]; omega
  | ⟨1, _⟩ => show win4_1.index t (1 : Fin 2) * 1 + 1 * 0 = 0; rw [e1]

/-- Every point's block of the weights is the whole matrix. -/
theorem blkW_apply (V : Entry) (c : Dev nD) (t : Fin cfg4.N) (k q : Fin 128) :
    blkW V c t (ix2 k q) = (V c main_arg10 : FVec Ideal S128x128 .f32) (ix2 k q) := by
  obtain ⟨-, -, -, -, e0, e1, -⟩ := idx_facts t
  unfold blkW iblk4
  rw [View.read_apply]
  refine congrArg (V c main_arg10 : FVec Ideal S128x128 .f32) (funext fun a => Fin.ext ?_)
  match a with
  | ⟨0, _⟩ => show win4_2.index t (0 : Fin 2) * 128 + 1 * k.val = k.val; rw [e0]; omega
  | ⟨1, _⟩ => show win4_2.index t (1 : Fin 2) * 128 + 1 * q.val = q.val; rw [e1]; omega

/-- Every point's block of the bias row is the whole row. -/
theorem blkB_apply (V : Entry) (c : Dev nD) (t : Fin cfg4.N) (q : Fin 128) :
    blkB V c t (ix2 0 q) = (V c main_v36 : FVec Ideal S1x128 .f32) (ix2 0 q) := by
  obtain ⟨-, -, -, -, -, -, e0, e1, -⟩ := idx_facts t
  unfold blkB iblk4
  rw [View.read_apply]
  refine congrArg (V c main_v36 : FVec Ideal S1x128 .f32) (funext fun a => Fin.ext ?_)
  match a with
  | ⟨0, _⟩ => show win4_3.index t (0 : Fin 2) * 1 + 1 * 0 = 0; rw [e0]
  | ⟨1, _⟩ => show win4_3.index t (1 : Fin 2) * 128 + 1 * q.val = q.val; rw [e1]; omega

/-- Row `p` of the residual's block `t` is row `5000 t + p` of the array. -/
theorem blkP_apply (V : Entry) (c : Dev nD) (t : Fin cfg4.N) (p : Fin 5000) (q : Fin 128) (r : Fin 100000)
    (hr : r.val = t.val * 5000 + p.val) :
    blkP V c t (ix2 p q) = (V c main_v15 : FVec Ideal S100000x128 .f32) (ix2 r q) := by
  obtain ⟨-, -, -, -, -, -, -, -, e0, e1, -⟩ := idx_facts t
  unfold blkP iblk4
  rw [View.read_apply]
  refine congrArg (V c main_v15 : FVec Ideal S100000x128 .f32) (funext fun a => Fin.ext ?_)
  match a with
  | ⟨0, _⟩ => show win4_4.index t (0 : Fin 2) * 5000 + 1 * p.val = r.val; rw [e0, hr]; omega
  | ⟨1, _⟩ => show win4_4.index t (1 : Fin 2) * 128 + 1 * q.val = q.val; rw [e1]; omega

/-- What point `t` leaves at row `p`, column `q` of the output's staging buffer is the whole-array stage at row
    `5000 t + p`: the block's rows are the array's, the row's product with the weights is the same sum, the scale and
    the bias are read where the column and the row say. -/
theorem point_apply (V : Entry) (c : Dev nD) (ii : FVec Ideal S100000 .f32) (b : FVec Ideal S128 .f32)
    (hii : ∀ r : Fin 100000, (V c main_v37 : FVec Ideal S100000x1 .f32) (ix2 r 0) = ii (ix1 r))
    (hb : ∀ j : Fin 128, (V c main_v36 : FVec Ideal S1x128 .f32) (ix2 0 j) = b (ix1 j))
    (t : Fin cfg4.N) (p : Fin 5000) (q : Fin 128) (r : Fin 100000) (hr : r.val = t.val * 5000 + p.val) :
    out4_5 (F := Ideal) (blkA V c t) (blkS V c t) (blkW V c t) (blkB V c t) (blkP V c t) (ix2 p q)
      = Stage.conv (V c main_v35) ii (V c main_arg10) b (V c main_v15) (ix2 r q) := by
  refine (congrFun (out_eq (F := Ideal) (blkA V c t) (blkS V c t) (blkW V c t) (blkB V c t) (blkP V c t)) (ix2 p q)).trans ?_
  refine (pay_apply (blkA V c t) (blkS V c t) (blkW V c t) (blkB V c t) (blkP V c t) p q).trans ?_
  refine Eq.trans ?_ (conv_apply (V c main_v35) ii (V c main_arg10) b (V c main_v15) r q).symm
  refine congrArg₂ (· + ·) (blkP_apply V c t p q r hr)
    (congrArg₂ max (congrArg₂ (· + ·) (Finset.sum_congr rfl fun k _ => ?_) ((blkB_apply V c t q).trans (hb q))) rfl)
  exact congrArg₂ (· * ·) (congrArg₂ (· * ·) (blkA_apply V c t p k r hr) ((blkS_apply V c t p r hr).trans (hii r)))
    (blkW_apply V c t k q)

/-- WHAT POINT `t` WRITES BACK is block `t` of the whole-array stage. -/
theorem flushed_eq (V : Entry) (c : Dev nD) (ii : FVec Ideal S100000 .f32) (b : FVec Ideal S128 .f32)
    (hii : ∀ r : Fin 100000, (V c main_v37 : FVec Ideal S100000x1 .f32) (ix2 r 0) = ii (ix1 r))
    (hb : ∀ j : Fin 128, (V c main_v36 : FVec Ideal S1x128 .f32) (ix2 0 j) = b (ix1 j)) (t : Fin cfg4.N) :
    (dat4 (F := Ideal) V c).flushed 5 t
      = ((cfg4.win 5).blk t).view.read (Elt Ideal) (Stage.conv (V c main_v35) ii (V c main_arg10) b (V c main_v15)) := by
  show (cfg4.win 5).cut (grid4.coords t) ((dat4 (F := Ideal) V c).after 5 t) = _
  rw [after4_5]
  refine funext fun j => ?_
  obtain ⟨p, q, rfl⟩ : ∃ (p : Fin 5000) (q : Fin 128), j = ix2 p q := ⟨j 0, j 1, eq_ix2 j⟩
  have hN : cfg4.N = 20 := N_4
  have ht : t.val < 20 := hN ▸ t.isLt
  have hp : p.val < 5000 := p.isLt
  obtain ⟨-, -, -, -, -, -, -, -, -, -, e0, e1⟩ := idx_facts t
  refine (point_apply V c ii b hii hb t p q ⟨t.val * 5000 + p.val, by omega⟩ rfl).trans ?_
  rw [View.read_apply]
  refine congrArg (Stage.conv (V c main_v35) ii (V c main_arg10) b (V c main_v15)) (funext fun a => Fin.ext ?_)
  match a with
  | ⟨0, _⟩ => show t.val * 5000 + p.val = win4_5.index t (0 : Fin 2) * 5000 + 1 * p.val; rw [e0]; omega
  | ⟨1, _⟩ => show q.val = win4_5.index t (1 : Fin 2) * 128 + 1 * q.val; rw [e1]; omega

/-- An index of the array is in point `t`'s block iff each coordinate is in the block's range on its axis. -/
theorem mem_blk (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v38).slice (win4_5.rect t)).set ↔ _
  rw [View.set_slice_whole, Rect.mem_set_unit]
  exact Iff.rfl

/-- The twenty row blocks cover the array: row `r` lies in the block of point `r / 5000`. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 128 ≤ (i 1).val ∧ (i 1).val < win4_5.index t (1 : Fin 2) * 128 + 128
    rw [e1]; omega

end Conv4

/-- REGION 4 (in-degree scaling, matmul, bias, relu, residual). -/
theorem region4_value (V : Entry) (c : Dev nD) (ii : FVec Ideal S100000 .f32) (b : FVec Ideal S128 .f32)
    (hii : ∀ r : Fin 100000, (V c main_v37 : FVec Ideal S100000x1 .f32) (ix2 r 0) = ii (ix1 r))
    (hb : ∀ j : Fin 128, (V c main_v36 : FVec Ideal S1x128 .f32) (ix2 0 j) = b (ix1 j)) :
    ((dat4 (F := Ideal) V c).arrAt 5 cfg4.N : FVec Ideal S100000x128 .f32)
      = Stage.conv (V c main_v35) ii (V c main_arg10) b (V c main_v15) :=
  (dat4 (F := Ideal) V c).arrAt_eq_of_cover 5 (Stage.conv (V c main_v35) ii (V c main_arg10) b (V c main_v15))
    (fun t _ => Conv4.flushed_eq V c ii b hii hb t) Conv4.cover

end Cert.KernelIdeal.Val

end
-- ==== Proof.FlowA.lean ====
/-
  The kernel program's buffers followed from the launch through the first layer (segments 0 to 8: the degree
  normalisers, the fused linears, the batch statistics, the normalisation, the edge aggregation, the layer's finish).
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry
import proofs.«426980_j56813827392376_1_alg».proof.Proof.Args
import proofs.«426980_j56813827392376_1_alg».proof.Proof.VarLaw
import proofs.«426980_j56813827392376_1_alg».proof.Proof.FlowLib
import proofs.«426980_j56813827392376_1_alg».proof.Proof.RegLinear
import proofs.«426980_j56813827392376_1_alg».proof.Proof.RegColSum
import proofs.«426980_j56813827392376_1_alg».proof.Proof.RegSqSum
import proofs.«426980_j56813827392376_1_alg».proof.Proof.RegNorm
import proofs.«426980_j56813827392376_1_alg».proof.Proof.RegConv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

variable (m : (ℓ : Loc nD τ sig) → Buf (Elt Ideal) ℓ) (ρ : Dev nD → PrngReg)

/-! ## What the host stretches and the regions leave in place -/

/-- The references the host operations before region 0 write. -/
abbrev hostW0 : List (Ref sig .tc) := [main_cst, main_v0, main_cst_0, main_v1, main_v2, main_v3, main_cst_1, main_v4, main_v5, main_v6,
  main_cst_2, main_v7, main_v8, main_v9, main_cst_3, main_v10, main_v11, main_v12, main_v13, main_v14]
/-- The references the host operations between regions 1 and 2 write. -/
abbrev hostW2 : List (Ref sig .tc) := [main_cst_4, main_v17, main_v18]
/-- The references the host operations between regions 2 and 3 write. -/
abbrev hostW3 : List (Ref sig .tc) := [main_cst_5, main_v20, main_v21, main_v22, main_v23, main_v24]
/-- The references the host operations between regions 3 and 4 write. -/
abbrev hostW4 : List (Ref sig .tc) := [main_c, main_v26, main_v27, main_c_6, main_v28, main_v29, main_v30, main_v31, main_v32,
  main_cst_7, main_v33, main_v34, main_v35, main_v36, main_v37]

theorem hostOps0_writes : (hostOps0 : List (HloOp τ sig (Elt Ideal))).Forall fun op => op.writes ⊆ (hostW0.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_writes : (hostOps2 : List (HloOp τ sig (Elt Ideal))).Forall fun op => op.writes ⊆ (hostW2.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps3_writes : (hostOps3 : List (HloOp τ sig (Elt Ideal))).Forall fun op => op.writes ⊆ (hostW3.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps4_writes : (hostOps4 : List (HloOp τ sig (Elt Ideal))).Forall fun op => op.writes ⊆ (hostW4.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer the host operations before region 0 do not write is as launched when region 0 is entered. -/
theorem W1_keep (c : Dev nD) (r : Ref sig .tc) (h : r ∉ hostW0) :
    W1 (F := Ideal) m ρ c (Proc.devRef .tc r) = m ((c : Thread nD τ).loc r) :=
  (StableHlo.after_of_writes_sub hostOps0 _ hostOps0_writes h).trans rfl
/-- A buffer that is no array of regions 0 and 1 leaves region 1 as it entered region 0. -/
theorem W3_keep (c : Dev nD) (r : Ref sig .tc) (h0 : ∀ w, Pipeline.arrRef spec0 w ≠ r) (h1 : ∀ w, Pipeline.arrRef spec1 w ≠ r) :
    W3 (F := Ideal) m ρ c (Proc.devRef .tc r) = W1 m ρ c (Proc.devRef .tc r) :=
  (W3_of_ne m ρ c r h1).trans (W2_of_ne m ρ c r h0)
theorem W4_keep (c : Dev nD) (r : Ref sig .tc) (h : r ∉ hostW2) :
    W4 (F := Ideal) m ρ c (Proc.devRef .tc r) = W3 m ρ c (Proc.devRef .tc r) :=
  StableHlo.after_of_writes_sub hostOps2 _ hostOps2_writes h
theorem W6_keep (c : Dev nD) (r : Ref sig .tc) (h : r ∉ hostW3) :
    W6 (F := Ideal) m ρ c (Proc.devRef .tc r) = W5 m ρ c (Proc.devRef .tc r) :=
  StableHlo.after_of_writes_sub hostOps3 _ hostOps3_writes h
theorem W8_keep (c : Dev nD) (r : Ref sig .tc) (h : r ∉ hostW4) :
    W8 (F := Ideal) m ρ c (Proc.devRef .tc r) = W7 m ρ c (Proc.devRef .tc r) :=
  StableHlo.after_of_writes_sub hostOps4 _ hostOps4_writes h

/-- A buffer no host operation up to region 2 writes and no region up to region 2 has as an array leaves region 2 as
    it entered region 0. -/
theorem W5_keep (c : Dev nD) (r : Ref sig .tc) (h0 : ∀ w, Pipeline.arrRef spec0 w ≠ r) (h1 : ∀ w, Pipeline.arrRef spec1 w ≠ r)
    (h2 : ∀ w, Pipeline.arrRef spec2 w ≠ r) (g2 : r ∉ hostW2) :
    W5 (F := Ideal) m ρ c (Proc.devRef .tc r) = W1 m ρ c (Proc.devRef .tc r) :=
  (W5_of_ne m ρ c r h2).trans ((W4_keep m ρ c r g2).trans (W3_keep m ρ c r h0 h1))
/-- The same through region 3. -/
theorem W7_keep (c : Dev nD) (r : Ref sig .tc) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) (g2 : r ∉ hostW2) (g3 : r ∉ hostW3) :
    W7 (F := Ideal) m ρ c (Proc.devRef .tc r) = W1 m ρ c (Proc.devRef .tc r) :=
  (W7_of_ne m ρ c r h3).trans ((W6_keep m ρ c r g3).trans (W5_keep m ρ c r h0 h1 h2 g2))
/-- The same through region 4. -/
theorem W9_keep (c : Dev nD) (r : Ref sig .tc) (h0 : ∀ w, Pipeline.arrRef spec0 w ≠ r) (h1 : ∀ w, Pipeline.arrRef spec1 w ≠ r)
    (h2 : ∀ w, Pipeline.arrRef spec2 w ≠ r) (h3 : ∀ w, Pipeline.arrRef spec3 w ≠ r) (h4 : ∀ w, Pipeline.arrRef spec4 w ≠ r)
    (g2 : r ∉ hostW2) (g3 : r ∉ hostW3) (g4 : r ∉ hostW4) :
    W9 (F := Ideal) m ρ c (Proc.devRef .tc r) = W1 m ρ c (Proc.devRef .tc r) :=
  (W9_of_ne m ρ c r h4).trans ((W8_keep m ρ c r g4).trans (W7_keep m ρ c r h0 h1 h2 h3 g2 g3))

/-! ## Region 0's entry: the degree normalisers and the two one-row biases -/

theorem W1_v6 (c : Dev nD) : (W1 (F := Ideal) m ρ c (Proc.devRef .tc main_v6) : FVec Ideal S100000 .f32) = Cert.ReferenceIdeal.Stage.degInv (a14 m c) := by
  dsimp only [W1, hostOps0]
  after_results
  exact degInv_eq _
theorem W1_v12 (c : Dev nD) : (W1 (F := Ideal) m ρ c (Proc.devRef .tc main_v12) : FVec Ideal S100000 .f32) = Cert.ReferenceIdeal.Stage.degInv (a15 m c) := by
  dsimp only [W1, hostOps0]
  after_results
  exact degInv_eq _
theorem W1_v13 (c : Dev nD) (j : Fin 128) : (W1 (F := Ideal) m ρ c (Proc.devRef .tc main_v13) : FVec Ideal S1x128 .f32) (ix2 0 j) = a3 m c (ix1 j) := by
  dsimp only [W1, hostOps0]
  after_results
  exact reshape_row _ j
theorem W1_v14 (c : Dev nD) (j : Fin 128) : (W1 (F := Ideal) m ρ c (Proc.devRef .tc main_v14) : FVec Ideal S1x128 .f32) (ix2 0 j) = a5 m c (ix1 j) := by
  dsimp only [W1, hostOps0]
  after_results
  exact reshape_row _ j

/-! ## Region 0: the fused linears -/

theorem W2_v15 (c : Dev nD) : (W2 (F := Ideal) m ρ c (Proc.devRef .tc main_v15) : FVec Ideal S100000x128 .f32) = H0 m c := by
  refine (W2_arr m ρ c 6).trans ?_
  refine (region0_value (V1 m ρ) c (a3 m c) (a5 m c) (W1_v13 m ρ c) (W1_v14 m ρ c)).trans ?_
  have e0 : V1 m ρ c main_arg0 = a0 m c := W1_keep m ρ c main_arg0 (by decide)
  have e1 : V1 m ρ c main_arg1 = a1 m c := W1_keep m ρ c main_arg1 (by decide)
  have e2 : V1 m ρ c main_arg2 = a2 m c := W1_keep m ρ c main_arg2 (by decide)
  have e4 : V1 m ρ c main_arg4 = a4 m c := W1_keep m ρ c main_arg4 (by decide)
  rw [e0, e1, e2, e4]

/-! ## Region 1: the column sums -/

theorem W3_v16 (c : Dev nD) (j : Fin 128) : (W3 (F := Ideal) m ρ c (Proc.devRef .tc main_v16) : FVec Ideal S1x128 .f32) (ix2 0 j) = Cert.ReferenceIdeal.Stage.colSum (H0 m c) (ix1 j) := by
  have h := region1_value (V2 m ρ) c j
  rw [show V2 m ρ c main_v15 = H0 m c from W2_v15 m ρ c] at h
  exact (congrFun (W3_arr m ρ c 1) (ix2 0 j)).trans h
theorem W3_v15 (c : Dev nD) : (W3 (F := Ideal) m ρ c (Proc.devRef .tc main_v15) : FVec Ideal S100000x128 .f32) = H0 m c :=
  ((W3_arr m ρ c 0).trans (((dat1 (V2 m ρ) c).arrAt_in 0 rfl _).trans (A_eq1 (V2 m ρ) c 0))).trans (W2_v15 m ρ c)

/-! ## Region 2's entry: the column means -/

theorem W4_v15 (c : Dev nD) : (W4 (F := Ideal) m ρ c (Proc.devRef .tc main_v15) : FVec Ideal S100000x128 .f32) = H0 m c :=
  (W4_keep m ρ c main_v15 (by decide)).trans (W3_v15 m ρ c)
theorem W4_v18 (c : Dev nD) (j : Fin 128) : (W4 (F := Ideal) m ρ c (Proc.devRef .tc main_v18) : FVec Ideal S1x128 .f32) (ix2 0 j) = Cert.ReferenceIdeal.Stage.mean (H0 m c) (ix1 j) := by
  dsimp only [W4, hostOps2]
  after_results
  exact mean_row _ (H0 m c) (W3_v16 m ρ c) j

/-! ## Region 2: the column sums of squared deviations -/

theorem W5_v19 (c : Dev nD) (j : Fin 128) : (W5 (F := Ideal) m ρ c (Proc.devRef .tc main_v19) : FVec Ideal S1x128 .f32) (ix2 0 j)
    = Cert.ReferenceIdeal.Stage.sqSum (H0 m c) (Cert.ReferenceIdeal.Stage.mean (H0 m c)) (ix1 j) := by
  have h := region2_value (V4 m ρ) c (Cert.ReferenceIdeal.Stage.mean (H0 m c)) (W4_v18 m ρ c) j
  rw [show V4 m ρ c main_v15 = H0 m c from W4_v15 m ρ c] at h
  exact (congrFun (W5_arr m ρ c 2) (ix2 0 j)).trans h
theorem W5_v15 (c : Dev nD) : (W5 (F := Ideal) m ρ c (Proc.devRef .tc main_v15) : FVec Ideal S100000x128 .f32) = H0 m c :=
  ((W5_arr m ρ c 0).trans (((dat2 (V4 m ρ) c).arrAt_in 0 rfl _).trans (A_eq2 (V4 m ρ) c 0))).trans (W4_v15 m ρ c)
theorem W5_v18 (c : Dev nD) (j : Fin 128) : (W5 (F := Ideal) m ρ c (Proc.devRef .tc main_v18) : FVec Ideal S1x128 .f32) (ix2 0 j) = Cert.ReferenceIdeal.Stage.mean (H0 m c) (ix1 j) :=
  (congrFun ((W5_arr m ρ c 1).trans (((dat2 (V4 m ρ) c).arrAt_in 1 rfl _).trans (A_eq2 (V4 m ρ) c 1))) (ix2 0 j)).trans (W4_v18 m ρ c j)
theorem W5_v6 (c : Dev nD) : (W5 (F := Ideal) m ρ c (Proc.devRef .tc main_v6) : FVec Ideal S100000 .f32) = Cert.ReferenceIdeal.Stage.degInv (a14 m c) :=
  (W5_keep m ρ c main_v6 (by decide) (by decide) (by decide) (by decide)).trans (W1_v6 m ρ c)
theorem W5_arg6 (c : Dev nD) : W5 (F := Ideal) m ρ c (Proc.devRef .tc main_arg6) = a6 m c :=
  (W5_keep m ρ c main_arg6 (by decide) (by decide) (by decide) (by decide)).trans (W1_keep m ρ c main_arg6 (by decide))
theorem W5_arg7 (c : Dev nD) : W5 (F := Ideal) m ρ c (Proc.devRef .tc main_arg7) = a7 m c :=
  (W5_keep m ρ c main_arg7 (by decide) (by decide) (by decide) (by decide)).trans (W1_keep m ρ c main_arg7 (by decide))

/-! ## Region 3's entry: the variances, the scale and shift as one-row arrays, the out-degree normaliser as a column -/

theorem W6_v15 (c : Dev nD) : (W6 (F := Ideal) m ρ c (Proc.devRef .tc main_v15) : FVec Ideal S100000x128 .f32) = H0 m c :=
  (W6_keep m ρ c main_v15 (by decide)).trans (W5_v15 m ρ c)
theorem W6_v18 (c : Dev nD) (j : Fin 128) : (W6 (F := Ideal) m ρ c (Proc.devRef .tc main_v18) : FVec Ideal S1x128 .f32) (ix2 0 j) = Cert.ReferenceIdeal.Stage.mean (H0 m c) (ix1 j) :=
  (congrFun (W6_keep m ρ c main_v18 (by decide)) (ix2 0 j)).trans (W5_v18 m ρ c j)
theorem W6_v21 (c : Dev nD) (j : Fin 128) : (W6 (F := Ideal) m ρ c (Proc.devRef .tc main_v21) : FVec Ideal S1x128 .f32) (ix2 0 j) = Cert.ReferenceIdeal.Stage.var (H0 m c) (ix1 j) := by
  dsimp only [W6, hostOps3]
  after_results
  exact var_row _ (H0 m c) (W5_v19 m ρ c) j
theorem W6_v22 (c : Dev nD) (j : Fin 128) : (W6 (F := Ideal) m ρ c (Proc.devRef .tc main_v22) : FVec Ideal S1x128 .f32) (ix2 0 j) = a6 m c (ix1 j) := by
  dsimp only [W6, hostOps3]
  after_results
  exact (reshape_row _ j).trans (congrFun (W5_arg6 m ρ c) (ix1 j))
theorem W6_v23 (c : Dev nD) (j : Fin 128) : (W6 (F := Ideal) m ρ c (Proc.devRef .tc main_v23) : FVec Ideal S1x128 .f32) (ix2 0 j) = a7 m c (ix1 j) := by
  dsimp only [W6, hostOps3]
  after_results
  exact (reshape_row _ j).trans (congrFun (W5_arg7 m ρ c) (ix1 j))
theorem W6_v24 (c : Dev nD) (r : Fin 100000) : (W6 (F := Ideal) m ρ c (Proc.devRef .tc main_v24) : FVec Ideal S100000x1 .f32) (ix2 r 0) = Cert.ReferenceIdeal.Stage.degInv (a14 m c) (ix1 r) := by
  dsimp only [W6, hostOps3]
  after_results
  exact (reshape_col _ r).trans (congrFun (W5_v6 m ρ c) (ix1 r))

/-! ## Region 3: the normalised, out-degree-scaled features -/

theorem W7_v25 (c : Dev nD) : (W7 (F := Ideal) m ρ c (Proc.devRef .tc main_v25) : FVec Ideal S100000x128 .f32)
    = Cert.ReferenceIdeal.Stage.bn (H0 m c) (a6 m c) (a7 m c) (Cert.ReferenceIdeal.Stage.degInv (a14 m c)) := by
  refine (W7_arr m ρ c 6).trans ?_
  refine (region3_value (V6 m ρ) c (Cert.ReferenceIdeal.Stage.mean (H0 m c)) (Cert.ReferenceIdeal.Stage.var (H0 m c)) (a6 m c) (a7 m c)
    (Cert.ReferenceIdeal.Stage.degInv (a14 m c)) (W6_v18 m ρ c) (W6_v21 m ρ c) (W6_v22 m ρ c) (W6_v23 m ρ c) (W6_v24 m ρ c)).trans ?_
  rw [show V6 m ρ c main_v15 = H0 m c from W6_v15 m ρ c]
  rfl
theorem W7_v15 (c : Dev nD) : (W7 (F := Ideal) m ρ c (Proc.devRef .tc main_v15) : FVec Ideal S100000x128 .f32) = H0 m c :=
  ((W7_arr m ρ c 0).trans (((dat3 (V6 m ρ) c).arrAt_in 0 rfl _).trans (A_eq3 (V6 m ρ) c 0))).trans (W6_v15 m ρ c)
theorem W7_v12 (c : Dev nD) : (W7 (F := Ideal) m ρ c (Proc.devRef .tc main_v12) : FVec Ideal S100000 .f32) = Cert.ReferenceIdeal.Stage.degInv (a15 m c) :=
  (W7_keep m ρ c main_v12 (by decide) (by decide) (by decide) (by decide) (by decide) (by decide)).trans (W1_v12 m ρ c)
theorem W7_arg11 (c : Dev nD) : W7 (F := Ideal) m ρ c (Proc.devRef .tc main_arg11) = a11 m c :=
  (W7_keep m ρ c main_arg11 (by decide) (by decide) (by decide) (by decide) (by decide) (by decide)).trans (W1_keep m ρ c main_arg11 (by decide))
theorem W7_arg14 (c : Dev nD) : W7 (F := Ideal) m ρ c (Proc.devRef .tc main_arg14) = a14 m c :=
  (W7_keep m ρ c main_arg14 (by decide) (by decide) (by decide) (by decide) (by decide) (by decide)).trans (W1_keep m ρ c main_arg14 (by decide))
theorem W7_arg15 (c : Dev nD) : W7 (F := Ideal) m ρ c (Proc.devRef .tc main_arg15) = a15 m c :=
  (W7_keep m ρ c main_arg15 (by decide) (by decide) (by decide) (by decide) (by decide) (by decide)).trans (W1_keep m ρ c main_arg15 (by decide))
theorem W7_arg10 (c : Dev nD) : W7 (F := Ideal) m ρ c (Proc.devRef .tc main_arg10) = a10 m c :=
  (W7_keep m ρ c main_arg10 (by decide) (by decide) (by decide) (by decide) (by decide) (by decide)).trans (W1_keep m ρ c main_arg10 (by decide))

/-! ## Region 4's entry: the edge aggregation, the bias as a one-row array, the in-degree normaliser as a column -/

theorem W8_v15 (c : Dev nD) : (W8 (F := Ideal) m ρ c (Proc.devRef .tc main_v15) : FVec Ideal S100000x128 .f32) = H0 m c :=
  (W8_keep m ρ c main_v15 (by decide)).trans (W7_v15 m ρ c)
theorem W8_arg10 (c : Dev nD) : W8 (F := Ideal) m ρ c (Proc.devRef .tc main_arg10) = a10 m c :=
  (W8_keep m ρ c main_arg10 (by decide)).trans (W7_arg10 m ρ c)
theorem W8_v35 (c : Dev nD) : (W8 (F := Ideal) m ρ c (Proc.devRef .tc main_v35) : FVec Ideal S100000x128 .f32)
    = Cert.ReferenceIdeal.Stage.agg (Cert.ReferenceIdeal.Stage.bn (H0 m c) (a6 m c) (a7 m c) (Cert.ReferenceIdeal.Stage.degInv (a14 m c))) (a14 m c) (a15 m c) := by
  dsimp only [W8, hostOps4]
  after_results
  rw [W7_arg14 m ρ c, W7_arg15 m ρ c, W7_v25 m ρ c]
  exact agg_eq _ _ _
theorem W8_v36 (c : Dev nD) (j : Fin 128) : (W8 (F := Ideal) m ρ c (Proc.devRef .tc main_v36) : FVec Ideal S1x128 .f32) (ix2 0 j) = a11 m c (ix1 j) := by
  dsimp only [W8, hostOps4]
  after_results
  exact (reshape_row _ j).trans (congrFun (W7_arg11 m ρ c) (ix1 j))
theorem W8_v37 (c : Dev nD) (r : Fin 100000) : (W8 (F := Ideal) m ρ c (Proc.devRef .tc main_v37) : FVec Ideal S100000x1 .f32) (ix2 r 0) = Cert.ReferenceIdeal.Stage.degInv (a15 m c) (ix1 r) := by
  dsimp only [W8, hostOps4]
  after_results
  exact (reshape_col _ r).trans (congrFun (W7_v12 m ρ c) (ix1 r))

/-- After the first layer's last region (region 4) the buffer of its result holds the first layer's features. -/
theorem W9_v38 (c : Dev nD) : (W9 (F := Ideal) m ρ c (Proc.devRef .tc main_v38) : FVec Ideal S100000x128 .f32) = H1 m c := by
  refine (W9_arr m ρ c 5).trans ?_
  refine (region4_value (V8 m ρ) c (Cert.ReferenceIdeal.Stage.degInv (a15 m c)) (a11 m c) (W8_v37 m ρ c) (W8_v36 m ρ c)).trans ?_
  rw [show V8 m ρ c main_v35 = _ from W8_v35 m ρ c, show V8 m ρ c main_arg10 = a10 m c from W8_arg10 m ρ c,
    show V8 m ρ c main_v15 = H0 m c from W8_v15 m ρ c]
  rfl
/-- The two degree normalisers, computed before region 0, are still in their buffers. -/
theorem W9_v6 (c : Dev nD) : (W9 (F := Ideal) m ρ c (Proc.devRef .tc main_v6) : FVec Ideal S100000 .f32) = Cert.ReferenceIdeal.Stage.degInv (a14 m c) :=
  (W9_keep m ρ c main_v6 (by decide) (by decide) (by decide) (by decide) (by decide) (by decide) (by decide) (by decide)).trans (W1_v6 m ρ c)
theorem W9_v12 (c : Dev nD) : (W9 (F := Ideal) m ρ c (Proc.devRef .tc main_v12) : FVec Ideal S100000 .f32) = Cert.ReferenceIdeal.Stage.degInv (a15 m c) :=
  (W9_keep m ρ c main_v12 (by decide) (by decide) (by decide) (by decide) (by decide) (by decide) (by decide) (by decide)).trans (W1_v12 m ρ c)
/-- The arguments the second layer and the readout still read are as launched. -/
theorem W9_arg8 (c : Dev nD) : W9 (F := Ideal) m ρ c (Proc.devRef .tc main_arg8) = m ((c : Thread nD τ).loc main_arg8) :=
  (W9_keep m ρ c main_arg8 (by decide) (by decide) (by decide) (by decide) (by decide) (by decide) (by decide) (by decide)).trans (W1_keep m ρ c main_arg8 (by decide))
theorem W9_arg9 (c : Dev nD) : W9 (F := Ideal) m ρ c (Proc.devRef .tc main_arg9) = m ((c : Thread nD τ).loc main_arg9) :=
  (W9_keep m ρ c main_arg9 (by decide) (by decide) (by decide) (by decide) (by decide) (by decide) (by decide) (by decide)).trans (W1_keep m ρ c main_arg9 (by decide))
theorem W9_arg12 (c : Dev nD) : W9 (F := Ideal) m ρ c (Proc.devRef .tc main_arg12) = m ((c : Thread nD τ).loc main_arg12) :=
  (W9_keep m ρ c main_arg12 (by decide) (by decide) (by decide) (by decide) (by decide) (by decide) (by decide) (by decide)).trans (W1_keep m ρ c main_arg12 (by decide))
theorem W9_arg13 (c : Dev nD) : W9 (F := Ideal) m ρ c (Proc.devRef .tc main_arg13) = m ((c : Thread nD τ).loc main_arg13) :=
  (W9_keep m ρ c main_arg13 (by decide) (by decide) (by decide) (by decide) (by decide) (by decide) (by decide) (by decide)).trans (W1_keep m ρ c main_arg13 (by decide))
theorem W9_arg14 (c : Dev nD) : W9 (F := Ideal) m ρ c (Proc.devRef .tc main_arg14) = m ((c : Thread nD τ).loc main_arg14) :=
  (W9_keep m ρ c main_arg14 (by decide) (by decide) (by decide) (by decide) (by decide) (by decide) (by decide) (by decide)).trans (W1_keep m ρ c main_arg14 (by decide))
theorem W9_arg15 (c : Dev nD) : W9 (F := Ideal) m ρ c (Proc.devRef .tc main_arg15) = m ((c : Thread nD τ).loc main_arg15) :=
  (W9_keep m ρ c main_arg15 (by decide) (by decide) (by decide) (by decide) (by decide) (by decide) (by decide) (by decide)).trans (W1_keep m ρ c main_arg15 (by decide))
theorem W9_arg16 (c : Dev nD) : W9 (F := Ideal) m ρ c (Proc.devRef .tc main_arg16) = m ((c : Thread nD τ).loc main_arg16) :=
  (W9_keep m ρ c main_arg16 (by decide) (by decide) (by decide) (by decide) (by decide) (by decide) (by decide) (by decide)).trans (W1_keep m ρ c main_arg16 (by decide))

end Cert.KernelIdeal.Val

end
-- ==== Proof.RegColSum2.lean ====
/-
  Region 5: the block-accumulated column sums are the whole-array column sums.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

/-! ## What each case of the body leaves in the one-row output block -/

section Pieces
variable {F : FTy → Type} [FloatOps F]

theorem cs5_hz : (![0, 0] : Fin 2 → Nat) = fun _ => 0 := funext fun a => by fin_cases a <;> rfl

/-- A later point: the block carried from the point before plus the column sums of the point's row block. -/
theorem cs5_piece_B (c : Dev nD) (i : grid5.Coords) (a1 : Memref sig .tc .vmem S5000x128 .f32) (h1 : a1.IsWhole)
    (a2 : Memref sig .tc .vmem S1x128 .f32) (h2 : a2.IsWhole) (hc : ¬cond5_0 i) (x : Vec F S5000x128 .f32) (xo : Vec F S1x128 .f32) :
    out5_B_1 c i a1 h1 a2 h2 hc x xo = k5_pay2 xo x := by
  unfold out5_B_1
  rw [View.read_writes_eq_canon _ _ _ (cover5_B_1 c i a1 h1 a2 h2 hc x xo)]
  unfold kernelRun5_B
  dsimp only
  sl_unfold_words
  rw [View.canon_unit_zero cs5_hz]
  simp only [View.readAt_eq_ld, h1.read_unread, h2.read_unread, View.ld_unit_zero (S := S1x128) cs5_hz,
    View.ld_unit_zero (S := S5000x128) cs5_hz]

/-- The first point: the zero row plus the column sums of the first row block. -/
theorem cs5_piece_A (c : Dev nD) (i : grid5.Coords) (a1 : Memref sig .tc .vmem S5000x128 .f32) (h1 : a1.IsWhole)
    (a2 : Memref sig .tc .vmem S1x128 .f32) (h2 : a2.IsWhole) (hc : cond5_0 i) (x : Vec F S5000x128 .f32) :
    out5_A_1 c i a1 h1 a2 h2 hc x = k5_pay2 (k5_pay1 (F := F)) x := by
  unfold out5_A_1
  rw [View.read_writes_eq_canon _ _ _ (cover5_A_1 c i a1 h1 a2 h2 hc x)]
  unfold kernelRun5_A
  dsimp only
  sl_unfold_words
  rw [View.canon_cons_unit_zero (S := S1x128) cs5_hz, View.readCov_unit_zero (S := S1x128) _ cs5_hz]
  simp only [View.readAt_eq_ld, h1.read_unread, View.ld_unit_zero (S := S5000x128) cs5_hz]

end Pieces

/-! ## The body's arithmetic at an entry, over the extended reals -/

/-- The zero row is zero at every entry. -/
theorem cs5_zero_apply (j : Fin 128) : (k5_pay1 (F := Ideal)) (ix2 (0 : Fin 1) j) = 0 := by
  unfold k5_pay1
  exact Ideal.ofBits_zero_f32

/-- Entry j of the updated row is entry j of the carried row plus the sum of column j of the row block. -/
theorem cs5_pay_apply (v3 : FVec Ideal S1x128 .f32) (v5 : FVec Ideal S5000x128 .f32) (j : Fin 128) :
    k5_pay2 (F := Ideal) v3 v5 (ix2 (0 : Fin 1) j) = v3 (ix2 (0 : Fin 1) j) + ∑ r : Fin 5000, v5 (ix2 r j) := by
  unfold k5_pay2
  dsimp only
  refine (addf_apply _ _ _).trans ?_
  refine congrArg₂ (· + ·) (congrFun (shapeCast_self v3 _) _) ?_
  refine (shapeCast_a_1a_apply _ _ (0 : Fin 1) j).trans ?_
  refine (Ideal.multiReduction_add_single _ 0x00000000#32 reduces_S5000x128_S128 (.inl rfl) rfl (ix1 j)).trans ?_
  refine Fintype.sum_congr _ _ fun r => ?_
  refine (congrFun (shapeCast_self v5 _) _).trans ?_
  refine congrArg v5 (funext fun a => ?_)
  match a with
  | ⟨0, _⟩ => rfl
  | ⟨1, _⟩ => rfl

/-! ## The row blocks of the input array, and the running sums -/

/-- Column j of the input array as a sequence of extended reals (zero past the last row). -/
def cs5_col (V : Entry) (c : Dev nD) (j : Fin 128) (r : ℕ) : EReal :=
  if h : r < 100000 then (V c main_v38 : FVec Ideal S100000x128 .f32) (ix2 ⟨r, h⟩ j) else 0

/-- Row r of the row block at point t is row 5000 t + r of the input array. -/
theorem cs5_iblk_apply (V : Entry) (c : Dev nD) (t : Fin cfg5.N) (r : Fin 5000) (j : Fin 128) :
    (iblk5 (F := Ideal) V c 0 t : FVec Ideal S5000x128 .f32) (ix2 r j) = cs5_col V c j (t.val * 5000 + r.val) := by
  have hN : t.val < 20 := lt_of_lt_of_eq t.isLt (show cfg5.N = 20 from N_5)
  have hr : t.val * 5000 + r.val < 100000 := by have := r.isLt; omega
  have hi : win5_0.index t 0 = t.val ∧ win5_0.index t 1 = 0 :=
    (by decide +kernel : ∀ t : Fin grid5.N, win5_0.index t 0 = t.val ∧ win5_0.index t 1 = 0) t
  unfold cs5_col
  rw [dif_pos hr]
  unfold iblk5
  rw [View.read_apply]
  show V c main_v38 _ = V c main_v38 _
  congr 1
  funext a
  apply Fin.ext
  match a with
  | ⟨0, _⟩ => show win5_0.index t 0 * 5000 + 1 * r.val = t.val * 5000 + r.val; rw [hi.1]; omega
  | ⟨1, _⟩ => show win5_0.index t 1 * 128 + 1 * j.val = j.val; rw [hi.2]; omega

/-- One step of the accumulation: the sum of the first n blocks' rows plus block n's rows is the sum of the first n + 1 blocks' rows. -/
theorem cs5_step (acc : EReal) (f : ℕ → EReal) (n : ℕ) (g : Fin 5000 → EReal)
    (hacc : acc = ∑ r ∈ Finset.range (n * 5000), f r) (hg : ∀ r : Fin 5000, g r = f (n * 5000 + r.val)) :
    acc + ∑ r : Fin 5000, g r = ∑ r ∈ Finset.range ((n + 1) * 5000), f r := by
  rw [hacc, Fintype.sum_congr g _ hg, Fin.sum_univ_eq_sum_range (fun r => f (n * 5000 + r)) 5000, Nat.succ_mul,
    Finset.sum_range_add]

/-- After point n the carried row holds, at entry j, the sum of column j over the first (n + 1) row blocks. -/
theorem cs5_outsAt (V : Entry) (c : Dev nD) (j : Fin 128) : ∀ (n : ℕ) (hn : n < cfg5.N),
    (outsAt5 (F := Ideal) V c n hn : FVec Ideal S1x128 .f32) (ix2 (0 : Fin 1) j)
      = ∑ r ∈ Finset.range ((n + 1) * 5000), cs5_col V c j r
  | 0, hn => by
    rw [outsAt5_A V c ⟨0, hn⟩ rfl]
    refine (congrFun (cs5_piece_A (F := Ideal) c (grid5.coords ⟨0, hn⟩) (ms5_0 ⟨0, hn⟩) (hs5_0 ⟨0, hn⟩) (ms5_1 ⟨0, hn⟩) (hs5_1 ⟨0, hn⟩)
      ((hcond5_0 ⟨0, hn⟩).mpr rfl) (iblk5 V c 0 ⟨0, hn⟩)) (ix2 (0 : Fin 1) j)).trans ?_
    refine (cs5_pay_apply (k5_pay1 (F := Ideal)) (iblk5 V c 0 ⟨0, hn⟩) j).trans ?_
    exact cs5_step _ (cs5_col V c j) 0 _ (by rw [cs5_zero_apply]; simp) (fun r => cs5_iblk_apply V c ⟨0, hn⟩ r j)
  | n + 1, hn => by
    have hN : n + 1 < 20 := lt_of_lt_of_eq hn (show cfg5.N = 20 from N_5)
    have hB : ¬(⟨n + 1, hn⟩ : Fin cfg5.N).val % 20 = 0 := by dsimp only; omega
    rw [outsAt5_B V c ⟨n + 1, hn⟩ hB]
    dsimp only
    refine (congrFun (cs5_piece_B (F := Ideal) c (grid5.coords ⟨n + 1, hn⟩) (ms5_0 ⟨n + 1, hn⟩) (hs5_0 ⟨n + 1, hn⟩) (ms5_1 ⟨n + 1, hn⟩)
      (hs5_1 ⟨n + 1, hn⟩) (fun h => hB ((hcond5_0 ⟨n + 1, hn⟩).mp h)) (iblk5 V c 0 ⟨n + 1, hn⟩)
      (outsAt5 V c (n + 1 - 1) (Nat.lt_of_le_of_lt (Nat.sub_le _ _) hn))) (ix2 (0 : Fin 1) j)).trans ?_
    refine (cs5_pay_apply (outsAt5 V c (n + 1 - 1) (Nat.lt_of_le_of_lt (Nat.sub_le _ _) hn)) (iblk5 V c 0 ⟨n + 1, hn⟩) j).trans ?_
    exact cs5_step _ (cs5_col V c j) (n + 1) _ (cs5_outsAt V c j n (Nat.lt_of_succ_lt hn))
      (fun r => cs5_iblk_apply V c ⟨n + 1, hn⟩ r j)

/-! ## The output array after the run: the row written back at the last point -/

/-- The last of the 20 points. -/
theorem cs5_last : 19 < cfg5.N := by rw [show cfg5.N = 20 from N_5]; decide

/-- The carried row after the last point, as contents of the one-row output array (its one block is the array). -/
abbrev cs5_result (V : Entry) (c : Dev nD) : Buf (Elt Ideal) ((c : Thread nD τ).loc main_v39) :=
  outsAt5 (F := Ideal) V c 19 cs5_last

/-- The one write-back, at the last point, writes the carried row: block (0, 0) of the one-row array is the array. -/
theorem cs5_flushed (V : Entry) (c : Dev nD) (t : Fin cfg5.N) (hf : (cfg5.win 1).flush t = true) :
    (dat5 (F := Ideal) V c).flushed 1 t = ((cfg5.win 1).blk t).view.read (Elt Ideal) (cs5_result V c) := by
  have hN : t.val < 20 := lt_of_lt_of_eq t.isLt (show cfg5.N = 20 from N_5)
  have h19 : t.val = 19 := by have := (flush5_1 t).mp hf; omega
  obtain rfl : t = ⟨19, cs5_last⟩ := Fin.ext h19
  show (cfg5.win 1).cut (grid5.coords ⟨19, cs5_last⟩) ((dat5 (F := Ideal) V c).after 1 ⟨19, cs5_last⟩) = _
  rw [after5_1]
  have hz' : (fun a => win5_1.index ⟨19, cs5_last⟩ a * main_v39.ty.shape.size a) = fun _ => 0 :=
    funext fun a => (by decide +kernel : ∀ (t : Fin grid5.N) (a : Fin 2), win5_1.index t a * main_v39.ty.shape.size a = 0) ⟨19, cs5_last⟩ a
  exact (Memref.read_access_unit_zero (Elt Ideal) main_v39 hz' (fun a => by rw [congrFun hz' a]; simp) (cs5_result V c)).symm

/-- So the output array ends holding the carried row after the last point. -/
theorem cs5_final (V : Entry) (c : Dev nD) : (dat5 (F := Ideal) V c).arrAt 1 cfg5.N = cs5_result V c :=
  (dat5 (F := Ideal) V c).arrAt_eq_of_cover 1 (cs5_result V c) (cs5_flushed V c) fun i =>
    ⟨⟨19, cs5_last⟩, (flush5_1 _).mpr rfl, by
      show i ∈ ((View.whole main_v39).slice (win5_1.rect ⟨19, cs5_last⟩)).set
      rw [View.set_slice_whole, Rect.mem_set_unit]
      intro a
      have h0 : (i 0 : Nat) < 1 := (i 0).isLt
      have h1 : (i 1 : Nat) < 128 := (i 1).isLt
      have hidx : ∀ (t : Fin grid5.N) (a : Fin 2), win5_1.index t a * win5_1.size a = 0 := by decide +kernel
      have hx0 : ∀ t : Fin grid5.N, win5_1.xsize (grid5.coords t) 0 = 1 := by decide +kernel
      have hx1 : ∀ t : Fin grid5.N, win5_1.xsize (grid5.coords t) 1 = 128 := by decide +kernel
      match a with
      | ⟨0, _⟩ =>
        show win5_1.index ⟨19, cs5_last⟩ 0 * win5_1.size 0 ≤ (i 0 : Nat) ∧ (i 0 : Nat) < win5_1.index ⟨19, cs5_last⟩ 0 * win5_1.size 0 + win5_1.xsize (grid5.coords ⟨19, cs5_last⟩) 0
        rw [hidx, hx0]; omega
      | ⟨1, _⟩ =>
        show win5_1.index ⟨19, cs5_last⟩ 1 * win5_1.size 1 ≤ (i 1 : Nat) ∧ (i 1 : Nat) < win5_1.index ⟨19, cs5_last⟩ 1 * win5_1.size 1 + win5_1.xsize (grid5.coords ⟨19, cs5_last⟩) 1
        rw [hidx, hx1]; omega⟩

/-! ## The whole-array column sums as the same sum -/

/-- The reference's column sum of column j is zero plus the sum of column j over all 100000 rows. -/
theorem cs5_colSum_apply (V : Entry) (c : Dev nD) (j : Fin 128) :
    Stage.colSum (V c main_v38) (ix1 j) = ∑ r ∈ Finset.range 100000, cs5_col V c j r := by
  unfold Cert.ReferenceIdeal.Stage.colSum
  show Ideal.hostReduceAdd _ _ _ _ = _
  refine (Ideal.hostReduceAdd_single _ (by decide : Cert.ReferenceIdeal.S100000x128.Reduces [0] Cert.ReferenceIdeal.S128) _ _ _).trans ?_
  have hz : Cert.ReferenceIdeal.Stage.zeroS (Shape.Idx.first Cert.ReferenceIdeal.Facts₀.h_S_) = 0 := Ideal.ofBits_zero_f32
  rw [hz, zero_add, ← Fin.sum_univ_eq_sum_range (cs5_col V c j) 100000]
  refine Fintype.sum_congr _ _ fun r => ?_
  unfold cs5_col
  have hr : r.val < 100000 := r.isLt
  rw [dif_pos hr]
  refine congrArg (V c main_v38) (funext fun a => ?_)
  match a with
  | ⟨0, _⟩ => rfl
  | ⟨1, _⟩ => rfl

/-- REGION 5 (column sums accumulated over the 20 row blocks). The one-row output holds the column sums of the input array. -/
theorem region5_value (V : Entry) (c : Dev nD) (j : Fin 128) :
    ((dat5 (F := Ideal) V c).arrAt 1 cfg5.N : FVec Ideal S1x128 .f32) (ix2 0 j)
      = Stage.colSum (V c main_v38) (ix1 j) := by
  rw [cs5_colSum_apply, cs5_final]
  exact cs5_outsAt V c j 19 cs5_last

end Cert.KernelIdeal.Val

end
-- ==== Proof.RegSqSum2.lean ====
/-
  Region 6: the block-accumulated sums of squared deviations are the whole-array ones.

  The region visits the 100000 rows in 20 blocks of 5000. At the first block it zeroes its one-row output block;
  at every block it adds, per column, the sum over the block's rows of the squared deviations from the one-row
  centre. So after block n the output block holds, per column, 0 plus the sum over the first 5000 (n + 1) rows of
  the squared deviations; the block is written back once, after the last block, and the array then holds 0 plus
  the sum over all rows, which is what the whole-array stage computes.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.Tactic
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

section Pieces
variable {F : FTy → Type} [FloatOps F]

/-- The zero offsets of a whole-block access. -/
theorem sq6_hz : (![0, 0] : Fin 2 → Nat) = fun _ => 0 := funext fun a => by fin_cases a <;> rfl

/-- A later point: the body leaves, in the output block holding `xo`, `xo` plus the column sums of the squared
    deviations of the input block `x0` from the one-row centre `x1`. -/
theorem sq6_out_B (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond6_0 i) (x0 : Vec F S5000x128 .f32) (x1 : Vec F S1x128 .f32) (xo : Vec F S1x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero sq6_hz]
  simp only [View.readAt_eq_ld, h1.read_unread, h2.read_unread, h3.read_unread, View.ld_unit_zero (S := S5000x128) sq6_hz,
    View.ld_unit_zero (S := S1x128) sq6_hz]

/-- The first point: the output block is zeroed, read back, and the same sums are added to it. -/
theorem sq6_out_A (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond6_0 i) (x0 : Vec F S5000x128 .f32) (x1 : Vec F S1x128 .f32) :
    out6_A_2 c i a1 h1 a2 h2 a3 h3 hc x0 x1 = k6_pay2 x0 x1 k6_pay1 := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S1x128) sq6_hz, View.readCov_unit_zero (S := S1x128) _ sq6_hz]
  simp only [View.readAt_eq_ld, h1.read_unread, h2.read_unread, View.ld_unit_zero (S := S5000x128) sq6_hz,
    View.ld_unit_zero (S := S1x128) sq6_hz]

end Pieces

section AtIdeal

/-- The row index the reduction over the block's rows reads at column `j`, row `r`. -/
theorem sq6_lift (hr : S5000x128.Reduces [0] S128) (j : Fin 128) (r : Fin 5000) : hr.lift (ix1 j) r = ix2 r j := by
  funext a
  match a with
  | ⟨0, _⟩ => exact Fin.ext rfl
  | ⟨1, _⟩ => exact Fin.ext rfl

/-- The accumulating step at a column: the carried entry plus the block's sum over its rows of the squared deviations
    from the centre's entry of that column. -/
theorem sq6_core (x : FVec Ideal S5000x128 .f32) (m acc : FVec Ideal S1x128 .f32) (j : Fin 128)
    (h1 : S1x128.ShapeCasts S1x128) (h2 : S5000x128.ShapeCasts S5000x128) (hb : S1x128.Broadcasts S5000x128)
    (hr : S5000x128.Reduces [0] S128) (hφ : FKind.Formats .f32) (hacc : (0x00000000#32 : BitVec 32) = 0x00000000#32)
    (h3 : S128.ShapeCasts S1x128) :
    addf (shapeCast S1x128 acc h1)
        (shapeCast S1x128 (multiReduction .add [0] S128
          (mulf (subf (shapeCast S5000x128 x h2) (broadcastTo S5000x128 (shapeCast S1x128 m h1) hb))
            (subf (shapeCast S5000x128 x h2) (broadcastTo S5000x128 (shapeCast S1x128 m h1) hb)))
          0x00000000#32 hr hφ hacc) h3) (ix2 (0 : Fin 1) j)
      = acc (ix2 (0 : Fin 1) j)
        + ∑ r : Fin 5000, (x (ix2 r j) - m (ix2 (0 : Fin 1) j)) * (x (ix2 r j) - m (ix2 (0 : Fin 1) j)) := by
  rw [shapeCast_self, shapeCast_self, shapeCast_self, addf_apply, shapeCast_a_1a_apply]
  refine (congrArg (acc (ix2 (0 : Fin 1) j) + ·) (Ideal.multiReduction_add_single _ _ hr hφ hacc (ix1 j))).trans ?_
  show acc (ix2 (0 : Fin 1) j) + ∑ r : Fin 5000, _ = _
  refine congrArg (acc (ix2 (0 : Fin 1) j) + ·) (Finset.sum_congr rfl fun r _ => ?_)
  rw [sq6_lift hr j r, mulf_apply, subf_apply, broadcastTo_1b_ab_apply]

/-- The same of the kernel's payload. -/
theorem sq6_pay2_apply (x : FVec Ideal S5000x128 .f32) (m acc : FVec Ideal S1x128 .f32) (j : Fin 128) :
    k6_pay2 (F := Ideal) x m acc (ix2 (0 : Fin 1) j)
      = acc (ix2 (0 : Fin 1) j)
        + ∑ r : Fin 5000, (x (ix2 r j) - m (ix2 (0 : Fin 1) j)) * (x (ix2 r j) - m (ix2 (0 : Fin 1) j)) :=
  sq6_core x m acc j _ _ _ _ _ _ _

/-- The block the first point stores is zero everywhere. -/
theorem sq6_pay1_apply (j : Fin 128) : (k6_pay1 (F := Ideal)) (ix2 (0 : Fin 1) j) = 0 :=
  Ideal.ofBits_zero_f32

end AtIdeal

section Blocks

variable (V : Entry) (c : Dev nD)

/-- The input array, the centre row, their blocks at a point and the carried output block, at their literal types. -/
abbrev sq6_x : FVec Ideal S100000x128 .f32 := V c main_v38
abbrev sq6_m : FVec Ideal S1x128 .f32 := V c main_v41
abbrev sq6_xblk (t : Fin cfg6.N) : FVec Ideal S5000x128 .f32 := iblk6 V c 0 t
abbrev sq6_mblk (t : Fin cfg6.N) : FVec Ideal S1x128 .f32 := iblk6 V c 1 t
abbrev sq6_acc (n : ℕ) (h : n < cfg6.N) : FVec Ideal S1x128 .f32 := outsAt6 V c n h

/-- The input's block index at point `t` is `(t, 0)`; the centre's is `(0, 0)` at every point. -/
theorem sq6_index0 : ∀ t : Fin cfg6.N, win6_0.index t 0 = t.val ∧ win6_0.index t 1 = 0 :=
  (by decide +kernel : ∀ t : Fin grid6.N, win6_0.index t 0 = t.val ∧ win6_0.index t 1 = 0)
theorem sq6_index1 : ∀ t : Fin cfg6.N, win6_1.index t 0 = 0 ∧ win6_1.index t 1 = 0 :=
  (by decide +kernel : ∀ t : Fin grid6.N, win6_1.index t 0 = 0 ∧ win6_1.index t 1 = 0)

/-- Row `r` of the input's block at point `t` is row `5000 t + r` of the array. -/
theorem sq6_xblk_apply (t : Fin cfg6.N) (r : Fin 5000) (j : Fin 128) (h : 5000 * t.val + r.val < 100000) :
    sq6_xblk V c t (ix2 r j) = sq6_x V c (ix2 ⟨5000 * t.val + r.val, h⟩ j) := by
  show iblk6 V c 0 t (ix2 r j) = V c main_v38 (ix2 ⟨5000 * t.val + r.val, h⟩ j)
  unfold iblk6
  rw [View.read_apply]
  show V c main_v38 _ = V c main_v38 _
  congr 1
  funext a
  apply Fin.ext
  match a with
  | ⟨0, _⟩ => show win6_0.index t 0 * 5000 + 1 * r.val = 5000 * t.val + r.val; rw [(sq6_index0 t).1]; omega
  | ⟨1, _⟩ => show win6_0.index t 1 * 128 + 1 * j.val = j.val; rw [(sq6_index0 t).2]; omega

/-- The centre's block at every point is the centre row. -/
theorem sq6_mblk_apply (t : Fin cfg6.N) (j : Fin 128) :
    sq6_mblk V c t (ix2 (0 : Fin 1) j) = sq6_m V c (ix2 (0 : Fin 1) j) := by
  show iblk6 V c 1 t (ix2 (0 : Fin 1) j) = V c main_v41 (ix2 (0 : Fin 1) j)
  unfold iblk6
  rw [View.read_apply]
  show V c main_v41 _ = V c main_v41 _
  congr 1
  funext a
  apply Fin.ext
  match a with
  | ⟨0, _⟩ => show win6_1.index t 0 * 1 + 1 * 0 = 0; rw [(sq6_index1 t).1]
  | ⟨1, _⟩ => show win6_1.index t 1 * 128 + 1 * j.val = j.val; rw [(sq6_index1 t).2]; omega

end Blocks

section Invariant

variable (V : Entry) (c : Dev nD) (μ : FVec Ideal S128 .f32)

/-- Row `i`'s squared deviation from the centre at column `j` (zero past the last row). -/
def sq6_term (j : Fin 128) (i : ℕ) : EReal :=
  if h : i < 100000 then (sq6_x V c (ix2 ⟨i, h⟩ j) - μ (ix1 j)) * (sq6_x V c (ix2 ⟨i, h⟩ j) - μ (ix1 j)) else 0

/-- One block's addend at a column is the sum of its 5000 rows' terms. -/
theorem sq6_block_sum (hμ : ∀ j : Fin 128, sq6_m V c (ix2 (0 : Fin 1) j) = μ (ix1 j)) (t : Fin cfg6.N) (j : Fin 128) :
    ∑ r : Fin 5000, (sq6_xblk V c t (ix2 r j) - sq6_mblk V c t (ix2 (0 : Fin 1) j))
        * (sq6_xblk V c t (ix2 r j) - sq6_mblk V c t (ix2 (0 : Fin 1) j))
      = ∑ r ∈ Finset.range 5000, sq6_term V c μ j (5000 * t.val + r) := by
  have hN : t.val < 20 := lt_of_lt_of_eq t.isLt (show cfg6.N = 20 from N_6)
  rw [← Fin.sum_univ_eq_sum_range (fun r => sq6_term V c μ j (5000 * t.val + r)) 5000]
  refine Finset.sum_congr rfl fun r _ => ?_
  have h : 5000 * t.val + r.val < 100000 := by have := r.isLt; omega
  rw [sq6_xblk_apply V c t r j h, sq6_mblk_apply V c t j, hμ j]
  unfold sq6_term
  rw [dif_pos h]

/-- THE INVARIANT: after point `n` the carried block holds, at column `j`, zero plus the sum of the terms of the
    first `5000 (n + 1)` rows. -/
theorem sq6_inv (hμ : ∀ j : Fin 128, sq6_m V c (ix2 (0 : Fin 1) j) = μ (ix1 j)) (j : Fin 128) : ∀ (n : ℕ) (h : n < cfg6.N),
    sq6_acc V c n h (ix2 (0 : Fin 1) j) = 0 + ∑ i ∈ Finset.range (5000 * (n + 1)), sq6_term V c μ j i
  | 0, h => by
    show outsAt6 V c 0 h (ix2 (0 : Fin 1) j) = _
    rw [outsAt6_A V c ⟨0, h⟩ rfl]
    refine (congrFun (sq6_out_A (F := Ideal) c (grid6.coords ⟨0, h⟩) (ms6_0 ⟨0, h⟩) (hs6_0 ⟨0, h⟩) (ms6_1 ⟨0, h⟩) (hs6_1 ⟨0, h⟩)
      (ms6_2 ⟨0, h⟩) (hs6_2 ⟨0, h⟩) ((hcond6_0 ⟨0, h⟩).mpr rfl) (iblk6 V c 0 ⟨0, h⟩) (iblk6 V c 1 ⟨0, h⟩)) (ix2 (0 : Fin 1) j)).trans ?_
    refine (sq6_pay2_apply (sq6_xblk V c ⟨0, h⟩) (sq6_mblk V c ⟨0, h⟩) (k6_pay1 (F := Ideal)) j).trans ?_
    rw [sq6_pay1_apply j, sq6_block_sum V c μ hμ ⟨0, h⟩ j]
    simp only [Nat.mul_zero, Nat.zero_add, Nat.mul_one]
  | n + 1, h => by
    have hN : n + 1 < 20 := lt_of_lt_of_eq h (show cfg6.N = 20 from N_6)
    have hB : ¬(⟨n + 1, h⟩ : Fin cfg6.N).val % 20 = 0 := by dsimp only; omega
    show outsAt6 V c (n + 1) h (ix2 (0 : Fin 1) j) = _
    rw [outsAt6_B V c ⟨n + 1, h⟩ hB]
    dsimp only
    refine (congrFun (sq6_out_B (F := Ideal) c (grid6.coords ⟨n + 1, h⟩) (ms6_0 ⟨n + 1, h⟩) (hs6_0 ⟨n + 1, h⟩) (ms6_1 ⟨n + 1, h⟩)
      (hs6_1 ⟨n + 1, h⟩) (ms6_2 ⟨n + 1, h⟩) (hs6_2 ⟨n + 1, h⟩) (fun hh => hB ((hcond6_0 ⟨n + 1, h⟩).mp hh)) (iblk6 V c 0 ⟨n + 1, h⟩)
      (iblk6 V c 1 ⟨n + 1, h⟩) (outsAt6 V c n (Nat.lt_of_succ_lt h))) (ix2 (0 : Fin 1) j)).trans ?_
    refine (sq6_pay2_apply (sq6_xblk V c ⟨n + 1, h⟩) (sq6_mblk V c ⟨n + 1, h⟩) (sq6_acc V c n (Nat.lt_of_succ_lt h)) j).trans ?_
    rw [sq6_inv hμ j n (Nat.lt_of_succ_lt h), sq6_block_sum V c μ hμ ⟨n + 1, h⟩ j]
    show 0 + _ + ∑ r ∈ Finset.range 5000, sq6_term V c μ j (5000 * (n + 1) + r) = _
    rw [show 5000 * (n + 1 + 1) = 5000 * (n + 1) + 5000 by omega, Finset.sum_range_add, add_assoc]

end Invariant

section Final

variable (V : Entry) (c : Dev nD)

/-- The last point, the only one after which the output block is written back. -/
abbrev sq6_last : Fin cfg6.N := ⟨19, by rw [show cfg6.N = 20 from N_6]; decide⟩

/-- What the output array ends holding: the carried block after the last point. -/
abbrev sq6_result : Buf (Elt Ideal) ((c.tc : Thread nD τ).loc main_v42) := outsAt6 V c 19 sq6_last.isLt

/-- The one write-back writes it: the output's block is its whole one-row array. -/
theorem sq6_flushed (t : Fin cfg6.N) (hf : (cfg6.win 2).flush t = true) :
    (dat6 V c).flushed 2 t = ((cfg6.win 2).blk t).view.read (Elt Ideal) (sq6_result V c) := by
  have hN : cfg6.N = 20 := N_6
  have h19 : t.val = 19 := by have := (flush6_2 t).mp hf; have := t.isLt; omega
  obtain rfl : t = sq6_last := Fin.ext h19
  show (cfg6.win 2).cut (grid6.coords sq6_last) ((dat6 V c).after 2 sq6_last) = _
  rw [after6_2]
  have hz' : (fun a => win6_2.index sq6_last a * main_v42.ty.shape.size a) = fun _ => 0 :=
    funext fun a => by fin_cases a <;> decide
  exact (Memref.read_access_unit_zero (Elt Ideal) main_v42 hz' (fun a => by rw [congrFun hz' a]; simp) (sq6_result V c)).symm

/-- So the output array ends holding the carried block after the last point. -/
theorem sq6_final : (dat6 V c).arrAt 2 cfg6.N = sq6_result V c :=
  (dat6 V c).arrAt_eq_of_cover 2 (sq6_result V c) (sq6_flushed V c) fun i =>
    ⟨sq6_last, (flush6_2 sq6_last).mpr rfl, by
      show i ∈ ((View.whole main_v42).slice (win6_2.rect sq6_last)).set
      rw [View.set_slice_whole, Rect.mem_set_unit]
      intro a
      have h0 : (i 0 : Nat) < 1 := (i 0).isLt
      have h1 : (i 1 : Nat) < 128 := (i 1).isLt
      match a with
      | ⟨0, _⟩ =>
        show win6_2.index sq6_last 0 * win6_2.size 0 ≤ (i 0 : Nat)
          ∧ (i 0 : Nat) < win6_2.index sq6_last 0 * win6_2.size 0 + win6_2.xsize (grid6.coords sq6_last) 0
        rw [show win6_2.index sq6_last 0 * win6_2.size 0 = 0 from by decide +kernel,
          show win6_2.xsize (grid6.coords sq6_last) 0 = 1 from by decide +kernel]; omega
      | ⟨1, _⟩ =>
        show win6_2.index sq6_last 1 * win6_2.size 1 ≤ (i 1 : Nat)
          ∧ (i 1 : Nat) < win6_2.index sq6_last 1 * win6_2.size 1 + win6_2.xsize (grid6.coords sq6_last) 1
        rw [show win6_2.index sq6_last 1 * win6_2.size 1 = 0 from by decide +kernel,
          show win6_2.xsize (grid6.coords sq6_last) 1 = 128 from by decide +kernel]; omega⟩

end Final

section Whole

/-- The index a reduction over the rows of a matrix reads at column `j`, row `r`. -/
theorem sq6_lift_rows {n m : ℕ} (hr : (⟨2, ![n, m]⟩ : Shape).Reduces [0] ⟨1, ![m]⟩) (j : Fin m) (r : Fin n) :
    hr.lift (ix1 j) r = ix2 r j := by
  funext a
  match a with
  | ⟨0, _⟩ => exact Fin.ext rfl
  | ⟨1, _⟩ => exact Fin.ext rfl

/-- A vector repeated down the rows reads, at row `i` and column `j`, its entry `j`. -/
theorem sq6_rowBias (μ : FVec Ideal S128 .f32) (i : Fin 100000) (j : Fin 128) :
    Cert.ReferenceIdeal.Stage.rowBias μ (ix2 i j) = μ (ix1 j) := by
  unfold Cert.ReferenceIdeal.Stage.rowBias
  refine (broadcastInDim_oneRow_apply _ _ i j).trans ?_
  refine broadcastInDim_apply _ _ μ (ix2 (0 : Fin 1) j) (ix1 j) fun a => ?_
  match a with
  | ⟨0, _⟩ => show j.val = if (128 : ℕ) = 1 then 0 else j.val; rw [if_neg (by decide)]

/-- The whole-array stage at a column: zero plus the sum over all rows of the squared deviations. -/
theorem sq6_stage (x : FVec Ideal S100000x128 .f32) (μ : FVec Ideal S128 .f32) (j : Fin 128) :
    Stage.sqSum x μ (ix1 j)
      = 0 + ∑ i : Fin 100000, (x (ix2 i j) - μ (ix1 j)) * (x (ix2 i j) - μ (ix1 j)) := by
  have hr : S100000x128.Reduces [0] S128 := by decide
  unfold Cert.ReferenceIdeal.Stage.sqSum
  refine (hostReduceAdd_apply _ _ _ _ (ix1 j)).trans ?_
  refine (Ideal.hostReduceAdd_single _ hr _ _ (ix1 j)).trans ?_
  show Ideal.ofBits .f32 0x00000000#32 + ∑ i : Fin 100000, _ = _
  rw [Ideal.ofBits_zero_f32]
  refine congrArg (0 + ·) (Finset.sum_congr rfl fun i _ => ?_)
  rw [sq6_lift_rows hr j i, mulf_apply, subf_apply, sq6_rowBias μ i j]

end Whole

/-- REGION 6 (column sums of squared deviations from a one-row centre, accumulated over the 20 row blocks). -/
theorem region6_value (V : Entry) (c : Dev nD) (μ : FVec Ideal S128 .f32)
    (hμ : ∀ j : Fin 128, (V c main_v41 : FVec Ideal S1x128 .f32) (ix2 0 j) = μ (ix1 j)) (j : Fin 128) :
    ((dat6 (F := Ideal) V c).arrAt 2 cfg6.N : FVec Ideal S1x128 .f32) (ix2 0 j)
      = Stage.sqSum (V c main_v38) μ (ix1 j) := by
  refine (congrFun (sq6_final V c) (ix2 (0 : Fin 1) j)).trans ?_
  refine (sq6_inv V c μ hμ j 19 sq6_last.isLt).trans ?_
  refine Eq.trans ?_ (sq6_stage (sq6_x V c) μ j).symm
  refine congrArg (0 + ·) ?_
  rw [show 5000 * (19 + 1) = 100000 from rfl, ← Fin.sum_univ_eq_sum_range (fun i => sq6_term V c μ j i) 100000]
  refine Finset.sum_congr rfl fun i _ => ?_
  unfold sq6_term
  rw [dif_pos i.isLt]

end Cert.KernelIdeal.Val

end
-- ==== Proof.RegNorm2.lean ====
/-
  Region 7: the tiled pointwise normalisation is the whole-array one.

  The region walks the 100000 node rows in twenty blocks of 5000. At a point it holds rows 5000 t … 5000 t + 4999 of the
  features and of the per-node scale, and the whole of the four one-row arrays (centres, variances, scales, shifts); it stores
  ((x − centre) · rsqrt (variance + eps) · scale + shift) · (the node's scale) over its block. Every operation acts entry by
  entry, a one-row operand being repeated down the rows and the one-column operand across the columns, so the block written
  at point t is the same rows of the whole-array function, and the twenty blocks tile the array: row r is written by point
  r / 5000. The reciprocal square root of the kernel and of the host are one function on the extended reals, and eps is
  one and the same literal on both sides.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

/-! ## The body's stored value and the windows' blocks, at an index -/

/-- The zero offsets, spelt as the rectangles spell them. -/
private theorem hz : (![0, 0] : Fin 2 → Nat) = fun _ => 0 := funext fun a => by fin_cases a <;> rfl

/-- A one-column array repeated across the columns reads, at (p, q), the operand's row p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at (p, q): centre, scale by the reciprocal root of the shifted variance, scale and shift per column, scale per row. -/
private theorem pay_apply (x0 : Vec Ideal S5000x128 .f32) (x1 x2 x3 x4 : Vec Ideal S1x128 .f32) (x5 : Vec Ideal S5000x1 .f32)
    (p : Fin 5000) (q : Fin 128) :
    k7_pay1 x0 x1 x2 x3 x4 x5 (ix2 p q)
      = ((x0 (ix2 p q) - x1 (ix2 0 q)) * Ideal.rsqrt (x2 (ix2 0 q) + Ideal.ofBits .f32 0x3727C5AC#32) * x3 (ix2 0 q) + x4 (ix2 0 q))
          * x5 (ix2 p 0) := by
  unfold k7_pay1
  simp only [mulf_apply, addf_apply, subf_apply, shapeCast_self, broadcastTo_1b_ab_apply, broadcastTo_a1_ab_apply]
  rfl

/-- The printed block-index maps over the twenty row blocks: the three row-tiled windows move with the point, the four one-row windows stay. -/
private theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- The feature window's block at point t is rows 5000 t … 5000 t + 4999 of its array. -/
private theorem blk_rows (V : Entry) (c : Dev nD) (t : Fin cfg7.N) (p : Fin 5000) (q : Fin 128) (k : S100000x128.Idx)
    (hk0 : (k 0).val = t.val * 5000 + p.val) (hk1 : (k 1).val = q.val) :
    (iblk7 V c 0 t : Vec Ideal S5000x128 .f32) (ix2 p q) = (V c main_v38 : FVec Ideal S100000x128 .f32) k := by
  obtain ⟨e0, e1, -⟩ := idx_facts t
  unfold iblk7
  rw [View.read_apply]
  show V c main_v38 _ = V c main_v38 _
  congr 1
  funext a
  apply Fin.ext
  match a with
  | ⟨0, _⟩ => show win7_0.index t (0 : Fin 2) * 5000 + 1 * p.val = (k 0).val; rw [e0, hk0]; omega
  | ⟨1, _⟩ => show win7_0.index t (1 : Fin 2) * 128 + 1 * q.val = (k 1).val; rw [e1, hk1]; omega

/-- Each one-row window's block is its whole array at every point: the centres' one row. -/
private theorem blk_centre (V : Entry) (c : Dev nD) (t : Fin cfg7.N) (q : Fin 128) :
    (iblk7 V c 1 t : Vec Ideal S1x128 .f32) (ix2 0 q) = (V c main_v41 : FVec Ideal S1x128 .f32) (ix2 0 q) := by
  obtain ⟨-, -, e0, e1, -⟩ := idx_facts t
  unfold iblk7
  rw [View.read_apply]
  show V c main_v41 _ = V c main_v41 _
  congr 1
  funext a
  apply Fin.ext
  match a with
  | ⟨0, _⟩ => show win7_1.index t (0 : Fin 2) * 1 + 1 * (0 : Fin 1).val = (0 : Fin 1).val; rw [e0]; rfl
  | ⟨1, _⟩ => show win7_1.index t (1 : Fin 2) * 128 + 1 * q.val = q.val; rw [e1]; omega

/-- The variances' one row. -/
private theorem blk_var (V : Entry) (c : Dev nD) (t : Fin cfg7.N) (q : Fin 128) :
    (iblk7 V c 2 t : Vec Ideal S1x128 .f32) (ix2 0 q) = (V c main_v44 : FVec Ideal S1x128 .f32) (ix2 0 q) := by
  obtain ⟨-, -, -, -, e0, e1, -⟩ := idx_facts t
  unfold iblk7
  rw [View.read_apply]
  show V c main_v44 _ = V c main_v44 _
  congr 1
  funext a
  apply Fin.ext
  match a with
  | ⟨0, _⟩ => show win7_2.index t (0 : Fin 2) * 1 + 1 * (0 : Fin 1).val = (0 : Fin 1).val; rw [e0]; rfl
  | ⟨1, _⟩ => show win7_2.index t (1 : Fin 2) * 128 + 1 * q.val = q.val; rw [e1]; omega

/-- The per-column scales' one row. -/
private theorem blk_scale (V : Entry) (c : Dev nD) (t : Fin cfg7.N) (q : Fin 128) :
    (iblk7 V c 3 t : Vec Ideal S1x128 .f32) (ix2 0 q) = (V c main_v45 : FVec Ideal S1x128 .f32) (ix2 0 q) := by
  obtain ⟨-, -, -, -, -, -, e0, e1, -⟩ := idx_facts t
  unfold iblk7
  rw [View.read_apply]
  show V c main_v45 _ = V c main_v45 _
  congr 1
  funext a
  apply Fin.ext
  match a with
  | ⟨0, _⟩ => show win7_3.index t (0 : Fin 2) * 1 + 1 * (0 : Fin 1).val = (0 : Fin 1).val; rw [e0]; rfl
  | ⟨1, _⟩ => show win7_3.index t (1 : Fin 2) * 128 + 1 * q.val = q.val; rw [e1]; omega

/-- The per-column shifts' one row. -/
private theorem blk_shift (V : Entry) (c : Dev nD) (t : Fin cfg7.N) (q : Fin 128) :
    (iblk7 V c 4 t : Vec Ideal S1x128 .f32) (ix2 0 q) = (V c main_v46 : FVec Ideal S1x128 .f32) (ix2 0 q) := by
  obtain ⟨-, -, -, -, -, -, -, -, e0, e1, -⟩ := idx_facts t
  unfold iblk7
  rw [View.read_apply]
  show V c main_v46 _ = V c main_v46 _
  congr 1
  funext a
  apply Fin.ext
  match a with
  | ⟨0, _⟩ => show win7_4.index t (0 : Fin 2) * 1 + 1 * (0 : Fin 1).val = (0 : Fin 1).val; rw [e0]; rfl
  | ⟨1, _⟩ => show win7_4.index t (1 : Fin 2) * 128 + 1 * q.val = q.val; rw [e1]; omega

/-- The per-node scale's block at point t is rows 5000 t … 5000 t + 4999 of its one-column array. -/
private theorem blk_col (V : Entry) (c : Dev nD) (t : Fin cfg7.N) (p : Fin 5000) (k : S100000x1.Idx)
    (hk0 : (k 0).val = t.val * 5000 + p.val) :
    (iblk7 V c 5 t : Vec Ideal S5000x1 .f32) (ix2 p 0) = (V c main_v47 : FVec Ideal S100000x1 .f32) k := by
  obtain ⟨-, -, -, -, -, -, -, -, -, -, e0, e1, -⟩ := idx_facts t
  unfold iblk7
  rw [View.read_apply]
  show V c main_v47 _ = V c main_v47 _
  congr 1
  funext a
  apply Fin.ext
  match a with
  | ⟨0, _⟩ => show win7_5.index t (0 : Fin 2) * 5000 + 1 * p.val = (k 0).val; rw [e0, hk0]; omega
  | ⟨1, _⟩ => show win7_5.index t (1 : Fin 2) * 1 + 1 * (0 : Fin 1).val = (k 1).val; rw [e1]; have h1 : (k 1).val < 1 := (k 1).isLt; show 0 * 1 + 1 * 0 = (k 1).val; omega

/-- An index of the output array is in point t's block iff each coordinate is in the block's range on its axis. -/
private theorem mem_blk (t : Fin cfg7.N) (i : S100000x128.Idx) :
    i ∈ ((cfg7.win 6).blk t).view.set ↔ ∀ a : Fin 2, win7_6.index t a * S5000x128.size a ≤ (i a).val ∧ (i a).val < win7_6.index t a * S5000x128.size a + S5000x128.size a := by
  show i ∈ ((View.whole main_v48).slice (win7_6.rect t)).set ↔ _
  rw [View.set_slice_whole, Rect.mem_set_unit]
  exact Iff.rfl

/-- Row r of the output is written by the point r / 5000. -/
private theorem cover (i : S100000x128.Idx) : ∃ t : Fin cfg7.N, (cfg7.win 6).flush t = true ∧ i ∈ ((cfg7.win 6).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  obtain ⟨-, -, -, -, -, -, -, -, -, -, -, -, e0, e1⟩ := idx_facts t
  refine ⟨t, flush7_6 t, ?_⟩
  rw [mem_blk]
  intro a
  have ht : t.val = (i 0).val / 5000 := rfl
  match a with
  | ⟨0, _⟩ => show win7_6.index t (0 : Fin 2) * 5000 ≤ (i 0).val ∧ (i 0).val < win7_6.index t (0 : Fin 2) * 5000 + 5000; rw [e0, ht]; omega
  | ⟨1, _⟩ => show win7_6.index t (1 : Fin 2) * 128 ≤ (i 1).val ∧ (i 1).val < win7_6.index t (1 : Fin 2) * 128 + 128; rw [e1]; omega

/-- Where point t's output block sits in the array. -/
private theorem out_emb (t : Fin cfg7.N) (p : Fin 5000) (q : Fin 128) (hr : t.val * 5000 + p.val < 100000) :
    ((cfg7.win 6).blk t).view.emb (ix2 p q) = (ix2 (⟨t.val * 5000 + p.val, hr⟩ : Fin 100000) q : S100000x128.Idx) := by
  obtain ⟨-, -, -, -, -, -, -, -, -, -, -, -, e0, e1⟩ := idx_facts t
  funext a
  apply Fin.ext
  match a with
  | ⟨0, _⟩ => show win7_6.index t (0 : Fin 2) * 5000 + 1 * p.val = t.val * 5000 + p.val; rw [e0]; omega
  | ⟨1, _⟩ => show win7_6.index t (1 : Fin 2) * 128 + 1 * q.val = q.val; rw [e1]; omega

/-! ## The whole-array function at an index -/

/-- A length-128 vector repeated down the rows reads, at (r, q), its entry q. -/
private theorem rowBias_apply (b : FVec Ideal S128 .f32) (r : Fin 100000) (q : Fin 128) :
    Cert.ReferenceIdeal.Stage.rowBias b (ix2 r q) = b (ix1 q) := by
  unfold Cert.ReferenceIdeal.Stage.rowBias
  refine (broadcastInDim_apply _ _ _ (ix2 r q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- A per-node scalar repeated across the columns reads, at (r, q), its entry r. -/
private theorem colScale_apply (v : FVec Ideal S100000 .f32) (r : Fin 100000) (q : Fin 128) :
    Cert.ReferenceIdeal.Stage.colScale v (ix2 r q) = v (ix1 r) := by
  unfold Cert.ReferenceIdeal.Stage.colScale
  refine (broadcastInDim_apply _ _ _ (ix2 r q) (ix2 r (0 : Fin 1)) fun a => ?_).trans
    (broadcastInDim_apply _ _ _ (ix2 r (0 : Fin 1)) (ix1 r) fun a => ?_)
  · match a with
    | ⟨0, _⟩ => rfl
    | ⟨1, _⟩ => rfl
  · match a with
    | ⟨0, _⟩ => rfl

/-- The whole-array normalisation at (r, q). -/
private theorem bnWith_apply (h : FVec Ideal S100000x128 .f32) (μ σ2 γ β : FVec Ideal S128 .f32) (oi : FVec Ideal S100000 .f32)
    (r : Fin 100000) (q : Fin 128) :
    Stage.bnWith h μ σ2 γ β oi (ix2 r q)
      = ((h (ix2 r q) - μ (ix1 q)) * Ideal.rsqrt (σ2 (ix1 q) + Ideal.ofBits .f32 0x3727C5AC#32) * γ (ix1 q) + β (ix1 q))
          * oi (ix1 r) := by
  unfold Stage.bnWith
  simp only [mulf_apply, addf_apply, subf_apply, rowBias_apply, colScale_apply]
  rfl

/-! ## From the blocks to the array -/

/-- What point t writes back is rows 5000 t … 5000 t + 4999 of the whole-array normalisation of the arrays as the region finds them. -/
private theorem flushed_eq (V : Entry) (c : Dev nD) (μ σ2 γ β : FVec Ideal S128 .f32) (oi : FVec Ideal S100000 .f32)
    (hμ : ∀ j : Fin 128, (V c main_v41 : FVec Ideal S1x128 .f32) (ix2 0 j) = μ (ix1 j))
    (hσ : ∀ j : Fin 128, (V c main_v44 : FVec Ideal S1x128 .f32) (ix2 0 j) = σ2 (ix1 j))
    (hγ : ∀ j : Fin 128, (V c main_v45 : FVec Ideal S1x128 .f32) (ix2 0 j) = γ (ix1 j))
    (hβ : ∀ j : Fin 128, (V c main_v46 : FVec Ideal S1x128 .f32) (ix2 0 j) = β (ix1 j))
    (hoi : ∀ r : Fin 100000, (V c main_v47 : FVec Ideal S100000x1 .f32) (ix2 r 0) = oi (ix1 r))
    (t : Fin cfg7.N) :
    (dat7 (F := Ideal) V c).flushed 6 t
      = ((cfg7.win 6).blk t).view.read (Elt Ideal) (Stage.bnWith (V c main_v38) μ σ2 γ β oi) := by
  show (cfg7.win 6).cut (grid7.coords t) ((dat7 (F := Ideal) V c).after 6 t) = _
  rw [after7_6]
  unfold out7_6
  rw [View.canon_unit_zero hz]
  simp only [View.ld_unit_zero (S := S5000x128) hz, View.ld_unit_zero (S := S1x128) hz, View.ld_unit_zero (S := S5000x1) hz]
  funext j
  obtain ⟨p, q, rfl⟩ : ∃ (p : Fin 5000) (q : Fin 128), j = ix2 p q := ⟨j 0, j 1, eq_ix2 j⟩
  have hN : cfg7.N = 20 := N_7
  have hr : t.val * 5000 + p.val < 100000 := by have := t.isLt; have := p.isLt; omega
  rw [View.read_apply, out_emb t p q hr]
  show k7_pay1 (iblk7 V c 0 t) (iblk7 V c 1 t) (iblk7 V c 2 t) (iblk7 V c 3 t) (iblk7 V c 4 t) (iblk7 V c 5 t) (ix2 p q)
    = Stage.bnWith (V c main_v38) μ σ2 γ β oi (ix2 (⟨t.val * 5000 + p.val, hr⟩ : Fin 100000) q)
  refine (pay_apply (iblk7 V c 0 t) (iblk7 V c 1 t) (iblk7 V c 2 t) (iblk7 V c 3 t) (iblk7 V c 4 t) (iblk7 V c 5 t) p q).trans ?_
  rw [blk_rows V c t p q (ix2 (⟨t.val * 5000 + p.val, hr⟩ : Fin 100000) q) rfl rfl, blk_centre, blk_var, blk_scale, blk_shift,
    blk_col V c t p (ix2 (⟨t.val * 5000 + p.val, hr⟩ : Fin 100000) 0) rfl, hμ, hσ, hγ, hβ, hoi]
  exact (bnWith_apply _ _ _ _ _ _ _ _).symm

/-- REGION 7 (normalise, scale, shift, then scale each node's row). -/
theorem region7_value (V : Entry) (c : Dev nD) (μ σ2 γ β : FVec Ideal S128 .f32) (oi : FVec Ideal S100000 .f32)
    (hμ : ∀ j : Fin 128, (V c main_v41 : FVec Ideal S1x128 .f32) (ix2 0 j) = μ (ix1 j))
    (hσ : ∀ j : Fin 128, (V c main_v44 : FVec Ideal S1x128 .f32) (ix2 0 j) = σ2 (ix1 j))
    (hγ : ∀ j : Fin 128, (V c main_v45 : FVec Ideal S1x128 .f32) (ix2 0 j) = γ (ix1 j))
    (hβ : ∀ j : Fin 128, (V c main_v46 : FVec Ideal S1x128 .f32) (ix2 0 j) = β (ix1 j))
    (hoi : ∀ r : Fin 100000, (V c main_v47 : FVec Ideal S100000x1 .f32) (ix2 r 0) = oi (ix1 r)) :
    ((dat7 (F := Ideal) V c).arrAt 6 cfg7.N : FVec Ideal S100000x128 .f32)
      = Stage.bnWith (V c main_v38) μ σ2 γ β oi :=
  (dat7 (F := Ideal) V c).arrAt_eq_of_cover 6 (Stage.bnWith (V c main_v38) μ σ2 γ β oi)
    (fun t _ => flushed_eq V c μ σ2 γ β oi hμ hσ hγ hβ hoi t) (fun i => cover i)

end Cert.KernelIdeal.Val

end
-- ==== Proof.RegConv2.lean ====
/-
  Region 8: the tiled scaled matmul with bias, relu and residual is the whole-array one.

  The region walks the 100000 nodes in twenty blocks of 5000 rows. At a point it holds rows 5000 t … 5000 t + 4999 of
  the aggregated features, of the in-degree column and of the residual, and the whole weight matrix and bias row, and
  stores  residual + max ((features · scale) · W + bias, 0)  for those rows. Entry (p, q) of that block depends only on
  row 5000 t + p of the three tall operands, so it is entry (5000 t + p, q) of the same formula over the whole arrays:
  the product of a row block is the row block of the product (the same sum over the 128 inner positions on both sides),
  the scale column and the bias row are read where the broadcasts put them, and both sides take the maximum with the
  same zero word. The twenty blocks tile the array, row r lying in block r / 5000.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

namespace Conv8

/-! ## The body's stored value at an index -/

/-- The kernel's matmul dimension numbers: on the left operand the row is the output's row … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and the column the contraction's position; -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- on the right operand the row is the contraction's position … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the column the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's matmul into the zero accumulator, at row `p` and column `q`: the sum over the 128 inner positions. -/
theorem mm_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The scale column repeated across the 128 columns, at an index: the column's entry of that row. -/
theorem bcol_apply (x : FVec Ideal S5000x1 .f32) (h : S5000x1.Broadcasts S5000x128) (p : Fin 5000) (k : Fin 128) :
    broadcastTo S5000x128 x h (ix2 p k) = x (ix2 p 0) :=
  broadcastTo_apply x h (ix2 p k) (ix2 p 0) (fun a => by
    match a with
    | ⟨0, _⟩ => rfl
    | ⟨1, _⟩ => rfl)

/-- The bias row repeated down the 5000 rows, at an index: the row's entry of that column. -/
theorem brow_apply (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) (fun a => by
    match a with
    | ⟨0, _⟩ => rfl
    | ⟨1, _⟩ => rfl)

/-- What the body stores, at row `p` and column `q` of the block: the residual entry plus the positive part of
    the scaled rows' product with the weights plus the bias. -/
theorem pay_apply (x0 : FVec Ideal S5000x128 .f32) (x1 : FVec Ideal S5000x1 .f32) (x2 : FVec Ideal S128x128 .f32)
    (x3 : FVec Ideal S1x128 .f32) (x4 : FVec Ideal S5000x128 .f32) (p : Fin 5000) (q : Fin 128) :
    k8_pay1 (F := Ideal) x0 x1 x2 x3 x4 (ix2 p q)
      = x4 (ix2 p q) + max ((∑ k : Fin 128, (x0 (ix2 p k) * x1 (ix2 p 0)) * x2 (ix2 k q)) + x3 (ix2 0 q))
          (Scalar.ofBits (F := Ideal) .f32 0x00000000#32) := by
  unfold k8_pay1
  simp only [shapeCast_self]
  refine congrArg₂ (· + ·) rfl (congrArg₂ max (congrArg₂ (· + ·) ?_ (brow_apply x3 _ p q)) rfl)
  refine (mm_apply _ x2 p q).trans (Finset.sum_congr rfl fun k _ => ?_)
  exact congrArg (· * x2 (ix2 k q)) (congrArg (x0 (ix2 p k) * ·) (bcol_apply x1 _ p k))

/-! ## The whole-array stage at an index -/

/-- The whole-array product's dimension numbers: on the left operand the row is the output's row … -/
theorem hlhs_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl
/-- … and the column the contraction's position; -/
theorem hlhs_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- on the right operand the row is the contraction's position … -/
theorem hrhs_0 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- … and the column the output's column. -/
theorem hrhs_1 (i : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The whole-array product at row `i` and column `q`: the sum over the 128 inner positions. -/
theorem hdot_apply (l : FVec Ideal Cert.ReferenceIdeal.S100000x128 .f32) (r : FVec Ideal Cert.ReferenceIdeal.S128x128 .f32)
    (i : Fin 100000) (q : Fin 128) :
    Host.dotGeneral (F := Ideal) Cert.ReferenceIdeal.dot_S100000x128_S128x128_S100000x128_1_0_0_1_n_n none l r (ix2 i q)
      = ∑ k : Fin 128, l (ix2 i k) * r (ix2 k q) := by
  refine (Ideal.dotGeneral_apply Cert.ReferenceIdeal.dot_S100000x128_S128x128_S100000x128_1_0_0_1_n_n none _ l r (ix2 i q)).trans ?_
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 i q)
      ((contrEquiv1 Cert.ReferenceIdeal.dot_S100000x128_S128x128_S100000x128_1_0_0_1_n_n 128 rfl rfl).symm k) = ix2 i k :=
    funext fun a => Fin.ext (by
      match a with
      | ⟨0, _⟩ => exact hlhs_0 _ _
      | ⟨1, _⟩ => exact (hlhs_1 _ _).trans hk)
  have er : Cert.ReferenceIdeal.dot_S100000x128_S128x128_S100000x128_1_0_0_1_n_n.rhsIdx (ix2 i q)
      ((contrEquiv1 Cert.ReferenceIdeal.dot_S100000x128_S128x128_S100000x128_1_0_0_1_n_n 128 rfl rfl).symm k) = ix2 k q :=
    funext fun a => Fin.ext (by
      match a with
      | ⟨0, _⟩ => exact (hrhs_0 _ _).trans hk
      | ⟨1, _⟩ => exact hrhs_1 _ _)
  rw [el, er]

/-- A per-node scalar repeated across the columns, at an index. -/
theorem colScale_apply (v : FVec Ideal Cert.ReferenceIdeal.S100000 .f32) (r : Fin 100000) (k : Fin 128) :
    Cert.ReferenceIdeal.Stage.colScale v (ix2 r k) = v (ix1 r) := by
  unfold Cert.ReferenceIdeal.Stage.colScale
  refine (broadcastInDim_apply _ _ _ (ix2 r k) (ix2 r 0) (fun a => by
    match a with
    | ⟨0, _⟩ => rfl
    | ⟨1, _⟩ => rfl)).trans ?_
  exact broadcastInDim_apply _ _ v (ix2 r 0) (ix1 r) (fun a => by
    match a with
    | ⟨0, _⟩ => rfl)

/-- A length-128 vector repeated down the rows, at an index. -/
theorem rowBias_apply (b : FVec Ideal Cert.ReferenceIdeal.S128 .f32) (r : Fin 100000) (q : Fin 128) :
    Cert.ReferenceIdeal.Stage.rowBias b (ix2 r q) = b (ix1 q) := by
  unfold Cert.ReferenceIdeal.Stage.rowBias
  refine (broadcastInDim_apply _ _ _ (ix2 r q) (ix2 0 q) (fun a => by
    match a with
    | ⟨0, _⟩ => rfl
    | ⟨1, _⟩ => rfl)).trans ?_
  exact broadcastInDim_apply _ _ b (ix2 0 q) (ix1 q) (fun a => by
    match a with
    | ⟨0, _⟩ => rfl)

/-- The whole-array stage at row `r` and column `q`. -/
theorem conv_apply (a : FVec Ideal Cert.ReferenceIdeal.S100000x128 .f32) (ii : FVec Ideal Cert.ReferenceIdeal.S100000 .f32)
    (W : FVec Ideal Cert.ReferenceIdeal.S128x128 .f32) (b : FVec Ideal Cert.ReferenceIdeal.S128 .f32)
    (pre : FVec Ideal Cert.ReferenceIdeal.S100000x128 .f32) (r : Fin 100000) (q : Fin 128) :
    Stage.conv a ii W b pre (ix2 r q)
      = pre (ix2 r q) + max ((∑ k : Fin 128, (a (ix2 r k) * ii (ix1 r)) * W (ix2 k q)) + b (ix1 q))
          (Scalar.ofBits (F := Ideal) .f32 0x00000000#32) := by
  unfold Cert.ReferenceIdeal.Stage.conv
  refine congrArg₂ (· + ·) rfl (congrArg₂ max (congrArg₂ (· + ·) ?_ (rowBias_apply b r q)) rfl)
  refine (hdot_apply _ W r q).trans (Finset.sum_congr rfl fun k _ => ?_)
  exact congrArg (· * W (ix2 k q)) (congrArg (a (ix2 r k) * ·) (colScale_apply ii r k))

/-! ## From blocks to the array -/

theorem hz : (![0, 0] : Fin 2 → Nat) = fun _ => 0 := funext fun a => by fin_cases a <;> rfl

/-- One store covers the staging buffer, so what the body leaves there is what it stores, of the five loaded blocks. -/
theorem out_eq {F : FTy → Type} [FloatOps F] (x0 : Vec F S5000x128 .f32) (x1 : Vec F S5000x1 .f32) (x2 : Vec F S128x128 .f32)
    (x3 : Vec F S1x128 .f32) (x4 : Vec F S5000x128 .f32) : out8_5 x0 x1 x2 x3 x4 = k8_pay1 x0 x1 x2 x3 x4 := by
  unfold out8_5
  rw [View.canon_unit_zero hz]
  simp only [View.ld_unit_zero (S := S5000x128) hz, View.ld_unit_zero (S := S5000x1) hz, View.ld_unit_zero (S := S128x128) hz,
    View.ld_unit_zero (S := S1x128) hz]

/-- The grid's point `t` takes row block `t` of the three tall operands and of the result, and the one block of the
    weights and of the bias row. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- The five input blocks at a point, each at its literal shape. -/
abbrev blkA (V : Entry) (c : Dev nD) (t : Fin cfg8.N) : FVec Ideal S5000x128 .f32 := iblk8 V c 0 t
abbrev blkS (V : Entry) (c : Dev nD) (t : Fin cfg8.N) : FVec Ideal S5000x1 .f32 := iblk8 V c 1 t
abbrev blkW (V : Entry) (c : Dev nD) (t : Fin cfg8.N) : FVec Ideal S128x128 .f32 := iblk8 V c 2 t
abbrev blkB (V : Entry) (c : Dev nD) (t : Fin cfg8.N) : FVec Ideal S1x128 .f32 := iblk8 V c 3 t
abbrev blkP (V : Entry) (c : Dev nD) (t : Fin cfg8.N) : FVec Ideal S5000x128 .f32 := iblk8 V c 4 t

/-- Row `p` of the aggregated features' block `t` is row `5000 t + p` of the array. -/
theorem blkA_apply (V : Entry) (c : Dev nD) (t : Fin cfg8.N) (p : Fin 5000) (k : Fin 128) (r : Fin 100000)
    (hr : r.val = t.val * 5000 + p.val) :
    blkA V c t (ix2 p k) = (V c main_v58 : FVec Ideal S100000x128 .f32) (ix2 r k) := by
  obtain ⟨e0, e1, -⟩ := idx_facts t
  unfold blkA iblk8
  rw [View.read_apply]
  refine congrArg (V c main_v58 : FVec Ideal S100000x128 .f32) (funext fun a => Fin.ext ?_)
  match a with
  | ⟨0, _⟩ => show win8_0.index t (0 : Fin 2) * 5000 + 1 * p.val = r.val; rw [e0, hr]; omega
  | ⟨1, _⟩ => show win8_0.index t (1 : Fin 2) * 128 + 1 * k.val = k.val; rw [e1]; omega

/-- Row `p` of the in-degree column's block `t` is row `5000 t + p` of the column. -/
theorem blkS_apply (V : Entry) (c : Dev nD) (t : Fin cfg8.N) (p : Fin 5000) (r : Fin 100000)
    (hr : r.val = t.val * 5000 + p.val) :
    blkS V c t (ix2 p 0) = (V c main_v60 : FVec Ideal S100000x1 .f32) (ix2 r 0) := by
  obtain ⟨-, -, e0, e1, -⟩ := idx_facts t
  unfold blkS iblk8
  rw [View.read_apply]
  refine congrArg (V c main_v60 : FVec Ideal S100000x1 .f32) (funext fun a => Fin.ext ?_)
  match a with
  | ⟨0, _⟩ => show win8_1.index t (0 : Fin 2) * 5000 + 1 * p.val = r.val; rw [e0, hr]; omega
  | ⟨1, _⟩ => show win8_1.index t (1 : Fin 2) * 1 + 1 * 0 = 0; rw [e1]

/-- Every point's block of the weights is the whole matrix. -/
theorem blkW_apply (V : Entry) (c : Dev nD) (t : Fin cfg8.N) (k q : Fin 128) :
    blkW V c t (ix2 k q) = (V c main_arg12 : FVec Ideal S128x128 .f32) (ix2 k q) := by
  obtain ⟨-, -, -, -, e0, e1, -⟩ := idx_facts t
  unfold blkW iblk8
  rw [View.read_apply]
  refine congrArg (V c main_arg12 : FVec Ideal S128x128 .f32) (funext fun a => Fin.ext ?_)
  match a with
  | ⟨0, _⟩ => show win8_2.index t (0 : Fin 2) * 128 + 1 * k.val = k.val; rw [e0]; omega
  | ⟨1, _⟩ => show win8_2.index t (1 : Fin 2) * 128 + 1 * q.val = q.val; rw [e1]; omega

/-- Every point's block of the bias row is the whole row. -/
theorem blkB_apply (V : Entry) (c : Dev nD) (t : Fin cfg8.N) (q : Fin 128) :
    blkB V c t (ix2 0 q) = (V c main_v59 : FVec Ideal S1x128 .f32) (ix2 0 q) := by
  obtain ⟨-, -, -, -, -, -, e0, e1, -⟩ := idx_facts t
  unfold blkB iblk8
  rw [View.read_apply]
  refine congrArg (V c main_v59 : FVec Ideal S1x128 .f32) (funext fun a => Fin.ext ?_)
  match a with
  | ⟨0, _⟩ => show win8_3.index t (0 : Fin 2) * 1 + 1 * 0 = 0; rw [e0]
  | ⟨1, _⟩ => show win8_3.index t (1 : Fin 2) * 128 + 1 * q.val = q.val; rw [e1]; omega

/-- Row `p` of the residual's block `t` is row `5000 t + p` of the array. -/
theorem blkP_apply (V : Entry) (c : Dev nD) (t : Fin cfg8.N) (p : Fin 5000) (q : Fin 128) (r : Fin 100000)
    (hr : r.val = t.val * 5000 + p.val) :
    blkP V c t (ix2 p q) = (V c main_v38 : FVec Ideal S100000x128 .f32) (ix2 r q) := by
  obtain ⟨-, -, -, -, -, -, -, -, e0, e1, -⟩ := idx_facts t
  unfold blkP iblk8
  rw [View.read_apply]
  refine congrArg (V c main_v38 : FVec Ideal S100000x128 .f32) (funext fun a => Fin.ext ?_)
  match a with
  | ⟨0, _⟩ => show win8_4.index t (0 : Fin 2) * 5000 + 1 * p.val = r.val; rw [e0, hr]; omega
  | ⟨1, _⟩ => show win8_4.index t (1 : Fin 2) * 128 + 1 * q.val = q.val; rw [e1]; omega

/-- What point `t` leaves at row `p`, column `q` of the output's staging buffer is the whole-array stage at row
    `5000 t + p`: the block's rows are the array's, the row's product with the weights is the same sum, the scale and
    the bias are read where the column and the row say. -/
theorem point_apply (V : Entry) (c : Dev nD) (ii : FVec Ideal S100000 .f32) (b : FVec Ideal S128 .f32)
    (hii : ∀ r : Fin 100000, (V c main_v60 : FVec Ideal S100000x1 .f32) (ix2 r 0) = ii (ix1 r))
    (hb : ∀ j : Fin 128, (V c main_v59 : FVec Ideal S1x128 .f32) (ix2 0 j) = b (ix1 j))
    (t : Fin cfg8.N) (p : Fin 5000) (q : Fin 128) (r : Fin 100000) (hr : r.val = t.val * 5000 + p.val) :
    out8_5 (F := Ideal) (blkA V c t) (blkS V c t) (blkW V c t) (blkB V c t) (blkP V c t) (ix2 p q)
      = Stage.conv (V c main_v58) ii (V c main_arg12) b (V c main_v38) (ix2 r q) := by
  refine (congrFun (out_eq (F := Ideal) (blkA V c t) (blkS V c t) (blkW V c t) (blkB V c t) (blkP V c t)) (ix2 p q)).trans ?_
  refine (pay_apply (blkA V c t) (blkS V c t) (blkW V c t) (blkB V c t) (blkP V c t) p q).trans ?_
  refine Eq.trans ?_ (conv_apply (V c main_v58) ii (V c main_arg12) b (V c main_v38) r q).symm
  refine congrArg₂ (· + ·) (blkP_apply V c t p q r hr)
    (congrArg₂ max (congrArg₂ (· + ·) (Finset.sum_congr rfl fun k _ => ?_) ((blkB_apply V c t q).trans (hb q))) rfl)
  exact congrArg₂ (· * ·) (congrArg₂ (· * ·) (blkA_apply V c t p k r hr) ((blkS_apply V c t p r hr).trans (hii r)))
    (blkW_apply V c t k q)

/-- WHAT POINT `t` WRITES BACK is block `t` of the whole-array stage. -/
theorem flushed_eq (V : Entry) (c : Dev nD) (ii : FVec Ideal S100000 .f32) (b : FVec Ideal S128 .f32)
    (hii : ∀ r : Fin 100000, (V c main_v60 : FVec Ideal S100000x1 .f32) (ix2 r 0) = ii (ix1 r))
    (hb : ∀ j : Fin 128, (V c main_v59 : FVec Ideal S1x128 .f32) (ix2 0 j) = b (ix1 j)) (t : Fin cfg8.N) :
    (dat8 (F := Ideal) V c).flushed 5 t
      = ((cfg8.win 5).blk t).view.read (Elt Ideal) (Stage.conv (V c main_v58) ii (V c main_arg12) b (V c main_v38)) := by
  show (cfg8.win 5).cut (grid8.coords t) ((dat8 (F := Ideal) V c).after 5 t) = _
  rw [after8_5]
  refine funext fun j => ?_
  obtain ⟨p, q, rfl⟩ : ∃ (p : Fin 5000) (q : Fin 128), j = ix2 p q := ⟨j 0, j 1, eq_ix2 j⟩
  have hN : cfg8.N = 20 := N_8
  have ht : t.val < 20 := hN ▸ t.isLt
  have hp : p.val < 5000 := p.isLt
  obtain ⟨-, -, -, -, -, -, -, -, -, -, e0, e1⟩ := idx_facts t
  refine (point_apply V c ii b hii hb t p q ⟨t.val * 5000 + p.val, by omega⟩ rfl).trans ?_
  rw [View.read_apply]
  refine congrArg (Stage.conv (V c main_v58) ii (V c main_arg12) b (V c main_v38)) (funext fun a => Fin.ext ?_)
  match a with
  | ⟨0, _⟩ => show t.val * 5000 + p.val = win8_5.index t (0 : Fin 2) * 5000 + 1 * p.val; rw [e0]; omega
  | ⟨1, _⟩ => show q.val = win8_5.index t (1 : Fin 2) * 128 + 1 * q.val; rw [e1]; omega

/-- An index of the array is in point `t`'s block iff each coordinate is in the block's range on its axis. -/
theorem mem_blk (t : Fin cfg8.N) (i : S100000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole main_v61).slice (win8_5.rect t)).set ↔ _
  rw [View.set_slice_whole, Rect.mem_set_unit]
  exact Iff.rfl

/-- The twenty row blocks cover the array: row `r` lies in the block of point `r / 5000`. -/
theorem cover (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  have hN : cfg8.N = 20 := N_8
  obtain ⟨t, ht⟩ : ∃ t : Fin cfg8.N, t.val = (i 0).val / 5000 := ⟨⟨(i 0).val / 5000, by rw [hN]; omega⟩, rfl⟩
  obtain ⟨-, -, -, -, -, -, -, -, -, -, e0, e1⟩ := idx_facts t
  refine ⟨t, flush8_5 t, ?_⟩
  rw [mem_blk]
  intro a
  match a with
  | ⟨0, _⟩ =>
    show win8_5.index t (0 : Fin 2) * 5000 ≤ (i 0).val ∧ (i 0).val < win8_5.index t (0 : Fin 2) * 5000 + 5000
    rw [e0, ht]; omega
  | ⟨1, _⟩ =>
    show win8_5.index t (1 : Fin 2) * 128 ≤ (i 1).val ∧ (i 1).val < win8_5.index t (1 : Fin 2) * 128 + 128
    rw [e1]; omega

end Conv8

/-- REGION 8 (in-degree scaling, matmul, bias, relu, residual). -/
theorem region8_value (V : Entry) (c : Dev nD) (ii : FVec Ideal S100000 .f32) (b : FVec Ideal S128 .f32)
    (hii : ∀ r : Fin 100000, (V c main_v60 : FVec Ideal S100000x1 .f32) (ix2 r 0) = ii (ix1 r))
    (hb : ∀ j : Fin 128, (V c main_v59 : FVec Ideal S1x128 .f32) (ix2 0 j) = b (ix1 j)) :
    ((dat8 (F := Ideal) V c).arrAt 5 cfg8.N : FVec Ideal S100000x128 .f32)
      = Stage.conv (V c main_v58) ii (V c main_arg12) b (V c main_v38) :=
  (dat8 (F := Ideal) V c).arrAt_eq_of_cover 5 (Stage.conv (V c main_v58) ii (V c main_arg12) b (V c main_v38))
    (fun t _ => Conv8.flushed_eq V c ii b hii hb t) Conv8.cover

end Cert.KernelIdeal.Val

end
-- ==== Proof.RegReadoutMath.lean ====
/-
  The arithmetic under the per-graph readout, free of any program.

  A row's graph id is a 32-bit word; column g of the one-hot matrix holds, as a float, the bit "the id is the word of the
  number g" widened to a word and converted: over the extended reals that is 1 where the id, read as a signed integer, is g
  and 0 elsewhere (g < 64 is far below 2^31, so the word of g read signed is g, and two words that read to the same integer
  are the same word). A one or a zero times any extended real is that real or zero, with no finiteness asked. Last, the
  bookkeeping of a sum taken block by block: the partial sums over the first (n+1)·B naturals grow by one block of B terms,
  and a sum over the first N naturals of a function extended by zero is the sum over Fin N.
-/
import Idealize.ShloMosaic.PureOps.Ideal
import Idealize.ShloMosaic.Lib.ValueIdx
import Idealize.ShloMosaic.Lib.KernelVsHost
import Idealize.ShloMosaic.Lib.StableHlo.Predicate

noncomputable section

open scoped BigOperators

namespace Cert.KernelIdeal.Val.Readout

open Idealize.ShloMosaic Idealize.ShloMosaic.ValueIdx

/-- The word of a number below 64, read signed, is that number. -/
theorem toInt_ofNat_small (g : Fin 64) : (BitVec.ofNat 32 g.val).toInt = (g.val : ℤ) := by
  have e := BitVec.toInt_eq_toNat_cond (BitVec.ofNat 32 g.val)
  have hn : (BitVec.ofNat 32 g.val).toNat = g.val := by
    rw [BitVec.toNat_ofNat]; have := g.isLt; omega
  have := g.isLt
  omega

/-- A word is the word of g exactly when it reads, signed, to g. -/
theorem eq_ofNat_iff_toInt (w : BitVec 32) (g : Fin 64) : w = BitVec.ofNat 32 g.val ↔ w.toInt = (g.val : ℤ) := by
  constructor
  · rintro rfl; exact toInt_ofNat_small g
  · intro h; exact BitVec.eq_of_toInt_eq (h.trans (toInt_ofNat_small g).symm)

/-- The one-hot entry: the comparison's bit, widened to a word and converted signed, is 1 where the id reads to g, else 0. -/
theorem onehot_val (w : BitVec 32) (g : Fin 64) :
    ((((IntOp.cmpi .eq w (BitVec.ofNat 32 g.val)).setWidth 32).toInt : ℝ) : EReal)
      = if w.toInt = (g.val : ℤ) then 1 else 0 := by
  by_cases h : w.toInt = (g.val : ℤ)
  · rw [if_pos h, StableHlo.Predicate.cmpi_eq_iff.mpr ((eq_ofNat_iff_toInt w g).mpr h)]
    have : ((1#1 : BitVec 1).setWidth 32).toInt = 1 := by decide
    rw [this]; norm_num
  · rw [if_neg h, eq_zero_of_ne_one (fun e => h ((eq_ofNat_iff_toInt w g).mp (StableHlo.Predicate.cmpi_eq_iff.mp e)))]
    have : ((0#1 : BitVec 1).setWidth 32).toInt = 0 := by decide
    rw [this]; norm_num

/-- A one or a zero times an extended real: the real, or zero. -/
theorem ind_mul (p : Prop) [Decidable p] (x : EReal) : (if p then (1 : EReal) else 0) * x = if p then x else 0 := by
  by_cases h : p
  · rw [if_pos h, if_pos h, one_mul]
  · rw [if_neg h, if_neg h, zero_mul]

/-- The first block of B terms. -/
theorem range_block_zero {M : Type*} [AddCommMonoid M] (T : ℕ → M) (B : ℕ) :
    ∑ k ∈ Finset.range ((0 + 1) * B), T k = ∑ r : Fin B, T r.val := by
  rw [Nat.zero_add, Nat.one_mul, Fin.sum_univ_eq_sum_range]

/-- The partial sums grow by one block of B terms. -/
theorem range_block_succ {M : Type*} [AddCommMonoid M] (T : ℕ → M) (B n : ℕ) :
    ∑ k ∈ Finset.range ((n + 1 + 1) * B), T k
      = ∑ k ∈ Finset.range ((n + 1) * B), T k + ∑ r : Fin B, T ((n + 1) * B + r.val) := by
  rw [show (n + 1 + 1) * B = (n + 1) * B + B by ring, Finset.sum_range_add,
    Fin.sum_univ_eq_sum_range (fun r => T ((n + 1) * B + r)) B]

/-- A sum over the first N naturals of a function on Fin N extended by zero is the sum over Fin N. -/
theorem sum_range_dite {M : Type*} [AddCommMonoid M] (N : ℕ) (f : Fin N → M) :
    ∑ k ∈ Finset.range N, (if h : k < N then f ⟨k, h⟩ else 0) = ∑ r : Fin N, f r := by
  rw [← Fin.sum_univ_eq_sum_range (fun k => if h : k < N then f ⟨k, h⟩ else 0) N]
  exact Finset.sum_congr rfl fun r _ => dif_pos r.isLt

end Cert.KernelIdeal.Val.Readout

end
-- ==== Proof.RegReadoutScatter.lean ====
/-
  A scatter of rows by an id column, read at an index.

  The operand is [G, D], the scatter indices one column [N, 1] of ids, the updates [N, D]: update axis 1 is the window axis,
  operand axis 0 is inserted and is the axis the one index component names, the index vector lies along axis 1. Update
  element (r, b) has its start on operand axis 0 at the id of row r, read signed and not clamped, and window coordinate 0
  there; on operand axis 1 its start is 0 and its window coordinate b. So it lands at (id r, b) when 0 ≤ id r < G and is
  dropped otherwise, and the accumulating scatter at (g, b) is the operand's element plus the sum, over the rows r whose id
  reads to g, of the update's (r, b).
-/
import Idealize.ShloMosaic.PureOps.Ideal
import Idealize.ShloMosaic.Lib.ValueIdx

noncomputable section

open scoped BigOperators

namespace Cert.KernelIdeal.Val.Readout

open Idealize.ShloMosaic Idealize.ShloMosaic.ValueIdx

variable {G D N w : Nat}

/-- The dimension numbers of "add row r of the updates to row (id r) of the operand". -/
abbrev rowDims (G D N : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

variable (wf : ScatterDims.WF ⟨2, ![G, D]⟩ ⟨2, ![N, 1]⟩ ⟨2, ![N, D]⟩ [1] [0] [0] 1)

/-- On operand axis 0 the start is the row's id, read signed. -/
theorem rowDims_start0 (j : (⟨2, ![N, D]⟩ : Shape).Idx) (idx : IVec ⟨2, ![N, 1]⟩ w) :
    (rowDims G D N wf).start j idx 0 = (idx (ix2 (j 0) (0 : Fin 1))).toInt := by
  unfold ScatterDims.start
  rw [dif_pos (show (0 : Fin 2) ∈ (rowDims G D N wf).scatterDimsToOperandDims from List.mem_singleton.mpr rfl)]
  have hsi : (rowDims G D N wf).siIdx j ⟨List.idxOf (0 : Fin 2) (rowDims G D N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On operand axis 1 the start is 0: no index component names it. -/
theorem rowDims_start1 (j : (⟨2, ![N, D]⟩ : Shape).Idx) (idx : IVec ⟨2, ![N, 1]⟩ w) :
    (rowDims G D N wf).start j idx 1 = 0 := by
  unfold ScatterDims.start
  exact dif_neg (fun h => absurd (List.mem_singleton.mp h) (show ¬((1 : Fin 2) = 0) by decide))

/-- On operand axis 0, an inserted axis, the window coordinate is 0. -/
theorem rowDims_window0 (j : (⟨2, ![N, D]⟩ : Shape).Idx) : (rowDims G D N wf).window j 0 = 0 := by
  unfold ScatterDims.window
  exact dif_neg (show ¬(0 : Fin 2) ∈ ([1] : List (Fin 2)) from fun h => absurd (List.mem_singleton.mp h) (by decide))

/-- On operand axis 1 the window coordinate is the update's column. -/
theorem rowDims_window1 (j : (⟨2, ![N, D]⟩ : Shape).Idx) : (rowDims G D N wf).window j 1 = (j 1).val := by
  unfold ScatterDims.window
  exact (dif_pos (show (1 : Fin 2) ∈ ([1] : List (Fin 2)) from List.mem_singleton.mpr rfl)).trans rfl

/-- Where an update element lands: at (g, b) exactly when its row's id reads to g and its column is b. -/
theorem rowDims_resultIdx_eq_some (j : (⟨2, ![N, D]⟩ : Shape).Idx) (idx : IVec ⟨2, ![N, 1]⟩ w) (g : Fin G) (b : Fin D) :
    (rowDims G D N wf).resultIdx? j idx = some (ix2 g b)
      ↔ (idx (ix2 (j 0) (0 : Fin 1))).toInt = (g.val : ℤ) ∧ j 1 = b := by
  have hs0 : (rowDims G D N wf).start j idx 0 + ((rowDims G D N wf).window j 0 : ℤ) = (idx (ix2 (j 0) (0 : Fin 1))).toInt := by
    rw [rowDims_start0, rowDims_window0]; simp
  have hs1 : (rowDims G D N wf).start j idx 1 + ((rowDims G D N wf).window j 1 : ℤ) = ((j 1).val : ℤ) := by
    rw [rowDims_start1, rowDims_window1]; simp
  have hg : g.val < G := g.isLt
  have hj1 : (j 1).val < D := idx2_lt1 j
  unfold ScatterDims.resultIdx?
  split
  · rename_i h
    rw [Option.some.injEq]
    constructor
    · intro e
      have e0 : ((rowDims G D N wf).start j idx 0 + ((rowDims G D N wf).window j 0 : ℤ)).toNat = g.val :=
        congrArg (fun f : (⟨2, ![G, D]⟩ : Shape).Idx => (f 0).val) e
      have e1 : ((rowDims G D N wf).start j idx 1 + ((rowDims G D N wf).window j 1 : ℤ)).toNat = b.val :=
        congrArg (fun f : (⟨2, ![G, D]⟩ : Shape).Idx => (f 1).val) e
      have h0 := (h 0).1
      rw [hs0] at e0 h0
      rw [hs1] at e1
      refine ⟨by omega, Fin.ext (by omega)⟩
    · rintro ⟨h0, h1⟩
      funext a; refine Fin.ext ?_
      match a with
      | ⟨0, _⟩ =>
        show ((rowDims G D N wf).start j idx 0 + ((rowDims G D N wf).window j 0 : ℤ)).toNat = g.val
        rw [hs0, h0]; simp
      | ⟨1, _⟩ =>
        show ((rowDims G D N wf).start j idx 1 + ((rowDims G D N wf).window j 1 : ℤ)).toNat = b.val
        rw [hs1, ← h1]; simp
  · rename_i h
    refine iff_of_false (by simp) ?_
    rintro ⟨h0, h1⟩
    apply h
    intro a
    match a with
    | ⟨0, _⟩ =>
      show 0 ≤ (rowDims G D N wf).start j idx 0 + ((rowDims G D N wf).window j 0 : ℤ)
        ∧ (rowDims G D N wf).start j idx 0 + ((rowDims G D N wf).window j 0 : ℤ) < (G : ℤ)
      rw [hs0, h0]; omega
    | ⟨1, _⟩ =>
      show 0 ≤ (rowDims G D N wf).start j idx 1 + ((rowDims G D N wf).window j 1 : ℤ)
        ∧ (rowDims G D N wf).start j idx 1 + ((rowDims G D N wf).window j 1 : ℤ) < (D : ℤ)
      rw [hs1]; omega

/-- THE SCATTER READ AT (g, b): the operand's element plus the updates' (r, b) over the rows r whose id reads to g. -/
theorem scatterAdd_rows_apply (x : (⟨2, ![G, D]⟩ : Shape).Idx → EReal) (idx : IVec ⟨2, ![N, 1]⟩ w)
    (upd : (⟨2, ![N, D]⟩ : Shape).Idx → EReal) (g : Fin G) (b : Fin D) :
    Ideal.hostScatterAdd (rowDims G D N wf) x idx upd (ix2 g b)
      = x (ix2 g b) + ∑ r : Fin N, if (idx (ix2 r (0 : Fin 1))).toInt = (g.val : ℤ) then upd (ix2 r b) else 0 := by
  unfold Ideal.hostScatterAdd
  congr 1
  rw [Finset.sum_filter, sum_idx2]
  refine Finset.sum_congr rfl fun r _ => ?_
  have key : ∀ b' : Fin D, ((rowDims G D N wf).resultIdx? (ix2 r b') idx = some (ix2 g b))
      ↔ ((idx (ix2 r (0 : Fin 1))).toInt = (g.val : ℤ) ∧ b' = b) :=
    fun b' => rowDims_resultIdx_eq_some wf (ix2 r b') idx g b
  simp only [key]
  by_cases hA : (idx (ix2 r (0 : Fin 1))).toInt = (g.val : ℤ)
  · simp [hA]
  · simp [hA]

end Cert.KernelIdeal.Val.Readout

end
-- ==== Proof.RegReadoutPay.lean ====
/-
  The readout kernel's body at one grid point, as values.

  The body forms, from the point's block of ids (a column of 5000 words) and its block of features (5000 rows of 128), the
  one-hot matrix [5000, 64] whose entry (r, g) is the float of the bit "id r is the word of g", contracts its axis 0 against
  the features' axis 0 into a zero accumulator, and adds the [64, 128] product to what the output block holds. So entry
  (g, d) of what it stores is the carried entry plus the sum over the block's rows r of onehot(r, g) · x(r, d). At the first
  point the carried block is the zero block the body has just stored; at a later point it is what the point before left.
-/
import proofs.«426980_j56813827392376_1_alg».proof.Proof.Gen.KernelIdeal.Frame

import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

set_option maxRecDepth 16384

noncomputable section

open scoped BigOperators

namespace Cert.KernelIdeal.Val.Readout

open Idealize.ShloMosaic Idealize.ShloMosaic.ValueIdx Idealize.ShloMosaic.TcCoe Idealize.ShloMosaic.Tactic Idealize.SL.Sem
open Cert.KernelIdeal Cert.KernelIdeal.Gen

/-! ## The contraction's operand indices -/

/-- The one-hot operand is read at (contraction position, output row): its axis 0 is contracted, -/
theorem lhs_oh_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
/-- its axis 1 is the output's axis 0. -/
theorem lhs_oh_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide),
    dif_pos (show (1 : Fin S5000x64.rank) ∈ dot_S5000x64_S5000x128_S64x128_0_0_1_1_n_n.lhsNonContracting by decide)]
  rfl
/-- The feature operand is read at (contraction position, output column): its axis 0 is contracted, -/
theorem rhs_oh_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
/-- its axis 1 is the output's axis 1. -/
theorem rhs_oh_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide),
    dif_pos (show (1 : Fin S5000x128.rank) ∈ dot_S5000x64_S5000x128_S64x128_0_0_1_1_n_n.rhsNonContracting by decide)]
  rfl

/-- The product into the zero accumulator, at (g, d): the sum over the block's rows of lhs(r, g) · rhs(r, d). -/
theorem oh_matmul_apply (lhs : FVec Ideal S5000x64 .f32) (rhs : FVec Ideal S5000x128 .f32) (g : Fin 64) (d : Fin 128) :
    matmul dot_S5000x64_S5000x128_S64x128_0_0_1_1_n_n none lhs rhs (constant (F := Ideal) S64x128 .f32 0x00000000#32) (ix2 g d)
      = ∑ k : Fin 5000, lhs (ix2 k g) * rhs (ix2 k d) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d)
      ((contrEquiv1 dot_S5000x64_S5000x128_S64x128_0_0_1_1_n_n 5000 rfl rfl).symm k) = ix2 k g := funext fun a => Fin.ext (by
    match a with
    | ⟨0, _⟩ => exact (lhs_oh_0 _ _).trans hk
    | ⟨1, _⟩ => exact lhs_oh_1 _ _)
  have er : dot_S5000x64_S5000x128_S64x128_0_0_1_1_n_n.rhsIdx (ix2 g d)
      ((contrEquiv1 dot_S5000x64_S5000x128_S64x128_0_0_1_1_n_n 5000 rfl rfl).symm k) = ix2 k d := funext fun a => Fin.ext (by
    match a with
    | ⟨0, _⟩ => exact (rhs_oh_0 _ _).trans hk
    | ⟨1, _⟩ => exact rhs_oh_1 _ _)
  rw [el, er]

/-! ## The stored block at an index -/

/-- What the body stores, at (g, d): the carried entry plus the block's rows' one-hot bits times their features. -/
theorem pay2_apply (idb : Vec Ideal S5000x1 .i32) (xb : Vec Ideal S5000x128 .f32) (acc : Vec Ideal S64x128 .f32)
    (g : Fin 64) (d : Fin 128) :
    k9_pay2 (F := Ideal) idb xb acc (ix2 g d)
      = acc (ix2 g d) + ∑ r : Fin 5000,
          ((((IntOp.cmpi .eq (idb (ix2 r (0 : Fin 1))) (BitVec.ofNat 32 g.val)).setWidth 32).toInt : ℝ) : EReal) * xb (ix2 r d) := by
  unfold k9_pay2
  dsimp only
  rw [shapeCast_self, shapeCast_self, shapeCast_self]
  refine (addf_apply _ _ _).trans ?_
  refine congrArg (acc (ix2 g d) + ·) ?_
  refine (oh_matmul_apply _ _ g d).trans ?_
  refine Finset.sum_congr rfl fun r _ => ?_
  refine congrArg (· * xb (ix2 r d)) ?_
  show ((((IntOp.cmpi .eq (broadcastTo S5000x64 idb broadcasts_S5000x1_S5000x64 (ix2 r g))
      (iota .tc S5000x64 32 [1] iota_S5000x64_d1_w32 (ix2 r g))).setWidth 32).toInt : ℝ) : EReal) = _
  rw [iota_single_apply, broadcastTo_apply idb broadcasts_S5000x1_S5000x64 (ix2 r g) (ix2 r (0 : Fin 1))
    (fun a => match a with | ⟨0, _⟩ => rfl | ⟨1, _⟩ => rfl)]

/-! ## The two cases' blocks -/

theorem hz : (![0, 0] : Fin 2 → Nat) = fun _ => 0 := funext fun a => by fin_cases a <;> rfl

variable {F : FTy → Type} [FloatOps F]

/-- A LATER POINT: the body leaves, in the output's buffer holding `xo`, the stored block computed from the point's two
    input blocks and `xo`. -/
theorem out_B (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : ¬cond9_0 i) (x0 : Vec F S5000x128 .f32) (x1 : Vec F S5000x1 .i32) (xo : Vec F S64x128 .f32) :
    out9_B_2 c i a1 h1 a2 h2 a3 h3 hc x0 x1 xo = k9_pay2 x1 x0 xo := by
  unfold out9_B_2
  rw [View.read_writes_eq_canon _ _ _ (cover9_B_2 c i a1 h1 a2 h2 a3 h3 hc x0 x1 xo)]
  unfold kernelRun9_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S64x128) hz]

/-- THE FIRST POINT: the body stores the zero block, reads it back, and leaves the stored block computed from the point's
    two input blocks and the zero block. -/
theorem out_A (c : Dev nD) (i : grid9.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : cond9_0 i) (x0 : Vec F S5000x128 .f32) (x1 : Vec F S5000x1 .i32) :
    out9_A_2 c i a1 h1 a2 h2 a3 h3 hc x0 x1 = k9_pay2 x1 x0 (k9_pay1 (F := F)) := by
  unfold out9_A_2
  rw [View.read_writes_eq_canon _ _ _ (cover9_A_2 c i a1 h1 a2 h2 a3 h3 hc x0 x1)]
  unfold kernelRun9_A
  dsimp only
  sl_unfold_words
  rw [View.canon_cons_unit_zero (S := S64x128) hz]
  simp only [View.readAt_eq_ld, h1.read_unread, h2.read_unread, View.ld_unit_zero (S := S5000x1) hz,
    View.ld_unit_zero (S := S5000x128) hz, View.readCov_unit_zero (S := S64x128) _ hz]

end Cert.KernelIdeal.Val.Readout

end
-- ==== Proof.RegReadout.lean ====
/-
  Region 9: the one-hot matmul accumulated over row blocks is the per-graph sum.

  The 100000 nodes are cut into 20 blocks of 5000 rows. At each block the body adds, to the [64, 128] block it carries, the
  product of the block's one-hot matrix (row r, column g: 1 where node r's graph id reads to g, else 0) with the block's
  features; the carried block starts from zero at the first block. So after block n the entry (g, d) is the sum, over the
  nodes k below (n+1)·5000, of [id k = g] · h(k, d); after the last block it is the sum over all nodes. The reference adds
  row k of h into row (id k) of a zero [64, 128] array, the id read signed and a row whose id is outside 0…63 dropped: at
  (g, d) that is the sum of h(k, d) over the nodes whose id reads to g. The two agree term by term: 1 · x = x and 0 · x = 0
  for every extended real, and a node whose id is outside 0…63 meets no column of the one-hot matrix.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry
import proofs.«426980_j56813827392376_1_alg».proof.Proof.RegReadoutMath
import proofs.«426980_j56813827392376_1_alg».proof.Proof.RegReadoutScatter
import proofs.«426980_j56813827392376_1_alg».proof.Proof.RegReadoutPay

import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx Idealize.SL.Sem
open Idealize.ShloMosaic.TcCoe
open Idealize.ShloMosaic.Pipeline (Dat)
open Cert.KernelIdeal Cert.KernelIdeal.Gen
open Cert.ReferenceIdeal (Stage.linear Stage.colSum Stage.sqSum Stage.bnWith Stage.conv Stage.segSum)

namespace Readout

variable (V : Entry) (c : Dev nD)

/-! ## The arrays and the blocks, at their literal types -/

/-- The feature array and the id column as the region finds them. -/
abbrev xarr : Vec Ideal S100000x128 .f32 := V c main_v61
abbrev idarr : Vec Ideal S100000x1 .i32 := V c main_v62
/-- Their blocks at a point. -/
abbrev xblk (t : Fin cfg9.N) : Vec Ideal S5000x128 .f32 := iblk9 V c 0 t
abbrev idblk (t : Fin cfg9.N) : Vec Ideal S5000x1 .i32 := iblk9 V c 1 t

/-- Both input windows walk the row blocks in order: block t of each is rows 5000·t … 5000·t + 4999, all columns. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0 :=
  (by decide +kernel : ∀ t : Fin grid9.N, _)

/-- The feature block at point t, row r, is the array's row 5000·t + r. -/
theorem xblk_apply (t : Fin cfg9.N) (r : Fin 5000) (d : Fin 128) (hr : t.val * 5000 + r.val < 100000) :
    xblk V c t (ix2 r d) = xarr V c (ix2 ⟨t.val * 5000 + r.val, hr⟩ d) := by
  obtain ⟨e0, e1, e2, e3⟩ := idx_facts9 t
  show V c main_v61 (((cfg9.win 0).blk t).view.emb (ix2 r d)) = V c main_v61 (ix2 ⟨t.val * 5000 + r.val, hr⟩ d)
  refine congrArg (V c main_v61) (funext fun a => Fin.ext ?_)
  match a with
  | ⟨0, _⟩ => show win9_0.index t (0 : Fin 2) * 5000 + 1 * r.val = t.val * 5000 + r.val; omega
  | ⟨1, _⟩ => show win9_0.index t (1 : Fin 2) * 128 + 1 * d.val = d.val; omega

/-- The id block at point t, row r, is the column's row 5000·t + r. -/
theorem idblk_apply (t : Fin cfg9.N) (r : Fin 5000) (hr : t.val * 5000 + r.val < 100000) :
    idblk V c t (ix2 r (0 : Fin 1)) = idarr V c (ix2 ⟨t.val * 5000 + r.val, hr⟩ (0 : Fin 1)) := by
  obtain ⟨e0, e1, e2, e3⟩ := idx_facts9 t
  show V c main_v62 (((cfg9.win 1).blk t).view.emb (ix2 r (0 : Fin 1))) = V c main_v62 (ix2 ⟨t.val * 5000 + r.val, hr⟩ (0 : Fin 1))
  refine congrArg (V c main_v62) (funext fun a => Fin.ext ?_)
  match a with
  | ⟨0, _⟩ => show win9_1.index t (0 : Fin 2) * 5000 + 1 * r.val = t.val * 5000 + r.val; omega
  | ⟨1, _⟩ => show win9_1.index t (1 : Fin 2) * 1 + 1 * 0 = 0; omega

/-! ## The running sums -/

/-- Node r's term of entry (g, d): [id r reads to g] · h(r, d). -/
def nodeTerm (gid : IVec S100000 32) (g : Fin 64) (d : Fin 128) (r : Fin 100000) : EReal :=
  (if (gid (ix1 r)).toInt = (g.val : ℤ) then (1 : EReal) else 0) * (xarr V c (ix2 r d) : EReal)

/-- The same over the naturals, zero past the last node. -/
def term (gid : IVec S100000 32) (g : Fin 64) (d : Fin 128) (k : ℕ) : EReal :=
  if h : k < 100000 then nodeTerm V c gid g d ⟨k, h⟩ else 0

/-- The product at point t, entry (g, d), is the sum of the terms of the block's 5000 nodes. -/
theorem block_sum (gid : IVec S100000 32) (hg : ∀ r : Fin 100000, idarr V c (ix2 r (0 : Fin 1)) = gid (ix1 r))
    (t : Fin cfg9.N) (g : Fin 64) (d : Fin 128) :
    ∑ r : Fin 5000, ((((IntOp.cmpi .eq (idblk V c t (ix2 r (0 : Fin 1))) (BitVec.ofNat 32 g.val)).setWidth 32).toInt : ℝ) : EReal)
        * xblk V c t (ix2 r d)
      = ∑ r : Fin 5000, term V c gid g d (t.val * 5000 + r.val) := by
  have hN : cfg9.N = 20 := N_9
  refine Finset.sum_congr rfl fun r _ => ?_
  have hr : t.val * 5000 + r.val < 100000 := by have := t.isLt; have := r.isLt; omega
  rw [onehot_val, idblk_apply V c t r hr, hg ⟨t.val * 5000 + r.val, hr⟩, xblk_apply V c t r d hr]
  unfold term
  rw [dif_pos hr]
  rfl

/-- The zero block the first point stores. -/
theorem pay1_apply (g : Fin 64) (d : Fin 128) : (k9_pay1 (F := Ideal) (ix2 g d) : EReal) = 0 := by
  show Ideal.ofBits .f32 0x00000000#32 = 0
  exact Ideal.ofBits_zero_f32

/-- THE INVARIANT. After point n the carried block's entry (g, d) is the sum of the terms of the nodes below (n+1)·5000. -/
theorem outsAt_eq (gid : IVec S100000 32) (hg : ∀ r : Fin 100000, idarr V c (ix2 r (0 : Fin 1)) = gid (ix1 r)) :
    ∀ (n : ℕ) (h : n < cfg9.N) (g : Fin 64) (d : Fin 128),
      (outsAt9 V c n h : Vec Ideal S64x128 .f32) (ix2 g d) = ∑ k ∈ Finset.range ((n + 1) * 5000), term V c gid g d k
  | 0, h, g, d => by
    refine (congrFun (outsAt9_A V c ⟨0, h⟩ rfl) (ix2 g d)).trans ?_
    refine (congrFun (out_A (F := Ideal) c (grid9.coords ⟨0, h⟩) (ms9_0 ⟨0, h⟩) (hs9_0 ⟨0, h⟩) (ms9_1 ⟨0, h⟩) (hs9_1 ⟨0, h⟩)
      (ms9_2 ⟨0, h⟩) (hs9_2 ⟨0, h⟩) ((hcond9_0 ⟨0, h⟩).mpr rfl) (iblk9 V c 0 ⟨0, h⟩) (iblk9 V c 1 ⟨0, h⟩)) (ix2 g d)).trans ?_
    refine (pay2_apply (idblk V c ⟨0, h⟩) (xblk V c ⟨0, h⟩) (k9_pay1 (F := Ideal)) g d).trans ?_
    rw [pay1_apply, zero_add, block_sum V c gid hg ⟨0, h⟩ g d, range_block_zero]
    exact Finset.sum_congr rfl fun r _ => by rw [Nat.zero_mul, Nat.zero_add]
  | n + 1, h, g, d => by
    have hN : cfg9.N = 20 := N_9
    have hB : ¬(⟨n + 1, h⟩ : Fin cfg9.N).val % 20 = 0 := by dsimp only; omega
    refine (congrFun (outsAt9_B V c ⟨n + 1, h⟩ hB) (ix2 g d)).trans ?_
    refine (congrFun (out_B (F := Ideal) c (grid9.coords ⟨n + 1, h⟩) (ms9_0 ⟨n + 1, h⟩) (hs9_0 ⟨n + 1, h⟩) (ms9_1 ⟨n + 1, h⟩)
      (hs9_1 ⟨n + 1, h⟩) (ms9_2 ⟨n + 1, h⟩) (hs9_2 ⟨n + 1, h⟩) (fun hh => hB ((hcond9_0 ⟨n + 1, h⟩).mp hh))
      (iblk9 V c 0 ⟨n + 1, h⟩) (iblk9 V c 1 ⟨n + 1, h⟩) (outsAt9 V c n (Nat.lt_of_succ_lt h))) (ix2 g d)).trans ?_
    refine (pay2_apply (idblk V c ⟨n + 1, h⟩) (xblk V c ⟨n + 1, h⟩) (outsAt9 V c n (Nat.lt_of_succ_lt h)) g d).trans ?_
    rw [outsAt_eq gid hg n (Nat.lt_of_succ_lt h) g d, block_sum V c gid hg ⟨n + 1, h⟩ g d, range_block_succ]

/-! ## The array after the last point -/

theorem h19 : 19 < cfg9.N := by rw [show cfg9.N = 20 from N_9]; decide

/-- The output window's block never moves: it is the whole [64, 128] array. -/
theorem idx_out9 : ∀ t : Fin cfg9.N, win9_2.index t (0 : Fin 2) = 0 ∧ win9_2.index t (1 : Fin 2) = 0 :=
  (by decide +kernel : ∀ t : Fin grid9.N, _)

/-- The one write-back, after the last point, writes the carried block as it then stands. -/
theorem flushed_eq (t : Fin cfg9.N) (hf : (cfg9.win 2).flush t = true) :
    (dat9 (F := Ideal) V c).flushed 2 t = ((cfg9.win 2).blk t).view.read (Elt Ideal) (outsAt9 V c 19 h19) := by
  have hN : cfg9.N = 20 := N_9
  have h3 : t.val = 19 := by have := (flush9_2 t).mp hf; have := t.isLt; omega
  obtain rfl : t = ⟨19, h19⟩ := Fin.ext h3
  show (cfg9.win 2).cut (grid9.coords ⟨19, h19⟩) ((dat9 (F := Ideal) V c).after 2 ⟨19, h19⟩) = _
  rw [after9_2]
  have hz' : (fun a => win9_2.index ⟨19, h19⟩ a * main_v63.ty.shape.size a) = fun _ => 0 := funext fun a => by
    match a with
    | ⟨0, _⟩ => show win9_2.index ⟨19, h19⟩ (0 : Fin 2) * _ = 0; rw [(idx_out9 ⟨19, h19⟩).1, Nat.zero_mul]
    | ⟨1, _⟩ => show win9_2.index ⟨19, h19⟩ (1 : Fin 2) * _ = 0; rw [(idx_out9 ⟨19, h19⟩).2, Nat.zero_mul]
  exact (Memref.read_access_unit_zero (Elt Ideal) main_v63 hz' (fun a => by rw [congrFun hz' a]; simp) (outsAt9 V c 19 h19)).symm

/-- An index of the array is in point t's block iff each coordinate is in the block's range on its axis. -/
theorem mem_blk9 (t : Fin cfg9.N) (i : S64x128.Idx) :
    i ∈ ((cfg9.win 2).blk t).view.set
      ↔ ∀ a : Fin 2, win9_2.index t a * S64x128.size a ≤ (i a).val ∧ (i a).val < win9_2.index t a * S64x128.size a + S64x128.size a := by
  show i ∈ ((View.whole main_v63).slice (win9_2.rect t)).set ↔ _
  rw [View.set_slice_whole, Rect.mem_set_unit]
  exact Iff.rfl

/-- So the result array ends holding the carried block after the last point. -/
theorem final : (dat9 (F := Ideal) V c).arrAt 2 cfg9.N = outsAt9 V c 19 h19 :=
  (dat9 (F := Ideal) V c).arrAt_eq_of_cover 2 (outsAt9 V c 19 h19) (flushed_eq V c) fun i =>
    ⟨⟨19, h19⟩, (flush9_2 ⟨19, h19⟩).mpr rfl, by
      rw [mem_blk9]
      intro a
      have h0 : (i 0 : Nat) < 64 := (i 0).isLt
      have h1 : (i 1 : Nat) < 128 := (i 1).isLt
      obtain ⟨z0, z1⟩ := idx_out9 ⟨19, h19⟩
      match a with
      | ⟨0, _⟩ =>
        show win9_2.index ⟨19, h19⟩ (0 : Fin 2) * 64 ≤ (i 0 : Nat) ∧ (i 0 : Nat) < win9_2.index ⟨19, h19⟩ (0 : Fin 2) * 64 + 64
        omega
      | ⟨1, _⟩ =>
        show win9_2.index ⟨19, h19⟩ (1 : Fin 2) * 128 ≤ (i 1 : Nat) ∧ (i 1 : Nat) < win9_2.index ⟨19, h19⟩ (1 : Fin 2) * 128 + 128
        omega⟩

/-! ## The reference's per-graph sum at an index -/

/-- The id column the reference scatters by, at row r. -/
theorem gidCol_apply (gid : IVec Cert.ReferenceIdeal.S100000 32) (r : Fin 100000) :
    Cert.ReferenceIdeal.Stage.gidCol gid (ix2 r (0 : Fin 1)) = gid (ix1 r) := by
  unfold Cert.ReferenceIdeal.Stage.gidCol
  exact broadcastInDim_apply _ _ gid (ix2 r (0 : Fin 1)) (ix1 r) (fun a => match a with | ⟨0, _⟩ => rfl)

/-- The reference's per-graph sum at (g, d): the features' (r, d) over the nodes r whose id reads to g. -/
theorem segSum_apply (x : FVec Ideal Cert.ReferenceIdeal.S100000x128 .f32) (gid : IVec Cert.ReferenceIdeal.S100000 32)
    (g : Fin 64) (d : Fin 128) :
    (Stage.segSum x gid (ix2 g d) : EReal)
      = ∑ r : Fin 100000, if (gid (ix1 r)).toInt = (g.val : ℤ) then (x (ix2 r d) : EReal) else 0 := by
  unfold Cert.ReferenceIdeal.Stage.segSum
  show Ideal.hostScatterAdd (rowDims 64 128 100000 _) _ (Cert.ReferenceIdeal.Stage.gidCol gid) x (ix2 g d) = _
  rw [scatterAdd_rows_apply]
  have z : (broadcastInDim Cert.ReferenceIdeal.S64x128 ![] Cert.ReferenceIdeal.Facts₀.bcast_S_S64x128
      (Cert.ReferenceIdeal.Stage.zeroS) (ix2 g d) : EReal) = 0 := by
    show Ideal.ofBits .f32 0x00000000#32 = 0
    exact Ideal.ofBits_zero_f32
  rw [z, zero_add]
  exact Finset.sum_congr rfl fun r _ => by rw [gidCol_apply]

end Readout

open Readout in
/-- REGION 9 (per-graph sums by a one-hot matmul, accumulated over the 20 row blocks). -/
theorem region9_value (V : Entry) (c : Dev nD) (gid : IVec S100000 32)
    (hg : ∀ r : Fin 100000, (V c main_v62 : IVec S100000x1 32) (ix2 r 0) = gid (ix1 r)) :
    ((dat9 (F := Ideal) V c).arrAt 2 cfg9.N : FVec Ideal S64x128 .f32)
      = Stage.segSum (V c main_v61) gid := by
  refine (Readout.final V c).trans ?_
  funext j
  obtain ⟨g, d, rfl⟩ : ∃ (g : Fin 64) (d : Fin 128), j = ix2 g d := ⟨j 0, j 1, eq_ix2 j⟩
  refine (Readout.outsAt_eq V c gid hg 19 Readout.h19 g d).trans ?_
  refine Eq.trans ?_ (Readout.segSum_apply (V c main_v61) gid g d).symm
  refine (Readout.sum_range_dite 100000 (Readout.nodeTerm V c gid g d)).trans ?_
  exact Finset.sum_congr rfl fun r _ => Readout.ind_mul _ _

end Cert.KernelIdeal.Val

end
-- ==== Proof.FlowB.lean ====
/-
  The kernel program's buffers followed through the second layer and the readout (segments 9 to 18), down to the result.
-/
import proofs.«426980_j56813827392376_1_alg».proof.Proof.Gen.KernelIdeal.Frame
import proofs.«426980_j56813827392376_1_alg».proof.Proof.Gen.ReferenceIdeal
import proofs.«426980_j56813827392376_1_alg».proof.Proof.Stages
import proofs.«426980_j56813827392376_1_alg».proof.Proof.Entry
import proofs.«426980_j56813827392376_1_alg».proof.Proof.Args
import proofs.«426980_j56813827392376_1_alg».proof.Proof.VarLaw
import proofs.«426980_j56813827392376_1_alg».proof.Proof.FlowLib
import proofs.«426980_j56813827392376_1_alg».proof.Proof.FlowA
import proofs.«426980_j56813827392376_1_alg».proof.Proof.RegColSum2
import proofs.«426980_j56813827392376_1_alg».proof.Proof.RegSqSum2
import proofs.«426980_j56813827392376_1_alg».proof.Proof.RegNorm2
import proofs.«426980_j56813827392376_1_alg».proof.Proof.RegConv2
import proofs.«426980_j56813827392376_1_alg».proof.Proof.RegReadout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Idealize.SL.Sem
open Idealize.ShloMosaic.TcCoe
open Cert.KernelIdeal Cert.KernelIdeal.Gen
open Cert.ReferenceIdeal (Stage.linear Stage.colSum Stage.sqSum Stage.bnWith Stage.conv Stage.segSum)

variable (m : (ℓ : Loc nD τ sig) → Buf (Elt Ideal) ℓ) (ρ : Dev nD → PrngReg)

namespace FlowB

/-! ## A buffer carried unchanged across one segment: a host stretch none of whose operations writes it, or a region
    of which it is an input window's array or no window's array -/

/-- A buffer that no operation of a stretch of host operations writes keeps its contents across the stretch. -/
local macro "host_skip " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem W10_v38_keep (c : Dev nD) :
    W10 (F := Ideal) m ρ c (Proc.devRef .tc main_v38) = W9 m ρ c (Proc.devRef .tc main_v38) :=
  (W10_arr m ρ c 0).trans (((dat5 (V9 m ρ) c).arrAt_in 0 rfl _).trans (A_eq5 (V9 m ρ) c 0))
theorem W11_v38_keep (c : Dev nD) :
    W11 (F := Ideal) m ρ c (Proc.devRef .tc main_v38) = W10 m ρ c (Proc.devRef .tc main_v38) := by
  host_skip hostOps6
theorem W12_v38_keep (c : Dev nD) :
    W12 (F := Ideal) m ρ c (Proc.devRef .tc main_v38) = W11 m ρ c (Proc.devRef .tc main_v38) :=
  (W12_arr m ρ c 0).trans (((dat6 (V11 m ρ) c).arrAt_in 0 rfl _).trans (A_eq6 (V11 m ρ) c 0))
theorem W13_v38_keep (c : Dev nD) :
    W13 (F := Ideal) m ρ c (Proc.devRef .tc main_v38) = W12 m ρ c (Proc.devRef .tc main_v38) := by
  host_skip hostOps7
theorem W14_v38_keep (c : Dev nD) :
    W14 (F := Ideal) m ρ c (Proc.devRef .tc main_v38) = W13 m ρ c (Proc.devRef .tc main_v38) :=
  (W14_arr m ρ c 0).trans (((dat7 (V13 m ρ) c).arrAt_in 0 rfl _).trans (A_eq7 (V13 m ρ) c 0))
theorem W15_v38_keep (c : Dev nD) :
    W15 (F := Ideal) m ρ c (Proc.devRef .tc main_v38) = W14 m ρ c (Proc.devRef .tc main_v38) := by
  host_skip hostOps8

theorem W12_v41_keep (c : Dev nD) :
    W12 (F := Ideal) m ρ c (Proc.devRef .tc main_v41) = W11 m ρ c (Proc.devRef .tc main_v41) :=
  (W12_arr m ρ c 1).trans (((dat6 (V11 m ρ) c).arrAt_in 1 rfl _).trans (A_eq6 (V11 m ρ) c 1))
theorem W13_v41_keep (c : Dev nD) :
    W13 (F := Ideal) m ρ c (Proc.devRef .tc main_v41) = W12 m ρ c (Proc.devRef .tc main_v41) := by
  host_skip hostOps7

theorem W10_arg8_keep (c : Dev nD) :
    W10 (F := Ideal) m ρ c (Proc.devRef .tc main_arg8) = W9 m ρ c (Proc.devRef .tc main_arg8) :=
  W10_of_ne m ρ c main_arg8 (by decide)
theorem W11_arg8_keep (c : Dev nD) :
    W11 (F := Ideal) m ρ c (Proc.devRef .tc main_arg8) = W10 m ρ c (Proc.devRef .tc main_arg8) := by
  host_skip hostOps6
theorem W12_arg8_keep (c : Dev nD) :
    W12 (F := Ideal) m ρ c (Proc.devRef .tc main_arg8) = W11 m ρ c (Proc.devRef .tc main_arg8) :=
  W12_of_ne m ρ c main_arg8 (by decide)

theorem W10_arg9_keep (c : Dev nD) :
    W10 (F := Ideal) m ρ c (Proc.devRef .tc main_arg9) = W9 m ρ c (Proc.devRef .tc main_arg9) :=
  W10_of_ne m ρ c main_arg9 (by decide)
theorem W11_arg9_keep (c : Dev nD) :
    W11 (F := Ideal) m ρ c (Proc.devRef .tc main_arg9) = W10 m ρ c (Proc.devRef .tc main_arg9) := by
  host_skip hostOps6
theorem W12_arg9_keep (c : Dev nD) :
    W12 (F := Ideal) m ρ c (Proc.devRef .tc main_arg9) = W11 m ρ c (Proc.devRef .tc main_arg9) :=
  W12_of_ne m ρ c main_arg9 (by decide)

theorem W10_v6_keep (c : Dev nD) :
    W10 (F := Ideal) m ρ c (Proc.devRef .tc main_v6) = W9 m ρ c (Proc.devRef .tc main_v6) :=
  W10_of_ne m ρ c main_v6 (by decide)
theorem W11_v6_keep (c : Dev nD) :
    W11 (F := Ideal) m ρ c (Proc.devRef .tc main_v6) = W10 m ρ c (Proc.devRef .tc main_v6) := by
  host_skip hostOps6
theorem W12_v6_keep (c : Dev nD) :
    W12 (F := Ideal) m ρ c (Proc.devRef .tc main_v6) = W11 m ρ c (Proc.devRef .tc main_v6) :=
  W12_of_ne m ρ c main_v6 (by decide)

theorem W10_arg13_keep (c : Dev nD) :
    W10 (F := Ideal) m ρ c (Proc.devRef .tc main_arg13) = W9 m ρ c (Proc.devRef .tc main_arg13) :=
  W10_of_ne m ρ c main_arg13 (by decide)
theorem W11_arg13_keep (c : Dev nD) :
    W11 (F := Ideal) m ρ c (Proc.devRef .tc main_arg13) = W10 m ρ c (Proc.devRef .tc main_arg13) := by
  host_skip hostOps6
theorem W12_arg13_keep (c : Dev nD) :
    W12 (F := Ideal) m ρ c (Proc.devRef .tc main_arg13) = W11 m ρ c (Proc.devRef .tc main_arg13) :=
  W12_of_ne m ρ c main_arg13 (by decide)
theorem W13_arg13_keep (c : Dev nD) :
    W13 (F := Ideal) m ρ c (Proc.devRef .tc main_arg13) = W12 m ρ c (Proc.devRef .tc main_arg13) := by
  host_skip hostOps7
theorem W14_arg13_keep (c : Dev nD) :
    W14 (F := Ideal) m ρ c (Proc.devRef .tc main_arg13) = W13 m ρ c (Proc.devRef .tc main_arg13) :=
  W14_of_ne m ρ c main_arg13 (by decide)

theorem W10_arg14_keep (c : Dev nD) :
    W10 (F := Ideal) m ρ c (Proc.devRef .tc main_arg14) = W9 m ρ c (Proc.devRef .tc main_arg14) :=
  W10_of_ne m ρ c main_arg14 (by decide)
theorem W11_arg14_keep (c : Dev nD) :
    W11 (F := Ideal) m ρ c (Proc.devRef .tc main_arg14) = W10 m ρ c (Proc.devRef .tc main_arg14) := by
  host_skip hostOps6
theorem W12_arg14_keep (c : Dev nD) :
    W12 (F := Ideal) m ρ c (Proc.devRef .tc main_arg14) = W11 m ρ c (Proc.devRef .tc main_arg14) :=
  W12_of_ne m ρ c main_arg14 (by decide)
theorem W13_arg14_keep (c : Dev nD) :
    W13 (F := Ideal) m ρ c (Proc.devRef .tc main_arg14) = W12 m ρ c (Proc.devRef .tc main_arg14) := by
  host_skip hostOps7
theorem W14_arg14_keep (c : Dev nD) :
    W14 (F := Ideal) m ρ c (Proc.devRef .tc main_arg14) = W13 m ρ c (Proc.devRef .tc main_arg14) :=
  W14_of_ne m ρ c main_arg14 (by decide)

theorem W10_arg15_keep (c : Dev nD) :
    W10 (F := Ideal) m ρ c (Proc.devRef .tc main_arg15) = W9 m ρ c (Proc.devRef .tc main_arg15) :=
  W10_of_ne m ρ c main_arg15 (by decide)
theorem W11_arg15_keep (c : Dev nD) :
    W11 (F := Ideal) m ρ c (Proc.devRef .tc main_arg15) = W10 m ρ c (Proc.devRef .tc main_arg15) := by
  host_skip hostOps6
theorem W12_arg15_keep (c : Dev nD) :
    W12 (F := Ideal) m ρ c (Proc.devRef .tc main_arg15) = W11 m ρ c (Proc.devRef .tc main_arg15) :=
  W12_of_ne m ρ c main_arg15 (by decide)
theorem W13_arg15_keep (c : Dev nD) :
    W13 (F := Ideal) m ρ c (Proc.devRef .tc main_arg15) = W12 m ρ c (Proc.devRef .tc main_arg15) := by
  host_skip hostOps7
theorem W14_arg15_keep (c : Dev nD) :
    W14 (F := Ideal) m ρ c (Proc.devRef .tc main_arg15) = W13 m ρ c (Proc.devRef .tc main_arg15) :=
  W14_of_ne m ρ c main_arg15 (by decide)

theorem W10_v12_keep (c : Dev nD) :
    W10 (F := Ideal) m ρ c (Proc.devRef .tc main_v12) = W9 m ρ c (Proc.devRef .tc main_v12) :=
  W10_of_ne m ρ c main_v12 (by decide)
theorem W11_v12_keep (c : Dev nD) :
    W11 (F := Ideal) m ρ c (Proc.devRef .tc main_v12) = W10 m ρ c (Proc.devRef .tc main_v12) := by
  host_skip hostOps6
theorem W12_v12_keep (c : Dev nD) :
    W12 (F := Ideal) m ρ c (Proc.devRef .tc main_v12) = W11 m ρ c (Proc.devRef .tc main_v12) :=
  W12_of_ne m ρ c main_v12 (by decide)
theorem W13_v12_keep (c : Dev nD) :
    W13 (F := Ideal) m ρ c (Proc.devRef .tc main_v12) = W12 m ρ c (Proc.devRef .tc main_v12) := by
  host_skip hostOps7
theorem W14_v12_keep (c : Dev nD) :
    W14 (F := Ideal) m ρ c (Proc.devRef .tc main_v12) = W13 m ρ c (Proc.devRef .tc main_v12) :=
  W14_of_ne m ρ c main_v12 (by decide)

theorem W10_arg12_keep (c : Dev nD) :
    W10 (F := Ideal) m ρ c (Proc.devRef .tc main_arg12) = W9 m ρ c (Proc.devRef .tc main_arg12) :=
  W10_of_ne m ρ c main_arg12 (by decide)
theorem W11_arg12_keep (c : Dev nD) :
    W11 (F := Ideal) m ρ c (Proc.devRef .tc main_arg12) = W10 m ρ c (Proc.devRef .tc main_arg12) := by
  host_skip hostOps6
theorem W12_arg12_keep (c : Dev nD) :
    W12 (F := Ideal) m ρ c (Proc.devRef .tc main_arg12) = W11 m ρ c (Proc.devRef .tc main_arg12) :=
  W12_of_ne m ρ c main_arg12 (by decide)
theorem W13_arg12_keep (c : Dev nD) :
    W13 (F := Ideal) m ρ c (Proc.devRef .tc main_arg12) = W12 m ρ c (Proc.devRef .tc main_arg12) := by
  host_skip hostOps7
theorem W14_arg12_keep (c : Dev nD) :
    W14 (F := Ideal) m ρ c (Proc.devRef .tc main_arg12) = W13 m ρ c (Proc.devRef .tc main_arg12) :=
  W14_of_ne m ρ c main_arg12 (by decide)
theorem W15_arg12_keep (c : Dev nD) :
    W15 (F := Ideal) m ρ c (Proc.devRef .tc main_arg12) = W14 m ρ c (Proc.devRef .tc main_arg12) := by
  host_skip hostOps8

theorem W10_arg16_keep (c : Dev nD) :
    W10 (F := Ideal) m ρ c (Proc.devRef .tc main_arg16) = W9 m ρ c (Proc.devRef .tc main_arg16) :=
  W10_of_ne m ρ c main_arg16 (by decide)
theorem W11_arg16_keep (c : Dev nD) :
    W11 (F := Ideal) m ρ c (Proc.devRef .tc main_arg16) = W10 m ρ c (Proc.devRef .tc main_arg16) := by
  host_skip hostOps6
theorem W12_arg16_keep (c : Dev nD) :
    W12 (F := Ideal) m ρ c (Proc.devRef .tc main_arg16) = W11 m ρ c (Proc.devRef .tc main_arg16) :=
  W12_of_ne m ρ c main_arg16 (by decide)
theorem W13_arg16_keep (c : Dev nD) :
    W13 (F := Ideal) m ρ c (Proc.devRef .tc main_arg16) = W12 m ρ c (Proc.devRef .tc main_arg16) := by
  host_skip hostOps7
theorem W14_arg16_keep (c : Dev nD) :
    W14 (F := Ideal) m ρ c (Proc.devRef .tc main_arg16) = W13 m ρ c (Proc.devRef .tc main_arg16) :=
  W14_of_ne m ρ c main_arg16 (by decide)
theorem W15_arg16_keep (c : Dev nD) :
    W15 (F := Ideal) m ρ c (Proc.devRef .tc main_arg16) = W14 m ρ c (Proc.devRef .tc main_arg16) := by
  host_skip hostOps8
theorem W16_arg16_keep (c : Dev nD) :
    W16 (F := Ideal) m ρ c (Proc.devRef .tc main_arg16) = W15 m ρ c (Proc.devRef .tc main_arg16) :=
  W16_of_ne m ρ c main_arg16 (by decide)
theorem W17_arg16_keep (c : Dev nD) :
    W17 (F := Ideal) m ρ c (Proc.devRef .tc main_arg16) = W16 m ρ c (Proc.devRef .tc main_arg16) := by
  host_skip hostOps9
theorem W18_arg16_keep (c : Dev nD) :
    W18 (F := Ideal) m ρ c (Proc.devRef .tc main_arg16) = W17 m ρ c (Proc.devRef .tc main_arg16) :=
  W18_of_ne m ρ c main_arg16 (by decide)

theorem W17_v61_keep (c : Dev nD) :
    W17 (F := Ideal) m ρ c (Proc.devRef .tc main_v61) = W16 m ρ c (Proc.devRef .tc main_v61) := by
  host_skip hostOps9

/-! ## Each carried buffer at the boundary where it is read -/

theorem W11_v38 (c : Dev nD) : (W11 (F := Ideal) m ρ c (Proc.devRef .tc main_v38) : FVec Ideal S100000x128 .f32) = H1 m c :=
  ((W11_v38_keep m ρ c).trans (W10_v38_keep m ρ c)).trans (W9_v38 m ρ c)
theorem W13_v38 (c : Dev nD) : (W13 (F := Ideal) m ρ c (Proc.devRef .tc main_v38) : FVec Ideal S100000x128 .f32) = H1 m c :=
  ((W13_v38_keep m ρ c).trans (W12_v38_keep m ρ c)).trans (W11_v38 m ρ c)
theorem W15_v38 (c : Dev nD) : (W15 (F := Ideal) m ρ c (Proc.devRef .tc main_v38) : FVec Ideal S100000x128 .f32) = H1 m c :=
  ((W15_v38_keep m ρ c).trans (W14_v38_keep m ρ c)).trans (W13_v38 m ρ c)
theorem W12_arg8 (c : Dev nD) : W12 (F := Ideal) m ρ c (Proc.devRef .tc main_arg8) = m ((c : Thread nD τ).loc main_arg8) :=
  (((W12_arg8_keep m ρ c).trans (W11_arg8_keep m ρ c)).trans (W10_arg8_keep m ρ c)).trans (W9_arg8 m ρ c)
theorem W12_arg9 (c : Dev nD) : W12 (F := Ideal) m ρ c (Proc.devRef .tc main_arg9) = m ((c : Thread nD τ).loc main_arg9) :=
  (((W12_arg9_keep m ρ c).trans (W11_arg9_keep m ρ c)).trans (W10_arg9_keep m ρ c)).trans (W9_arg9 m ρ c)
theorem W14_arg13 (c : Dev nD) : W14 (F := Ideal) m ρ c (Proc.devRef .tc main_arg13) = m ((c : Thread nD τ).loc main_arg13) :=
  (((((W14_arg13_keep m ρ c).trans (W13_arg13_keep m ρ c)).trans (W12_arg13_keep m ρ c)).trans (W11_arg13_keep m ρ c)).trans (W10_arg13_keep m ρ c)).trans (W9_arg13 m ρ c)
theorem W14_arg14 (c : Dev nD) : W14 (F := Ideal) m ρ c (Proc.devRef .tc main_arg14) = m ((c : Thread nD τ).loc main_arg14) :=
  (((((W14_arg14_keep m ρ c).trans (W13_arg14_keep m ρ c)).trans (W12_arg14_keep m ρ c)).trans (W11_arg14_keep m ρ c)).trans (W10_arg14_keep m ρ c)).trans (W9_arg14 m ρ c)
theorem W14_arg15 (c : Dev nD) : W14 (F := Ideal) m ρ c (Proc.devRef .tc main_arg15) = m ((c : Thread nD τ).loc main_arg15) :=
  (((((W14_arg15_keep m ρ c).trans (W13_arg15_keep m ρ c)).trans (W12_arg15_keep m ρ c)).trans (W11_arg15_keep m ρ c)).trans (W10_arg15_keep m ρ c)).trans (W9_arg15 m ρ c)
theorem W15_arg12 (c : Dev nD) : W15 (F := Ideal) m ρ c (Proc.devRef .tc main_arg12) = m ((c : Thread nD τ).loc main_arg12) :=
  ((((((W15_arg12_keep m ρ c).trans (W14_arg12_keep m ρ c)).trans (W13_arg12_keep m ρ c)).trans (W12_arg12_keep m ρ c)).trans (W11_arg12_keep m ρ c)).trans (W10_arg12_keep m ρ c)).trans (W9_arg12 m ρ c)
theorem W16_arg16 (c : Dev nD) : W16 (F := Ideal) m ρ c (Proc.devRef .tc main_arg16) = m ((c : Thread nD τ).loc main_arg16) :=
  (((((((W16_arg16_keep m ρ c).trans (W15_arg16_keep m ρ c)).trans (W14_arg16_keep m ρ c)).trans (W13_arg16_keep m ρ c)).trans (W12_arg16_keep m ρ c)).trans (W11_arg16_keep m ρ c)).trans (W10_arg16_keep m ρ c)).trans (W9_arg16 m ρ c)
theorem W18_arg16 (c : Dev nD) : W18 (F := Ideal) m ρ c (Proc.devRef .tc main_arg16) = m ((c : Thread nD τ).loc main_arg16) :=
  ((W18_arg16_keep m ρ c).trans (W17_arg16_keep m ρ c)).trans (W16_arg16 m ρ c)
theorem W12_v6 (c : Dev nD) : (W12 (F := Ideal) m ρ c (Proc.devRef .tc main_v6) : FVec Ideal S100000 .f32) = Cert.ReferenceIdeal.Stage.degInv (a14 m c) :=
  (((W12_v6_keep m ρ c).trans (W11_v6_keep m ρ c)).trans (W10_v6_keep m ρ c)).trans (W9_v6 m ρ c)
theorem W14_v12 (c : Dev nD) : (W14 (F := Ideal) m ρ c (Proc.devRef .tc main_v12) : FVec Ideal S100000 .f32) = Cert.ReferenceIdeal.Stage.degInv (a15 m c) :=
  (((((W14_v12_keep m ρ c).trans (W13_v12_keep m ρ c)).trans (W12_v12_keep m ρ c)).trans (W11_v12_keep m ρ c)).trans (W10_v12_keep m ρ c)).trans (W9_v12 m ρ c)

/-! ## What each host stretch leaves in the buffers it writes, as the operations applied to the contents before it -/

theorem W11_v41_val (c : Dev nD) : (W11 (F := Ideal) m ρ c (Proc.devRef .tc main_v41) : FVec Ideal S1x128 .f32)
    = Host.divf (W10 m ρ c (Proc.devRef .tc main_v39) : FVec Ideal S1x128 .f32)
        (broadcastInDim S1x128 ![] bcast_S_S1x128 (constant (F := Ideal) S_ .f32 0x47C35000#32)) := by
  dsimp only [W11, hostOps6]; after_results

theorem W13_v44_val (c : Dev nD) : (W13 (F := Ideal) m ρ c (Proc.devRef .tc main_v44) : FVec Ideal S1x128 .f32)
    = Host.divf (W12 m ρ c (Proc.devRef .tc main_v42) : FVec Ideal S1x128 .f32)
        (broadcastInDim S1x128 ![] bcast_S_S1x128 (constant (F := Ideal) S_ .f32 0x47C35000#32)) := by
  dsimp only [W13, hostOps7]; after_results

theorem W13_v45_val (c : Dev nD) : (W13 (F := Ideal) m ρ c (Proc.devRef .tc main_v45) : FVec Ideal S1x128 .f32)
    = shapeCast S1x128 (W12 m ρ c (Proc.devRef .tc main_arg8) : FVec Ideal S128 .f32) shapeCasts_S128_S1x128 := by
  dsimp only [W13, hostOps7]; after_results; rfl

theorem W13_v46_val (c : Dev nD) : (W13 (F := Ideal) m ρ c (Proc.devRef .tc main_v46) : FVec Ideal S1x128 .f32)
    = shapeCast S1x128 (W12 m ρ c (Proc.devRef .tc main_arg9) : FVec Ideal S128 .f32) shapeCasts_S128_S1x128 := by
  dsimp only [W13, hostOps7]; after_results; rfl

theorem W13_v47_val (c : Dev nD) : (W13 (F := Ideal) m ρ c (Proc.devRef .tc main_v47) : FVec Ideal S100000x1 .f32)
    = shapeCast S100000x1 (W12 m ρ c (Proc.devRef .tc main_v6) : FVec Ideal S100000 .f32) shapeCasts_S100000_S100000x1 := by
  dsimp only [W13, hostOps7]; after_results; rfl

theorem W15_v58_val (c : Dev nD) : (W15 (F := Ideal) m ρ c (Proc.devRef .tc main_v58) : FVec Ideal S100000x128 .f32)
    = Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (W14 m ρ c (Proc.devRef .tc main_arg15) : IVec S1600000 32))
      (Host.gather gather_S100000x128_S1600000x1_S1600000x128_1_0_n_n_0_1_1128 (W14 m ρ c (Proc.devRef .tc main_v48) : FVec Ideal S100000x128 .f32)
        (broadcastInDim S1600000x1 ![0] bcast_S1600000_S1600000x1_0
          (select (cmpi .slt (W14 m ρ c (Proc.devRef .tc main_arg14) : IVec S1600000 32) (broadcastInDim S1600000 ![] bcast_S_S1600000 (constantI S_ 32 0#32)))
            (addi (W14 m ρ c (Proc.devRef .tc main_arg14) : IVec S1600000 32) (broadcastInDim S1600000 ![] bcast_S_S1600000 (constantI S_ 32 100000#32))) (W14 m ρ c (Proc.devRef .tc main_arg14) : IVec S1600000 32)))) := by
  dsimp only [W15, hostOps8]; after_results_simp

theorem W15_v59_val (c : Dev nD) : (W15 (F := Ideal) m ρ c (Proc.devRef .tc main_v59) : FVec Ideal S1x128 .f32)
    = shapeCast S1x128 (W14 m ρ c (Proc.devRef .tc main_arg13) : FVec Ideal S128 .f32) shapeCasts_S128_S1x128 := by
  dsimp only [W15, hostOps8]; after_results; rfl

theorem W15_v60_val (c : Dev nD) : (W15 (F := Ideal) m ρ c (Proc.devRef .tc main_v60) : FVec Ideal S100000x1 .f32)
    = shapeCast S100000x1 (W14 m ρ c (Proc.devRef .tc main_v12) : FVec Ideal S100000 .f32) shapeCasts_S100000_S100000x1 := by
  dsimp only [W15, hostOps8]; after_results; rfl

theorem W17_v62_val (c : Dev nD) : (W17 (F := Ideal) m ρ c (Proc.devRef .tc main_v62) : IVec S100000x1 32)
    = shapeCast S100000x1 (W16 m ρ c (Proc.devRef .tc main_arg16) : IVec S100000 32) shapeCasts_S100000_S100000x1 := by
  dsimp only [W17, hostOps9]; after_results; rfl

theorem W19_v72_val (c : Dev nD) : (W19 (F := Ideal) m ρ c (Proc.devRef .tc main_v72) : FVec Ideal S64x128 .f32)
    = Host.divf (W18 m ρ c (Proc.devRef .tc main_v63) : FVec Ideal S64x128 .f32)
        (broadcastInDim S64x128 ![0, 1] bcast_S64x1_S64x128_0_1 (broadcastInDim S64x1 ![0] bcast_S64_S64x1_0
      (maximumf (Host.scatterAdd scatter_S64_S100000x1_S100000_n_0_0_1
          (broadcastInDim S64 ![] bcast_S_S64 (constant (F := Ideal) S_ .f32 0x00000000#32))
          (broadcastInDim S100000x1 ![0] bcast_S100000_S100000x1_0 (W18 m ρ c (Proc.devRef .tc main_arg16) : IVec S100000 32))
          (broadcastInDim S100000 ![] bcast_S_S100000 (constant (F := Ideal) S_ .f32 0x3F800000#32)))
        (broadcastInDim S64 ![] bcast_S_S64 (constant (F := Ideal) S_ .f32 0x3F800000#32))))) := by
  dsimp only [W19, hostOps10]; after_results_simp

/-! ## The values, boundary by boundary -/

/-- After region 5 the one-row buffer holds the column sums of the first layer's features. -/
theorem W10_v39 (c : Dev nD) (j : Fin 128) :
    (W10 (F := Ideal) m ρ c (Proc.devRef .tc main_v39) : FVec Ideal S1x128 .f32) (ix2 0 j) = Cert.ReferenceIdeal.Stage.colSum (H1 m c) (ix1 j) := by
  have h := region5_value (V9 m ρ) c j
  have e : (V9 m ρ c main_v38 : FVec Ideal S100000x128 .f32) = H1 m c := W9_v38 m ρ c
  rw [e] at h
  have h0 : (W10 (F := Ideal) m ρ c (Proc.devRef .tc main_v39) : FVec Ideal S1x128 .f32) = (dat5 (V9 m ρ) c).arrAt 1 cfg5.N := W10_arr m ρ c 1
  rw [h0]; exact h

/-- The host divides them by the node count: the column means. -/
theorem W11_v41 (c : Dev nD) (j : Fin 128) :
    (W11 (F := Ideal) m ρ c (Proc.devRef .tc main_v41) : FVec Ideal S1x128 .f32) (ix2 0 j) = Cert.ReferenceIdeal.Stage.mean (H1 m c) (ix1 j) := by
  rw [W11_v41_val]
  exact mean_row _ (H1 m c) (W10_v39 m ρ c) j

/-- After region 6 the one-row buffer holds the column sums of squared deviations from the means. -/
theorem W12_v42 (c : Dev nD) (j : Fin 128) :
    (W12 (F := Ideal) m ρ c (Proc.devRef .tc main_v42) : FVec Ideal S1x128 .f32) (ix2 0 j) = Cert.ReferenceIdeal.Stage.sqSum (H1 m c) (Cert.ReferenceIdeal.Stage.mean (H1 m c)) (ix1 j) := by
  have h := region6_value (V11 m ρ) c (Cert.ReferenceIdeal.Stage.mean (H1 m c)) (W11_v41 m ρ c) j
  have e : (V11 m ρ c main_v38 : FVec Ideal S100000x128 .f32) = H1 m c := W11_v38 m ρ c
  rw [e] at h
  have h0 : (W12 (F := Ideal) m ρ c (Proc.devRef .tc main_v42) : FVec Ideal S1x128 .f32) = (dat6 (V11 m ρ) c).arrAt 2 cfg6.N := W12_arr m ρ c 2
  rw [h0]; exact h

/-- The host divides them by the node count: the column variances; and reshapes the scale, the shift and the out-degree
    normaliser for region 7. -/
theorem W13_v44 (c : Dev nD) (j : Fin 128) :
    (W13 (F := Ideal) m ρ c (Proc.devRef .tc main_v44) : FVec Ideal S1x128 .f32) (ix2 0 j) = Cert.ReferenceIdeal.Stage.var (H1 m c) (ix1 j) := by
  rw [W13_v44_val]
  exact var_row _ (H1 m c) (W12_v42 m ρ c) j

theorem W13_v41 (c : Dev nD) (j : Fin 128) :
    (W13 (F := Ideal) m ρ c (Proc.devRef .tc main_v41) : FVec Ideal S1x128 .f32) (ix2 0 j) = Cert.ReferenceIdeal.Stage.mean (H1 m c) (ix1 j) := by
  rw [(W13_v41_keep m ρ c).trans (W12_v41_keep m ρ c)]
  exact W11_v41 m ρ c j

theorem W13_v45 (c : Dev nD) (j : Fin 128) :
    (W13 (F := Ideal) m ρ c (Proc.devRef .tc main_v45) : FVec Ideal S1x128 .f32) (ix2 0 j) = a8 m c (ix1 j) := by
  rw [W13_v45_val, reshape_row, W12_arg8]

theorem W13_v46 (c : Dev nD) (j : Fin 128) :
    (W13 (F := Ideal) m ρ c (Proc.devRef .tc main_v46) : FVec Ideal S1x128 .f32) (ix2 0 j) = a9 m c (ix1 j) := by
  rw [W13_v46_val, reshape_row, W12_arg9]

theorem W13_v47 (c : Dev nD) (r : Fin 100000) :
    (W13 (F := Ideal) m ρ c (Proc.devRef .tc main_v47) : FVec Ideal S100000x1 .f32) (ix2 r 0) = Cert.ReferenceIdeal.Stage.degInv (a14 m c) (ix1 r) := by
  rw [W13_v47_val, reshape_col, W12_v6]

/-- After region 7 its output buffer holds the normalised, out-degree-scaled features. -/
theorem W14_v48 (c : Dev nD) :
    (W14 (F := Ideal) m ρ c (Proc.devRef .tc main_v48) : FVec Ideal S100000x128 .f32) = Cert.ReferenceIdeal.Stage.bn (H1 m c) (a8 m c) (a9 m c) (Cert.ReferenceIdeal.Stage.degInv (a14 m c)) := by
  have h := region7_value (V13 m ρ) c (Cert.ReferenceIdeal.Stage.mean (H1 m c)) (Cert.ReferenceIdeal.Stage.var (H1 m c)) (a8 m c) (a9 m c) (Cert.ReferenceIdeal.Stage.degInv (a14 m c))
    (W13_v41 m ρ c) (W13_v44 m ρ c) (W13_v45 m ρ c) (W13_v46 m ρ c) (W13_v47 m ρ c)
  have e : (V13 m ρ c main_v38 : FVec Ideal S100000x128 .f32) = H1 m c := W13_v38 m ρ c
  rw [e] at h
  have h0 : (W14 (F := Ideal) m ρ c (Proc.devRef .tc main_v48) : FVec Ideal S100000x128 .f32) = (dat7 (V13 m ρ) c).arrAt 6 cfg7.N := W14_arr m ρ c 6
  rw [h0]; unfold Cert.ReferenceIdeal.Stage.bn; exact h

/-- The host gathers by source and sums by destination: the aggregated features; and reshapes the bias and the
    in-degree normaliser for region 8. -/
theorem W15_v58 (c : Dev nD) :
    (W15 (F := Ideal) m ρ c (Proc.devRef .tc main_v58) : FVec Ideal S100000x128 .f32) = Cert.ReferenceIdeal.Stage.agg (Cert.ReferenceIdeal.Stage.bn (H1 m c) (a8 m c) (a9 m c) (Cert.ReferenceIdeal.Stage.degInv (a14 m c))) (a14 m c) (a15 m c) := by
  rw [W15_v58_val, W14_v48, W14_arg14, W14_arg15]
  exact agg_eq _ _ _

theorem W15_v59 (c : Dev nD) (j : Fin 128) :
    (W15 (F := Ideal) m ρ c (Proc.devRef .tc main_v59) : FVec Ideal S1x128 .f32) (ix2 0 j) = a13 m c (ix1 j) := by
  rw [W15_v59_val, reshape_row, W14_arg13]

theorem W15_v60 (c : Dev nD) (r : Fin 100000) :
    (W15 (F := Ideal) m ρ c (Proc.devRef .tc main_v60) : FVec Ideal S100000x1 .f32) (ix2 r 0) = Cert.ReferenceIdeal.Stage.degInv (a15 m c) (ix1 r) := by
  rw [W15_v60_val, reshape_col, W14_v12]

/-- After region 8 its output buffer holds the second layer's features. -/
theorem W16_v61 (c : Dev nD) :
    (W16 (F := Ideal) m ρ c (Proc.devRef .tc main_v61) : FVec Ideal S100000x128 .f32) = H2 m c := by
  have h := region8_value (V15 m ρ) c (Cert.ReferenceIdeal.Stage.degInv (a15 m c)) (a13 m c) (W15_v60 m ρ c) (W15_v59 m ρ c)
  have e1 : (V15 m ρ c main_v58 : FVec Ideal S100000x128 .f32) = Cert.ReferenceIdeal.Stage.agg (Cert.ReferenceIdeal.Stage.bn (H1 m c) (a8 m c) (a9 m c) (Cert.ReferenceIdeal.Stage.degInv (a14 m c))) (a14 m c) (a15 m c) := W15_v58 m ρ c
  have e2 : (V15 m ρ c main_arg12 : FVec Ideal S128x128 .f32) = a12 m c := W15_arg12 m ρ c
  have e3 : (V15 m ρ c main_v38 : FVec Ideal S100000x128 .f32) = H1 m c := W15_v38 m ρ c
  rw [e1, e2, e3] at h
  have h0 : (W16 (F := Ideal) m ρ c (Proc.devRef .tc main_v61) : FVec Ideal S100000x128 .f32) = (dat8 (V15 m ρ) c).arrAt 5 cfg8.N := W16_arr m ρ c 5
  rw [h0]; unfold H2 Cert.ReferenceIdeal.Stage.layer; exact h

/-- The host reshapes the graph ids for region 9. -/
theorem W17_v62 (c : Dev nD) (r : Fin 100000) :
    (W17 (F := Ideal) m ρ c (Proc.devRef .tc main_v62) : IVec S100000x1 32) (ix2 r 0) = a16 m c (ix1 r) := by
  rw [W17_v62_val, reshape_col_i, W16_arg16]

theorem W17_v61 (c : Dev nD) :
    (W17 (F := Ideal) m ρ c (Proc.devRef .tc main_v61) : FVec Ideal S100000x128 .f32) = H2 m c :=
  (W17_v61_keep m ρ c).trans (W16_v61 m ρ c)

/-- After region 9 its output buffer holds each graph's sum of its nodes' rows. -/
theorem W18_v63 (c : Dev nD) :
    (W18 (F := Ideal) m ρ c (Proc.devRef .tc main_v63) : FVec Ideal S64x128 .f32) = Cert.ReferenceIdeal.Stage.segSum (H2 m c) (a16 m c) := by
  have h := region9_value (V17 m ρ) c (a16 m c) (W17_v62 m ρ c)
  have e : (V17 m ρ c main_v61 : FVec Ideal S100000x128 .f32) = H2 m c := W17_v61 m ρ c
  rw [e] at h
  have h0 : (W18 (F := Ideal) m ρ c (Proc.devRef .tc main_v63) : FVec Ideal S64x128 .f32) = (dat9 (V17 m ρ) c).arrAt 2 cfg9.N := W18_arr m ρ c 2
  rw [h0]; exact h

end FlowB

/-- The kernel program's result buffer after the last host stretch holds the whole network's value of the launched arguments. -/
theorem result_eq (c : Dev nD) :
    (W19 (F := Ideal) m ρ c (Proc.devRef .tc main_v72) : FVec Ideal S64x128 .f32)
      = Cert.ReferenceIdeal.Stage.total (a0 m c) (a1 m c) (a2 m c) (a3 m c) (a4 m c) (a5 m c) (a6 m c) (a7 m c) (a8 m c) (a9 m c)
          (a10 m c) (a11 m c) (a12 m c) (a13 m c) (a14 m c) (a15 m c) (a16 m c) := by
  rw [FlowB.W19_v72_val, FlowB.W18_v63, FlowB.W18_arg16, cnt_eq]
  unfold Cert.ReferenceIdeal.Stage.total
  rfl

end Cert.KernelIdeal.Val

end
-- ==== Proof.RefOps.lean ====
/- @main's 185 host operations in order, the outlined routines' written inline at their calls, in 9 consecutive
   stretches ending at main_v12, main_v21, main_v43, main_v53, main_v62, main_v84, main_v94, main_v103, main_v115; each stretch's operations touch TensorCore references only. -/
import proofs.«426980_j56813827392376_1_alg».proof.Proof.Gen.ReferenceIdeal
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-- Operations 1 … 18 of 185: up to main_v12. -/
abbrev ops_0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg14 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v4 (broadcastInDim S100000 ![] bcast_S_S100000 : (⟨S_, .f32⟩ : BufTy).Contents (Elt F) → (⟨S100000, .f32⟩ : BufTy).Contents (Elt F)),
    StableHlo.binary main_v3 main_v4 main_v5 (maximumf : (⟨S100000, .f32⟩ : BufTy).Contents (Elt F) → (⟨S100000, .f32⟩ : BufTy).Contents (Elt F) → (⟨S100000, .f32⟩ : BufTy).Contents (Elt F)),
    StableHlo.unary main_v5 main_v6 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_v7 (broadcastInDim S100000 ![] bcast_S_S100000 : (⟨S_, .f32⟩ : BufTy).Contents (Elt F) → (⟨S100000, .f32⟩ : BufTy).Contents (Elt F)),
    StableHlo.unary main_arg15 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v0 main_v9 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v10 (broadcastInDim S100000 ![] bcast_S_S100000 : (⟨S_, .f32⟩ : BufTy).Contents (Elt F) → (⟨S100000, .f32⟩ : BufTy).Contents (Elt F)),
    StableHlo.binary main_v9 main_v10 main_v11 (maximumf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)) ]

theorem ops_0_sub : (ops_0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., unary_bufs_sub ..⟩

/-- Operations 19 … 27 of 185: up to main_v21. -/
abbrev ops_1 : List (HloOp τ sig (Elt F)) :=
  [ StableHlo.binary main_arg0 main_arg2 main_v13 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg3 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)),
    StableHlo.binary main_v16 main_arg1 main_v17 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v17 main_arg4 main_v18 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg5 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)) ]

theorem ops_1_sub : (ops_1 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub ..⟩

/-- Operations 28 … 74 of 185: up to main_v43. -/
abbrev ops_2 : List (HloOp τ sig (Elt F)) :=
  [ StableHlo.nullary main_cst_4 (constant S_ .f32 0x00000000#32),
    StableHlo.binary main_v21 main_cst_4 main_v22 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v23 (broadcastInDim S128 ![] bcast_S_S128 : (⟨S_, .f32⟩ : BufTy).Contents (Elt F) → (⟨S128, .f32⟩ : BufTy).Contents (Elt F)),
    StableHlo.binary main_v22 main_v23 main_v24 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (StableHlo.TRef.of main_v21 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v21 : StableHlo.TRef sig ⟨S100000x128, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v24 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v27 main_v28 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v29 (broadcastInDim S128 ![] bcast_S_S128 : (⟨S_, .f32⟩ : BufTy).Contents (Elt F) → (⟨S128, .f32⟩ : BufTy).Contents (Elt F)),
    StableHlo.binary main_v25 main_v29 main_v30 (addf : (⟨S128, .f32⟩ : BufTy).Contents (Elt F) → (⟨S128, .f32⟩ : BufTy).Contents (Elt F) → (⟨S128, .f32⟩ : BufTy).Contents (Elt F)),
    StableHlo.unary main_v30 main_v31 (Host.rsqrt : (⟨S128, .f32⟩ : BufTy).Contents (Elt F) → (⟨S128, .f32⟩ : BufTy).Contents (Elt F)),
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg6 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg7 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.unary main_v6 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v40 main_v42 main_v43 (mulf : (⟨S100000x128, .f32⟩ : BufTy).Contents (Elt F) → (⟨S100000x128, .f32⟩ : BufTy).Contents (Elt F) → (⟨S100000x128, .f32⟩ : BufTy).Contents (Elt F)) ]

theorem ops_2_sub : (ops_2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Operations 75 … 87 of 185: up to main_v53. -/
abbrev ops_3 : List (HloOp τ sig (Elt F)) :=
  [ StableHlo.nullary main_c_7 (constantI S_ 32 0#32),
    StableHlo.unary main_c_7 main_v44 (broadcastInDim S1600000 ![] bcast_S_S1600000 : (⟨S_, .i32⟩ : BufTy).Contents (Elt F) → (⟨S1600000, .i32⟩ : BufTy).Contents (Elt F)),
    StableHlo.binary main_arg14 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v46 (broadcastInDim S1600000 ![] bcast_S_S1600000 : (⟨S_, .i32⟩ : BufTy).Contents (Elt F) → (⟨S1600000, .i32⟩ : BufTy).Contents (Elt F)),
    StableHlo.binary main_arg14 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_arg14 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v51 (broadcastInDim S100000x128 ![] bcast_S_S100000x128 : (⟨S_, .f32⟩ : BufTy).Contents (Elt F) → (⟨S100000x128, .f32⟩ : BufTy).Contents (Elt F)),
    StableHlo.unary main_arg15 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Operations 88 … 98 of 185: up to main_v62. -/
abbrev ops_4 : List (HloOp τ sig (Elt F)) :=
  [ StableHlo.unary main_v12 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v53 main_v55 main_v56 (mulf : (⟨S100000x128, .f32⟩ : BufTy).Contents (Elt F) → (⟨S100000x128, .f32⟩ : BufTy).Contents (Elt F) → (⟨S100000x128, .f32⟩ : BufTy).Contents (Elt F)),
    StableHlo.binary main_v56 main_arg10 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v60 : StableHlo.TRef sig ⟨S100000x128, .f32⟩) main_call1.v0 main_call1.v1 maximumf,
    StableHlo.binary main_v21 main_v61 main_v62 (addf : (⟨S100000x128, .f32⟩ : BufTy).Contents (Elt F) → (⟨S100000x128, .f32⟩ : BufTy).Contents (Elt F) → (⟨S100000x128, .f32⟩ : BufTy).Contents (Elt F)) ]

theorem ops_4_sub : (ops_4 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

/-- Operations 99 … 145 of 185: up to main_v84. -/
abbrev ops_5 : List (HloOp τ sig (Elt F)) :=
  [ StableHlo.nullary main_cst_10 (constant S_ .f32 0x00000000#32),
    StableHlo.binary main_v62 main_cst_10 main_v63 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v64 (broadcastInDim S128 ![] bcast_S_S128 : (⟨S_, .f32⟩ : BufTy).Contents (Elt F) → (⟨S128, .f32⟩ : BufTy).Contents (Elt F)),
    StableHlo.binary main_v63 main_v64 main_v65 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (StableHlo.TRef.of main_v62 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v62 : StableHlo.TRef sig ⟨S100000x128, .f32⟩) main_call2.v4 main_call2.v5 subf,
    StableHlo.TRef.binary main_call2.v5 main_call2.v5 main_call2.v6 mulf,
    StableHlo.TRef.unary (StableHlo.TRef.of main_c_12 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v65 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v68 main_v69 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v70 (broadcastInDim S128 ![] bcast_S_S128 : (⟨S_, .f32⟩ : BufTy).Contents (Elt F) → (⟨S128, .f32⟩ : BufTy).Contents (Elt F)),
    StableHlo.binary main_v66 main_v70 main_v71 (addf : (⟨S128, .f32⟩ : BufTy).Contents (Elt F) → (⟨S128, .f32⟩ : BufTy).Contents (Elt F) → (⟨S128, .f32⟩ : BufTy).Contents (Elt F)),
    StableHlo.unary main_v71 main_v72 (Host.rsqrt : (⟨S128, .f32⟩ : BufTy).Contents (Elt F) → (⟨S128, .f32⟩ : BufTy).Contents (Elt F)),
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg8 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (mulf : (⟨S100000x128, .f32⟩ : BufTy).Contents (Elt F) → (⟨S100000x128, .f32⟩ : BufTy).Contents (Elt F) → (⟨S100000x128, .f32⟩ : BufTy).Contents (Elt F)),
    StableHlo.unary main_arg9 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    StableHlo.unary main_v6 main_v82 (broadcastInDim S100000x1 ![0] bcast_S100000_S100000x1_0 : (⟨S100000, .f32⟩ : BufTy).Contents (Elt F) → (⟨S100000x1, .f32⟩ : BufTy).Contents (Elt F)),
    StableHlo.unary main_v82 main_v83 (broadcastInDim S100000x128 ![0, 1] bcast_S100000x1_S100000x128_0_1 : (⟨S100000x1, .f32⟩ : BufTy).Contents (Elt F) → (⟨S100000x128, .f32⟩ : BufTy).Contents (Elt F)),
    StableHlo.binary main_v81 main_v83 main_v84 (mulf : (⟨S100000x128, .f32⟩ : BufTy).Contents (Elt F) → (⟨S100000x128, .f32⟩ : BufTy).Contents (Elt F) → (⟨S100000x128, .f32⟩ : BufTy).Contents (Elt F)) ]

theorem ops_5_sub : (ops_5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Operations 146 … 158 of 185: up to main_v94. -/
abbrev ops_6 : List (HloOp τ sig (Elt F)) :=
  [ StableHlo.nullary main_c_14 (constantI S_ 32 0#32),
    StableHlo.unary main_c_14 main_v85 (broadcastInDim S1600000 ![] bcast_S_S1600000 : (⟨S_, .i32⟩ : BufTy).Contents (Elt F) → (⟨S1600000, .i32⟩ : BufTy).Contents (Elt F)),
    StableHlo.binary main_arg14 main_v85 main_v86 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v87 (broadcastInDim S1600000 ![] bcast_S_S1600000 : (⟨S_, .i32⟩ : BufTy).Contents (Elt F) → (⟨S1600000, .i32⟩ : BufTy).Contents (Elt F)),
    StableHlo.binary main_arg14 main_v87 main_v88 (addi : (⟨S1600000, .i32⟩ : BufTy).Contents (Elt F) → (⟨S1600000, .i32⟩ : BufTy).Contents (Elt F) → (⟨S1600000, .i32⟩ : BufTy).Contents (Elt F)),
    StableHlo.ternary main_v86 main_v88 main_arg14 main_v89 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v89 main_v90 (broadcastInDim S1600000x1 ![0] bcast_S1600000_S1600000x1_0 : (⟨S1600000, .i32⟩ : BufTy).Contents (Elt F) → (⟨S1600000x1, .i32⟩ : BufTy).Contents (Elt F)),
    StableHlo.binary main_v84 main_v90 main_v91 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_16 (constant S_ .f32 0x00000000#32),
    StableHlo.unary main_cst_16 main_v92 (broadcastInDim S100000x128 ![] bcast_S_S100000x128 : (⟨S_, .f32⟩ : BufTy).Contents (Elt F) → (⟨S100000x128, .f32⟩ : BufTy).Contents (Elt F)),
    StableHlo.unary main_arg15 main_v93 (broadcastInDim S1600000x1 ![0] bcast_S1600000_S1600000x1_0 : (⟨S1600000, .i32⟩ : BufTy).Contents (Elt F) → (⟨S1600000x1, .i32⟩ : BufTy).Contents (Elt F)),
    StableHlo.ternary main_v92 main_v93 main_v91 main_v94 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Operations 159 … 169 of 185: up to main_v103. -/
abbrev ops_7 : List (HloOp τ sig (Elt F)) :=
  [ StableHlo.unary main_v12 main_v95 (broadcastInDim S100000x1 ![0] bcast_S100000_S100000x1_0 : (⟨S100000, .f32⟩ : BufTy).Contents (Elt F) → (⟨S100000x1, .f32⟩ : BufTy).Contents (Elt F)),
    StableHlo.unary main_v95 main_v96 (broadcastInDim S100000x128 ![0, 1] bcast_S100000x1_S100000x128_0_1 : (⟨S100000x1, .f32⟩ : BufTy).Contents (Elt F) → (⟨S100000x128, .f32⟩ : BufTy).Contents (Elt F)),
    StableHlo.binary main_v94 main_v96 main_v97 (mulf : (⟨S100000x128, .f32⟩ : BufTy).Contents (Elt F) → (⟨S100000x128, .f32⟩ : BufTy).Contents (Elt F) → (⟨S100000x128, .f32⟩ : BufTy).Contents (Elt F)),
    StableHlo.binary main_v97 main_arg12 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v100 main_v101 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v101 : StableHlo.TRef sig ⟨S100000x128, .f32⟩) main_call3.v0 main_call3.v1 maximumf,
    StableHlo.binary main_v62 main_v102 main_v103 (addf : (⟨S100000x128, .f32⟩ : BufTy).Contents (Elt F) → (⟨S100000x128, .f32⟩ : BufTy).Contents (Elt F) → (⟨S100000x128, .f32⟩ : BufTy).Contents (Elt F)) ]

theorem ops_7_sub : (ops_7 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

/-- Operations 170 … 185 of 185: up to main_v115. -/
abbrev ops_8 : List (HloOp τ sig (Elt F)) :=
  [ StableHlo.nullary main_cst_17 (constant S_ .f32 0x00000000#32),
    StableHlo.unary main_cst_17 main_v104 (broadcastInDim S64x128 ![] bcast_S_S64x128 : (⟨S_, .f32⟩ : BufTy).Contents (Elt F) → (⟨S64x128, .f32⟩ : BufTy).Contents (Elt F)),
    StableHlo.unary main_arg16 main_v105 (broadcastInDim S100000x1 ![0] bcast_S100000_S100000x1_0 : (⟨S100000, .i32⟩ : BufTy).Contents (Elt F) → (⟨S100000x1, .i32⟩ : BufTy).Contents (Elt F)),
    StableHlo.ternary main_v104 main_v105 main_v103 main_v106 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_18 (constant S_ .f32 0x3F800000#32),
    StableHlo.unary main_cst_18 main_v107 (broadcastInDim S100000 ![] bcast_S_S100000 : (⟨S_, .f32⟩ : BufTy).Contents (Elt F) → (⟨S100000, .f32⟩ : BufTy).Contents (Elt F)),
    StableHlo.nullary main_cst_19 (constant S_ .f32 0x00000000#32),
    StableHlo.unary main_cst_19 main_v108 (broadcastInDim S64 ![] bcast_S_S64 : (⟨S_, .f32⟩ : BufTy).Contents (Elt F) → (⟨S64, .f32⟩ : BufTy).Contents (Elt F)),
    StableHlo.unary main_arg16 main_v109 (broadcastInDim S100000x1 ![0] bcast_S100000_S100000x1_0 : (⟨S100000, .i32⟩ : BufTy).Contents (Elt F) → (⟨S100000x1, .i32⟩ : BufTy).Contents (Elt F)),
    StableHlo.ternary main_v108 main_v109 main_v107 main_v110 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_20 (constant S_ .f32 0x3F800000#32),
    StableHlo.unary main_cst_20 main_v111 (broadcastInDim S64 ![] bcast_S_S64 : (⟨S_, .f32⟩ : BufTy).Contents (Elt F) → (⟨S64, .f32⟩ : BufTy).Contents (Elt F)),
    StableHlo.binary main_v110 main_v111 main_v112 (maximumf : (⟨S64, .f32⟩ : BufTy).Contents (Elt F) → (⟨S64, .f32⟩ : BufTy).Contents (Elt F) → (⟨S64, .f32⟩ : BufTy).Contents (Elt F)),
    StableHlo.unary main_v112 main_v113 (broadcastInDim S64x1 ![0] bcast_S64_S64x1_0 : (⟨S64, .f32⟩ : BufTy).Contents (Elt F) → (⟨S64x1, .f32⟩ : BufTy).Contents (Elt F)),
    StableHlo.unary main_v113 main_v114 (broadcastInDim S64x128 ![0, 1] bcast_S64x1_S64x128_0_1 : (⟨S64x1, .f32⟩ : BufTy).Contents (Elt F) → (⟨S64x128, .f32⟩ : BufTy).Contents (Elt F)),
    StableHlo.binary main_v106 main_v114 main_v115 (Host.divf : (⟨S64x128, .f32⟩ : BufTy).Contents (Elt F) → (⟨S64x128, .f32⟩ : BufTy).Contents (Elt F) → (⟨S64x128, .f32⟩ : BufTy).Contents (Elt F)) ]

theorem ops_8_sub : (ops_8 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

end Cert.ReferenceIdeal.Run

end
-- ==== Proof.RefRun.lean ====
/-
  The reference program's run: its @main, with the three kinds of outlined routine unfolded at their five calls, is a
  straight line of host operations; every weakly fair execution runs them in order, so each buffer ends at the
  operations' fold over the launch contents. Read at the result buffer that fold is `Stage.total` of the argument
  arrays; read at an argument it is the argument as launched.

  The line is cut into nine stretches (the degree normalisers; the fused linears; then per layer the batch
  normalisation, the edge aggregation, the matmul with relu and residual; the readout). Each stretch's result is its
  stage function of the buffers the stretch reads, whatever the other buffers hold; the stretches compose because a
  buffer read later is written by no stretch in between.
-/
import proofs.«426980_j56813827392376_1_alg».proof.Proof.RefOps
import proofs.«426980_j56813827392376_1_alg».proof.Proof.Stages
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

section Line

variable {F : FTy → Type} [FloatOps F]

/-! ## The program as a list of operations -/

/-- @main's operations, in order: the nine stretches one after the other. -/
abbrev ops : List (HloOp τ sig (Elt F)) :=
  ops_0 ++ (ops_1 ++ (ops_2 ++ (ops_3 ++ (ops_4 ++ (ops_5 ++ (ops_6 ++ (ops_7 ++ ops_8)))))))

set_option maxRecDepth 65536 in
set_option maxHeartbeats 4000000 in
/-- @main is that straight line: its three windows in order, the variance routine (with the selection routine it calls) and
    the relu routine unfolded at their calls over each call's buffers; sequencing is associative, so both sides are one
    chain of host steps. -/
theorem main_eq (c : Dev nD) : main (F := F) c = seq ops := by
  simp only [main, main_part0, main_part1, main_part2, fn_var.body, fn_where.body, fn_relu.body, ops, ops_0, ops_1, ops_2, ops_3,
    ops_4, ops_5, ops_6, ops_7, ops_8, List.cons_append, List.nil_append, seq, bind_assoc, pure_bind]

/-- What holds of every member of two lists holds of every member of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- Every operation touches TensorCore references only. -/
theorem ops_sub : (ops : List (HloOp τ sig (Elt F))).Forall fun op => op.bufs ⊆ tcRefs τ sig :=
  forall_append ops_0_sub (forall_append ops_1_sub (forall_append ops_2_sub (forall_append ops_3_sub (forall_append ops_4_sub
    (forall_append ops_5_sub (forall_append ops_6_sub (forall_append ops_7_sub ops_8_sub)))))))

/-- No operation of a stretch leaves a result undetermined. -/
local macro "no_fresh" : tactic =>
  `(tactic| (intro _ h; (repeat (cases h with | head => rfl | tail _ h => ?_)); exact nomatch h))

theorem ops_0_fresh : ∀ op ∈ (ops_0 : List (HloOp τ sig (Elt F))), op.fresh = ∅ := by no_fresh
theorem ops_1_fresh : ∀ op ∈ (ops_1 : List (HloOp τ sig (Elt F))), op.fresh = ∅ := by no_fresh
theorem ops_2_fresh : ∀ op ∈ (ops_2 : List (HloOp τ sig (Elt F))), op.fresh = ∅ := by no_fresh
theorem ops_3_fresh : ∀ op ∈ (ops_3 : List (HloOp τ sig (Elt F))), op.fresh = ∅ := by no_fresh
theorem ops_4_fresh : ∀ op ∈ (ops_4 : List (HloOp τ sig (Elt F))), op.fresh = ∅ := by no_fresh
theorem ops_5_fresh : ∀ op ∈ (ops_5 : List (HloOp τ sig (Elt F))), op.fresh = ∅ := by no_fresh
theorem ops_6_fresh : ∀ op ∈ (ops_6 : List (HloOp τ sig (Elt F))), op.fresh = ∅ := by no_fresh
theorem ops_7_fresh : ∀ op ∈ (ops_7 : List (HloOp τ sig (Elt F))), op.fresh = ∅ := by no_fresh
theorem ops_8_fresh : ∀ op ∈ (ops_8 : List (HloOp τ sig (Elt F))), op.fresh = ∅ := by no_fresh

theorem ops_fresh : ∀ op ∈ (ops : List (HloOp τ sig (Elt F))), op.fresh = ∅ := by
  intro op h
  simp only [ops, List.mem_append] at h
  rcases h with h | h | h | h | h | h | h | h | h
  exacts [ops_0_fresh op h, ops_1_fresh op h, ops_2_fresh op h, ops_3_fresh op h, ops_4_fresh op h, ops_5_fresh op h,
    ops_6_fresh op h, ops_7_fresh op h, ops_8_fresh op h]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over two stretches run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Line

/-! ## Each stretch is its stage

For any contents `W` of the buffers when a stretch begins, the stretch's result buffer ends at the stage function of
what `W` holds at the buffers the stretch reads: the stage is written with the stretch's own operations in its own order. -/

attribute [local irreducible] Host.reduceAdd Host.scatterAdd Host.gather in
/-- The first stretch computes the normaliser of the source list's degrees … -/
theorem deg_src (W : Valuation τ sig (Elt Ideal)) :
    after (ops_0 (F := Ideal)) W (main_v6 : DevRef τ sig) = Stage.degInv (W (main_arg14 : DevRef τ sig)) := by
  after_results_simp
  rfl

attribute [local irreducible] Host.reduceAdd Host.scatterAdd Host.gather in
/-- … and that of the destination list's. -/
theorem deg_dst (W : Valuation τ sig (Elt Ideal)) :
    after (ops_0 (F := Ideal)) W (main_v12 : DevRef τ sig) = Stage.degInv (W (main_arg15 : DevRef τ sig)) := by
  after_results_simp
  rfl

attribute [local irreducible] Host.reduceAdd Host.scatterAdd Host.gather in
/-- The second stretch is the two fused linears. -/
theorem lin_eq (W : Valuation τ sig (Elt Ideal)) :
    after (ops_1 (F := Ideal)) W (main_v21 : DevRef τ sig)
      = Stage.linear (W (main_arg0 : DevRef τ sig)) (W (main_arg1 : DevRef τ sig)) (W (main_arg2 : DevRef τ sig))
          (W (main_arg3 : DevRef τ sig)) (W (main_arg4 : DevRef τ sig)) (W (main_arg5 : DevRef τ sig)) := by
  after_results
  rfl

attribute [local irreducible] Host.reduceAdd Host.scatterAdd Host.gather in
/-- The third stretch — the column means, the variance routine unfolded at its call, the normalisation and the out-degree
    scaling — is the first layer's batch normalisation. -/
theorem norm1_eq (W : Valuation τ sig (Elt Ideal)) :
    after (ops_2 (F := Ideal)) W (main_v43 : DevRef τ sig)
      = Stage.bn (W (main_v21 : DevRef τ sig)) (W (main_arg6 : DevRef τ sig)) (W (main_arg7 : DevRef τ sig))
          (W (main_v6 : DevRef τ sig)) := by
  after_results_simp
  rfl

attribute [local irreducible] Host.reduceAdd Host.scatterAdd Host.gather in
/-- The fourth stretch is the first layer's edge aggregation. -/
theorem agg1_eq (W : Valuation τ sig (Elt Ideal)) :
    after (ops_3 (F := Ideal)) W (main_v53 : DevRef τ sig)
      = Stage.agg (W (main_v43 : DevRef τ sig)) (W (main_arg14 : DevRef τ sig)) (W (main_arg15 : DevRef τ sig)) := by
  after_results_simp
  rfl

attribute [local irreducible] Host.reduceAdd Host.scatterAdd Host.gather in
/-- The fifth stretch — the in-degree scaling, the matmul with bias, the relu routine unfolded at its call, the residual —
    closes the first layer. -/
theorem conv1_eq (W : Valuation τ sig (Elt Ideal)) :
    after (ops_4 (F := Ideal)) W (main_v62 : DevRef τ sig)
      = Stage.conv (W (main_v53 : DevRef τ sig)) (W (main_v12 : DevRef τ sig)) (W (main_arg10 : DevRef τ sig))
          (W (main_arg11 : DevRef τ sig)) (W (main_v21 : DevRef τ sig)) := by
  after_results_simp
  rfl

attribute [local irreducible] Host.reduceAdd Host.scatterAdd Host.gather in
/-- The sixth stretch is the second layer's batch normalisation. -/
theorem norm2_eq (W : Valuation τ sig (Elt Ideal)) :
    after (ops_5 (F := Ideal)) W (main_v84 : DevRef τ sig)
      = Stage.bn (W (main_v62 : DevRef τ sig)) (W (main_arg8 : DevRef τ sig)) (W (main_arg9 : DevRef τ sig))
          (W (main_v6 : DevRef τ sig)) := by
  after_results_simp
  rfl

attribute [local irreducible] Host.reduceAdd Host.scatterAdd Host.gather in
/-- The seventh stretch is the second layer's edge aggregation. -/
theorem agg2_eq (W : Valuation τ sig (Elt Ideal)) :
    after (ops_6 (F := Ideal)) W (main_v94 : DevRef τ sig)
      = Stage.agg (W (main_v84 : DevRef τ sig)) (W (main_arg14 : DevRef τ sig)) (W (main_arg15 : DevRef τ sig)) := by
  after_results_simp
  rfl

attribute [local irreducible] Host.reduceAdd Host.scatterAdd Host.gather in
/-- The eighth stretch closes the second layer. -/
theorem conv2_eq (W : Valuation τ sig (Elt Ideal)) :
    after (ops_7 (F := Ideal)) W (main_v103 : DevRef τ sig)
      = Stage.conv (W (main_v94 : DevRef τ sig)) (W (main_v12 : DevRef τ sig)) (W (main_arg12 : DevRef τ sig))
          (W (main_arg13 : DevRef τ sig)) (W (main_v62 : DevRef τ sig)) := by
  after_results_simp
  rfl

attribute [local irreducible] Host.reduceAdd Host.scatterAdd Host.gather in
/-- The last stretch is the per-graph mean. -/
theorem readout_eq (W : Valuation τ sig (Elt Ideal)) :
    after (ops_8 (F := Ideal)) W (main_v115 : DevRef τ sig)
      = Host.divf (Stage.segSum (W (main_v103 : DevRef τ sig)) (W (main_arg16 : DevRef τ sig)))
          (Stage.cnt (W (main_arg16 : DevRef τ sig))) := by
  after_results_simp
  rfl

/-! ## The fold read at the result and at the arguments -/

set_option maxRecDepth 65536 in
/-- Read at the result buffer, the whole fold is the network's value of the argument arrays: each stretch's result is its stage
    of what the stretch found in the buffers it reads, and a buffer a later stretch reads — an argument, a degree normaliser,
    a layer's input kept for its residual — is written by no stretch in between. -/
theorem out_eq (V : Valuation τ sig (Elt Ideal)) :
    after (ops (F := Ideal)) V (main_v115 : DevRef τ sig)
      = Stage.total (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) := by
  simp only [ops, after_append, Stage.total, Stage.layer]
  rw [readout_eq]
  simp (disch := decide) only [after_of_forall_not_mem]
  rw [conv2_eq]
  simp (disch := decide) only [after_of_forall_not_mem]
  rw [agg2_eq]
  simp (disch := decide) only [after_of_forall_not_mem]
  rw [norm2_eq]
  simp (disch := decide) only [after_of_forall_not_mem]
  rw [conv1_eq]
  simp (disch := decide) only [after_of_forall_not_mem]
  rw [agg1_eq]
  simp (disch := decide) only [after_of_forall_not_mem]
  rw [norm1_eq]
  simp (disch := decide) only [after_of_forall_not_mem]
  rw [lin_eq, deg_src, deg_dst]
  simp (disch := decide) only [after_of_forall_not_mem]

/-- The seventeen argument buffers. -/
abbrev args : List (Ref sig .tc) :=
  [main_arg0, main_arg1, main_arg2, main_arg3, main_arg4, main_arg5, main_arg6, main_arg7, main_arg8, main_arg9, main_arg10,
    main_arg11, main_arg12, main_arg13, main_arg14, main_arg15, main_arg16]

set_option maxRecDepth 1000000 in
/-- No operation writes an argument's buffer. -/
theorem args_kept : ∀ r ∈ args, ∀ op ∈ (ops : List (HloOp τ sig (Elt Ideal))), (r : DevRef τ sig) ∉ op.writes := by
  decide

/-- Read at an argument, the fold is the argument as launched. -/
theorem arg_eq (V : Valuation τ sig (Elt Ideal)) {r : Ref sig .tc}
    (hr : r ∈ args) :
    after (ops (F := Ideal)) V (r : DevRef τ sig) = V (r : DevRef τ sig) :=
  after_of_forall_not_mem _ _ (args_kept r hr)

/-- Every weakly fair execution of the reference terminates without a fault, its result buffer at the network's value
    `Stage.total` of the argument arrays and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v115) = Stage.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v115).trans (out_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide)),
      (h c main_arg11).trans (arg_eq _ (by decide)),
      (h c main_arg12).trans (arg_eq _ (by decide)),
      (h c main_arg13).trans (arg_eq _ (by decide)),
      (h c main_arg14).trans (arg_eq _ (by decide)),
      (h c main_arg15).trans (arg_eq _ (by decide)),
      (h c main_arg16).trans (arg_eq _ (by decide))⟩)
    (run_main m ρ)

end Cert.ReferenceIdeal.Run

end
-- ==== Proof.lean ====
/-
  The certificate of the graph network: a GCN block (two fused input linears, then twice: batch normalisation over
  the 100000 nodes, out-degree scaling, a sum over incoming edges, in-degree scaling, a 128 × 128 matmul with bias,
  relu and a residual) and a per-graph mean over 64 graphs.

  The kernel program runs the dense node-level work as ten tiled regions of 20 row blocks of 5000 nodes each and leaves the
  edge gather / scatter and the degree counts on the host; the reference is the same network written with whole-array
  operations. Over the extended reals the two agree because every tiled region computes, block by block, the
  whole-array stage it replaces: a row block of a matmul is the matmul of the row block; column sums accumulated block
  after block from zero are the column sums (a finite sum regrouped); the biased variance routine's guard is true
  (its normaliser is the positive node count) and its one-row mean is the column mean; and a one-hot matrix times the
  features, accumulated over the blocks, is the sum of each graph's rows, an id outside 0 … 63 matching no column
  exactly as the scatter drops it. The host stretches between the regions are the reference's own operations.
  No law here needs finiteness: only regrouping of sums, `0 · x = 0`, `1 · x = x` and `x + 0 = x` are used, which hold on
  all extended reals, so the precondition is never opened.

  Stages.lean names the stages as whole-array functions; RefRun.lean reads the reference's run as their composition;
  Reg*.lean prove each region's value; FlowA / FlowB follow the kernel program's buffers from segment to segment;
  KernelLaunch.lean re-posts the generated launch with the result buffer named.
-/
import proofs.«426980_j56813827392376_1_alg».proof.Defs
import proofs.«426980_j56813827392376_1_alg».proof.Proof.Gen.Kernel
import proofs.«426980_j56813827392376_1_alg».proof.Proof.Gen.Kernel.Frame
import proofs.«426980_j56813827392376_1_alg».proof.Proof.Gen.KernelIdeal
import proofs.«426980_j56813827392376_1_alg».proof.Proof.Gen.KernelIdeal.Frame
import proofs.«426980_j56813827392376_1_alg».proof.Proof.Gen.ReferenceIdeal
import proofs.«426980_j56813827392376_1_alg».proof.Proof.Gen.Pre_finite_inputs
import proofs.«426980_j56813827392376_1_alg».proof.Proof.KernelLaunch
import proofs.«426980_j56813827392376_1_alg».proof.Proof.FlowB
import proofs.«426980_j56813827392376_1_alg».proof.Proof.RefRun
import Idealize.ShloMosaic.Adequacy
import Idealize.ShloMosaic.Init

noncomputable section

namespace Cert.Proof

open Idealize.ShloMosaic Idealize.SL.Sem

/-- The word-level kernel program's frame is generated whole. -/
theorem frame_p : Cert.frame_Kernel := fun m ρ _ => Cert.Kernel.Gen.frame m ρ

/-- So is the idealized kernel program's. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Run.run m ρ)

/-- Both programs end at the network's value `Stage.total` of their argument arrays, which agree. -/
theorem algebraic : Cert.algebraic_KernelIdeal_ReferenceIdeal := by
  intro m ρ m' ρ' _ hagree
  refine ⟨fun c => Cert.ReferenceIdeal.Stage.total
      (Cert.KernelIdeal.Val.a0 m c) (Cert.KernelIdeal.Val.a1 m c) (Cert.KernelIdeal.Val.a2 m c) (Cert.KernelIdeal.Val.a3 m c)
      (Cert.KernelIdeal.Val.a4 m c) (Cert.KernelIdeal.Val.a5 m c) (Cert.KernelIdeal.Val.a6 m c) (Cert.KernelIdeal.Val.a7 m c)
      (Cert.KernelIdeal.Val.a8 m c) (Cert.KernelIdeal.Val.a9 m c) (Cert.KernelIdeal.Val.a10 m c) (Cert.KernelIdeal.Val.a11 m c)
      (Cert.KernelIdeal.Val.a12 m c) (Cert.KernelIdeal.Val.a13 m c) (Cert.KernelIdeal.Val.a14 m c) (Cert.KernelIdeal.Val.a15 m c)
      (Cert.KernelIdeal.Val.a16 m c), ?_, ?_⟩
  · exact (θ_run Cert.KernelIdeal.defs _ _).mono
      (fun r h c => ⟨(h c).1.trans (Cert.KernelIdeal.Val.result_eq m ρ c), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Run.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
